-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v2)) (v4 : (c : Dev Cert.KernelIdeal.nD) → Buf (Elt Ideal) ((c.tc : Thread Cert.KernelIdeal.nD Cert.KernelIdeal.τ).loc Cert.KernelIdeal.main_v56)) (v5 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_v56) = v4 c
          ∧ r.2.mem ((c.tc : Thread Cert.KernelIdeal.nD Cert.KernelIdeal.τ).loc Cert.KernelIdeal.main_v47) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_v79) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S1000000 : Shape := ⟨1, ![1000000]⟩
abbrev S64x64 : Shape := ⟨2, ![64, 64]⟩
abbrev S64x1 : Shape := ⟨2, ![64, 1]⟩
abbrev S3x128 : Shape := ⟨2, ![3, 128]⟩
abbrev S128 : Shape := ⟨1, ![128]⟩
abbrev S128x16 : Shape := ⟨2, ![128, 16]⟩
abbrev S16 : Shape := ⟨1, ![16]⟩
abbrev S16x128 : Shape := ⟨2, ![16, 128]⟩
abbrev S128x3 : Shape := ⟨2, ![128, 3]⟩
abbrev S3 : Shape := ⟨1, ![3]⟩
abbrev S16x192 : Shape := ⟨2, ![16, 192]⟩
abbrev S64x192 : Shape := ⟨2, ![64, 192]⟩
abbrev S192 : Shape := ⟨1, ![192]⟩
abbrev S64x32 : Shape := ⟨2, ![64, 32]⟩
abbrev S32 : Shape := ⟨1, ![32]⟩
abbrev S32x8 : Shape := ⟨2, ![32, 8]⟩
abbrev S8 : Shape := ⟨1, ![8]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1000000 : S_.BroadcastsInDim S1000000 (![] : Fin 0 → Fin S1000000.rank)
  reducesTo_S1000000_S_d0 : S1000000.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S16x192 : S_.BroadcastsInDim S16x192 (![] : Fin 0 → Fin S16x192.rank)
  reducesTo_S16x192_S_d0_1 : S16x192.ReducesTo [0, 1] S_
  bcast_S_S64x192 : S_.BroadcastsInDim S64x192 (![] : Fin 0 → Fin S64x192.rank)
  reducesTo_S64x192_S_d0_1 : S64x192.ReducesTo [0, 1] S_
  bcast_S_S192 : S_.BroadcastsInDim S192 (![] : Fin 0 → Fin S192.rank)
  reducesTo_S192_S_d0 : S192.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part5 {F : FTy → Type} [FloatOps F] (main_arg19 : FVec F S32x8 .f32) (main_arg20 : FVec F S8 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x8 .f32 := Host.absf main_arg19
  let main_cst_34 : FVec F S_ .f32 := constant S_ .f32 0x7F800000#32
  let main_v90 : FVec F S32x8 .f32 := broadcastInDim S32x8 ![] bcast_S_S32x8 main_cst_34
  let main_v91 : IVec S32x8 1 := cmpf .olt main_v89 main_v90
  let main_c_35 : IVec S_ 1 := constantI S_ 1 1#1
  let main_v92 : IVec S_ 1 := (fun x v => Host.reduce IntOp.andi x v reducesTo_S32x8_S_d0_1 h_S_) main_v91 main_c_35
  let main_v93 : IVec S_ 1 := andi main_v88 main_v92
  let main_v94 : FVec F S8 .f32 := Host.absf main_arg20
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  main_v98

def fn_part4 {F : FTy → Type} [FloatOps F] (main_arg15 : FVec F S192 .f32) (main_arg16 : FVec F S192 .f32) (main_arg17 : FVec F S64x32 .f32) (main_arg18 : FVec F S32 .f32) (main_arg19 : FVec F S32x8 .f32) (main_arg20 : FVec F S8 .f32) (main_v63 : IVec S_ 1) (main_v67 : IVec S_ 1) : IVec S_ 1 :=
  let main_v68 : IVec S_ 1 := andi main_v63 main_v67
  let main_v69 : FVec F S192 .f32 := Host.absf main_arg15
  let main_cst_26 : FVec F S_ .f32 := constant S_ .f32 0x7F800000#32
  let main_v70 : FVec F S192 .f32 := broadcastInDim S192 ![] bcast_S_S192 main_cst_26
  let main_v71 : IVec S192 1 := cmpf .olt main_v69 main_v70
  let main_c_27 : IVec S_ 1 := constantI S_ 1 1#1
  let main_v72 : IVec S_ 1 := (fun x v => Host.reduce IntOp.andi x v reducesTo_S192_S_d0 h_S_) main_v71 main_c_27
  let main_v73 : IVec S_ 1 := andi main_v68 main_v72
  let main_v74 : FVec F S192 .f32 := Host.absf main_arg16
  let main_cst_28 : FVec F S_ .f32 := constant S_ .f32 0x7F800000#32
  let main_v75 : FVec F S192 .f32 := broadcastInDim S192 ![] bcast_S_S192 main_cst_28
  let main_v76 : IVec S192 1 := cmpf .olt main_v74 main_v75
  let main_c_29 : IVec S_ 1 := constantI S_ 1 1#1
  let main_v77 : IVec S_ 1 := (fun x v => Host.reduce IntOp.andi x v reducesTo_S192_S_d0 h_S_) main_v76 main_c_29
  let main_v78 : IVec S_ 1 := andi main_v73 main_v77
  let main_v79 : FVec F S64x32 .f32 := Host.absf main_arg17
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S3 .f32) (main_arg13 : FVec F S16x192 .f32) (main_arg14 : FVec F S64x192 .f32) (main_arg15 : FVec F S192 .f32) (main_arg16 : FVec F S192 .f32) (main_arg17 : FVec F S64x32 .f32) (main_arg18 : FVec F S32 .f32) (main_arg19 : FVec F S32x8 .f32) (main_arg20 : FVec F S8 .f32) (main_v48 : IVec S_ 1) (main_v49 : FVec F S128x3 .f32) (main_v50 : FVec F S128x3 .f32) : IVec S_ 1 :=
  let main_v51 : IVec S128x3 1 := cmpf .olt main_v49 main_v50
  let main_c_19 : IVec S_ 1 := constantI S_ 1 1#1
  let main_v52 : IVec S_ 1 := (fun x v => Host.reduce IntOp.andi x v reducesTo_S128x3_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : FVec F S16x192 .f32 := Host.absf main_arg13
  let main_cst_22 : FVec F S_ .f32 := constant S_ .f32 0x7F800000#32
  let main_v60 : FVec F S16x192 .f32 := broadcastInDim S16x192 ![] bcast_S_S16x192 main_cst_22
  let main_v61 : IVec S16x192 1 := cmpf .olt main_v59 main_v60
  let main_c_23 : IVec S_ 1 := constantI S_ 1 1#1
  let main_v62 : IVec S_ 1 := (fun x v => Host.reduce IntOp.andi x v reducesTo_S16x192_S_d0_1 h_S_) main_v61 main_c_23
  let main_v63 : IVec S_ 1 := andi main_v58 main_v62
  let main_v64 : FVec F S64x192 .f32 := Host.absf main_arg14
  let main_cst_24 : FVec F S_ .f32 := constant S_ .f32 0x7F800000#32
  let main_v65 : FVec F S64x192 .f32 := broadcastInDim S64x192 ![] bcast_S_S64x192 main_cst_24
  let main_v66 : IVec S64x192 1 := cmpf .olt main_v64 main_v65
  let main_c_25 : IVec S_ 1 := constantI S_ 1 1#1
  let main_v67 : IVec S_ 1 := (fun x v => Host.reduce IntOp.andi x v reducesTo_S64x192_S_d0_1 h_S_) main_v66 main_c_25
  fn_part4 (F := F) main_arg15 main_arg16 main_arg17 main_arg18 main_arg19 main_arg20 main_v63 main_v67

def fn_part2 {F : FTy → Type} [FloatOps F] (main_arg8 : FVec F S16 .f32) (main_arg9 : FVec F S16x128 .f32) (main_arg10 : FVec F S128 .f32) (main_arg11 : FVec F S128x3 .f32) (main_arg12 : FVec F S3 .f32) (main_arg13 : FVec F S16x192 .f32) (main_arg14 : FVec F S64x192 .f32) (main_arg15 : FVec F S192 .f32) (main_arg16 : FVec F S192 .f32) (main_arg17 : FVec F S64x32 .f32) (main_arg18 : FVec F S32 .f32) (main_arg19 : FVec F S32x8 .f32) (main_arg20 : FVec F S8 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x128 .f32 := Host.absf main_arg9
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x3 .f32 := Host.absf main_arg11
  let main_cst_18 : FVec F S_ .f32 := constant S_ .f32 0x7F800000#32
  let main_v50 : FVec F S128x3 .f32 := broadcastInDim S128x3 ![] bcast_S_S128x3 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S3x128 .f32) (main_arg6 : FVec F S128 .f32) (main_arg7 : FVec F S128x16 .f32) (main_arg8 : FVec F S16 .f32) (main_arg9 : FVec F S16x128 .f32) (main_arg10 : FVec F S128 .f32) (main_arg11 : FVec F S128x3 .f32) (main_arg12 : FVec F S3 .f32) (main_arg13 : FVec F S16x192 .f32) (main_arg14 : FVec F S64x192 .f32) (main_arg15 : FVec F S192 .f32) (main_arg16 : FVec F S192 .f32) (main_arg17 : FVec F S64x32 .f32) (main_arg18 : FVec F S32 .f32) (main_arg19 : FVec F S32x8 .f32) (main_arg20 : FVec F S8 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg7
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S1000000x3 .f32) (main_arg1 : IVec S1000000 32) (main_arg2 : FVec F S64x64 .f32) (main_arg3 : FVec F S64x1 .f32) (main_arg4 : FVec F S1000000 .f32) (main_arg5 : FVec F S3x128 .f32) (main_arg6 : FVec F S128 .f32) (main_arg7 : FVec F S128x16 .f32) (main_arg8 : FVec F S16 .f32) (main_arg9 : FVec F S16x128 .f32) (main_arg10 : FVec F S128 .f32) (main_arg11 : FVec F S128x3 .f32) (main_arg12 : FVec F S3 .f32) (main_arg13 : FVec F S16x192 .f32) (main_arg14 : FVec F S64x192 .f32) (main_arg15 : FVec F S192 .f32) (main_arg16 : FVec F S192 .f32) (main_arg17 : FVec F S64x32 .f32) (main_arg18 : FVec F S32 .f32) (main_arg19 : FVec F S32x8 .f32) (main_arg20 : FVec F S8 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x1 .f32 := Host.absf main_arg3
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S1000000 .f32 := Host.absf main_arg4
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S1000000x3 : Shape := ⟨2, ![1000000, 3]⟩
abbrev S1000000 : Shape := ⟨1, ![1000000]⟩
abbrev S64x64 : Shape := ⟨2, ![64, 64]⟩
abbrev S64x1 : Shape := ⟨2, ![64, 1]⟩
abbrev S3x128 : Shape := ⟨2, ![3, 128]⟩
abbrev S128 : Shape := ⟨1, ![128]⟩
abbrev S128x16 : Shape := ⟨2, ![128, 16]⟩
abbrev S16 : Shape := ⟨1, ![16]⟩
abbrev S16x128 : Shape := ⟨2, ![16, 128]⟩
abbrev S128x3 : Shape := ⟨2, ![128, 3]⟩
abbrev S3 : Shape := ⟨1, ![3]⟩
abbrev S16x192 : Shape := ⟨2, ![16, 192]⟩
abbrev S64x192 : Shape := ⟨2, ![64, 192]⟩
abbrev S192 : Shape := ⟨1, ![192]⟩
abbrev S64x32 : Shape := ⟨2, ![64, 32]⟩
abbrev S32 : Shape := ⟨1, ![32]⟩
abbrev S32x8 : Shape := ⟨2, ![32, 8]⟩
abbrev S8 : Shape := ⟨1, ![8]⟩
abbrev S1000000x1 : Shape := ⟨2, ![1000000, 1]⟩
abbrev S1000000x16 : Shape := ⟨2, ![1000000, 16]⟩
abbrev S2x64x18 : Shape := ⟨3, ![2, 64, 18]⟩
abbrev S10000x3 : Shape := ⟨2, ![10000, 3]⟩
abbrev S10000x1 : Shape := ⟨2, ![10000, 1]⟩
abbrev S10000x16 : Shape := ⟨2, ![10000, 16]⟩
abbrev S1x64x18 : Shape := ⟨3, ![1, 64, 18]⟩
abbrev S64x18 : Shape := ⟨2, ![64, 18]⟩
abbrev S10000x128 : Shape := ⟨2, ![10000, 128]⟩
abbrev S1x128 : Shape := ⟨2, ![1, 128]⟩
abbrev S1x16 : Shape := ⟨2, ![1, 16]⟩
abbrev S1x3 : Shape := ⟨2, ![1, 3]⟩
abbrev S10000 : Shape := ⟨1, ![10000]⟩
abbrev S10000x64 : Shape := ⟨2, ![10000, 64]⟩
abbrev S10000x18 : Shape := ⟨2, ![10000, 18]⟩
abbrev S_ : Shape := ⟨0, ![]⟩
abbrev S64x16 : Shape := ⟨2, ![64, 16]⟩
abbrev S1x192 : Shape := ⟨2, ![1, 192]⟩
abbrev S1x32 : Shape := ⟨2, ![1, 32]⟩
abbrev S64x8 : Shape := ⟨2, ![64, 8]⟩
abbrev S1x8 : Shape := ⟨2, ![1, 8]⟩

abbrev nBuf : Space → Nat
  | .hbm => 88
  | .vmem => 20
  | .smem => 0
  | _ => 0

abbrev bufTy : (tb : Table) → Fin (tcTables nBuf tb) → BufTy
  | .hbm, ⟨0, _⟩ => ⟨S1000000x3, .f32⟩
  | .hbm, ⟨1, _⟩ => ⟨S1000000, .i32⟩
  | .hbm, ⟨2, _⟩ => ⟨S64x64, .f32⟩
  | .hbm, ⟨3, _⟩ => ⟨S64x1, .f32⟩
  | .hbm, ⟨4, _⟩ => ⟨S1000000, .f32⟩
  | .hbm, ⟨5, _⟩ => ⟨S3x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S16x128, .f32⟩
  | .hbm, ⟨10, _⟩ => ⟨S128, .f32⟩
  | .hbm, ⟨11, _⟩ => ⟨S128x3, .f32⟩
  | .hbm, ⟨12, _⟩ => ⟨S3, .f32⟩
  | .hbm, ⟨13, _⟩ => ⟨S16x192, .f32⟩
  | .hbm, ⟨14, _⟩ => ⟨S64x192, .f32⟩
  | .hbm, ⟨15, _⟩ => ⟨S192, .f32⟩
  | .hbm, ⟨16, _⟩ => ⟨S192, .f32⟩
  | .hbm, ⟨17, _⟩ => ⟨S64x32, .f32⟩
  | .hbm, ⟨18, _⟩ => ⟨S32, .f32⟩
  | .hbm, ⟨19, _⟩ => ⟨S32x8, .f32⟩
  | .hbm, ⟨20, _⟩ => ⟨S8, .f32⟩
  | .hbm, ⟨21, _⟩ => ⟨S1000000x1, .i32⟩
  | .hbm, ⟨22, _⟩ => ⟨S1000000x16, .f32⟩
  | .hbm, ⟨23, _⟩ => ⟨S1000000x3, .f32⟩
  | .hbm, ⟨24, _⟩ => ⟨S1000000x1, .f32⟩
  | .hbm, ⟨25, _⟩ => ⟨S2x64x18, .f32⟩
  | .hbm, ⟨26, _⟩ => ⟨S1000000, .f32⟩
  | .hbm, ⟨27, _⟩ => ⟨S_, .f32⟩
  | .hbm, ⟨28, _⟩ => ⟨S64x18, .f32⟩
  | .hbm, ⟨29, _⟩ => ⟨S64x16, .f32⟩
  | .hbm, ⟨30, _⟩ => ⟨S64x1, .f32⟩
  | .hbm, ⟨31, _⟩ => ⟨S64x1, .f32⟩
  | .hbm, ⟨32, _⟩ => ⟨S_, .f32⟩
  | .hbm, ⟨33, _⟩ => ⟨S64x1, .f32⟩
  | .hbm, ⟨34, _⟩ => ⟨S64x1, .f32⟩
  | .hbm, ⟨35, _⟩ => ⟨S64x1, .f32⟩
  | .hbm, ⟨36, _⟩ => ⟨S64x16, .f32⟩
  | .hbm, ⟨37, _⟩ => ⟨S64x16, .f32⟩
  | .hbm, ⟨38, _⟩ => ⟨S64x192, .f32⟩
  | .hbm, ⟨39, _⟩ => ⟨S1x192, .f32⟩
  | .hbm, ⟨40, _⟩ => ⟨S64x192, .f32⟩
  | .hbm, ⟨41, _⟩ => ⟨S64x192, .f32⟩
  | .hbm, ⟨42, _⟩ => ⟨S64x192, .f32⟩
  | .hbm, ⟨43, _⟩ => ⟨S1x192, .f32⟩
  | .hbm, ⟨44, _⟩ => ⟨S64x192, .f32⟩
  | .hbm, ⟨45, _⟩ => ⟨S64x192, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S_, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S_, .f32⟩
  | .hbm, ⟨65, _⟩ => ⟨S64x64, .f32⟩
  | .hbm, ⟨66, _⟩ => ⟨S64x64, .f32⟩
  | .hbm, ⟨67, _⟩ => ⟨S_, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S_, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S64x64, .f32⟩
  | .hbm, ⟨79, _⟩ => ⟨S64x32, .f32⟩
  | .hbm, ⟨80, _⟩ => ⟨S1x32, .f32⟩
  | .hbm, ⟨81, _⟩ => ⟨S64x32, .f32⟩
  | .hbm, ⟨82, _⟩ => ⟨S64x32, .f32⟩
  | .hbm, ⟨83, _⟩ => ⟨S64x32, .f32⟩
  | .hbm, ⟨84, _⟩ => ⟨S64x8, .f32⟩
  | .hbm, ⟨85, _⟩ => ⟨S1x8, .f32⟩
  | .hbm, ⟨86, _⟩ => ⟨S64x8, .f32⟩
  | .hbm, ⟨87, _⟩ => ⟨S64x8, .f32⟩
  | .local _ .vmem, ⟨0, _⟩ => ⟨S10000x3, .f32⟩
  | .local _ .vmem, ⟨1, _⟩ => ⟨S10000x3, .f32⟩
  | .local _ .vmem, ⟨2, _⟩ => ⟨S10000x1, .i32⟩
  | .local _ .vmem, ⟨3, _⟩ => ⟨S10000x1, .i32⟩
  | .local _ .vmem, ⟨4, _⟩ => ⟨S3x128, .f32⟩
  | .local _ .vmem, ⟨5, _⟩ => ⟨S128, .f32⟩
  | .local _ .vmem, ⟨6, _⟩ => ⟨S128x16, .f32⟩
  | .local _ .vmem, ⟨7, _⟩ => ⟨S16, .f32⟩
  | .local _ .vmem, ⟨8, _⟩ => ⟨S16x128, .f32⟩
  | .local _ .vmem, ⟨9, _⟩ => ⟨S128, .f32⟩
  | .local _ .vmem, ⟨10, _⟩ => ⟨S128x3, .f32⟩
  | .local _ .vmem, ⟨11, _⟩ => ⟨S3, .f32⟩
  | .local _ .vmem, ⟨12, _⟩ => ⟨S10000x16, .f32⟩
  | .local _ .vmem, ⟨13, _⟩ => ⟨S10000x16, .f32⟩
  | .local _ .vmem, ⟨14, _⟩ => ⟨S10000x3, .f32⟩
  | .local _ .vmem, ⟨15, _⟩ => ⟨S10000x3, .f32⟩
  | .local _ .vmem, ⟨16, _⟩ => ⟨S10000x1, .f32⟩
  | .local _ .vmem, ⟨17, _⟩ => ⟨S10000x1, .f32⟩
  | .local _ .vmem, ⟨18, _⟩ => ⟨S1x64x18, .f32⟩
  | .local _ .vmem, ⟨19, _⟩ => ⟨S1x64x18, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1_0 : Ref sig .tc := ⟨.hbm, 22, rfl⟩
abbrev main_v1_1 : Ref sig .tc := ⟨.hbm, 23, rfl⟩
abbrev main_v1_2 : Ref sig .tc := ⟨.hbm, 24, rfl⟩
abbrev main_v1_3 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_1 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_cst_4 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S10000x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S10000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S10000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x18 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  shapeCasts_S1000000_S1000000x1 : S1000000.ShapeCasts S1000000x1
  inb_S1x64x18_S1x64x18_0_0_0 : ∀ a, (![0, 0, 0] : Fin 3 → Nat) a + S1x64x18.size a ≤ S1x64x18.size a
  h_S1x64x18 : 0 < S1x64x18.numel
  shapeCasts_S1x64x18_S64x18 : S1x64x18.ShapeCasts S64x18
  shapeCasts_S64x18_S1x64x18 : S64x18.ShapeCasts S1x64x18
  inb_S10000x3_S10000x3_0_0 : ∀ a, (![0, 0] : Fin 2 → Nat) a + S10000x3.size a ≤ S10000x3.size a
  h_S10000x3 : 0 < S10000x3.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S3x128_S3x128_0_0 : ∀ a, (![0, 0] : Fin 2 → Nat) a + S3x128.size a ≤ S3x128.size a
  h_S3x128 : 0 < S3x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S16x128_S16x128_0_0 : ∀ a, (![0, 0] : Fin 2 → Nat) a + S16x128.size a ≤ S16x128.size a
  h_S16x128 : 0 < S16x128.numel
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S10000x3 : S1x3.Broadcasts S10000x3
  reduces_S10000x3_S10000 : S10000x3.Reduces [1] S10000
  shapeCasts_S10000_S10000x1 : S10000.ShapeCasts S10000x1
  inb_S10000x16_S10000x16_0_0 : ∀ a, (![0, 0] : Fin 2 → Nat) a + S10000x16.size a ≤ S10000x16.size a
  h_S10000x16 : 0 < S10000x16.numel
  iota_S10000x64_d1_w32 : S10000x64.Iotas .tc 32 [1]
  broadcasts_S10000x1_S10000x64 : S10000x1.Broadcasts S10000x64
  natLt_1_32 : 1 < 32
  concatenates_S10000x16_S10000x1_S10000x1_S10000x18_d1 : Shape.Concatenates [S10000x16, S10000x1, S10000x1] S10000x18 1
  shapeCasts_S1000000x1_S1000000 : S1000000x1.ShapeCasts S1000000
  reducesTo_S2x64x18_S64x18_d0 : S2x64x18.ReducesTo [0] S64x18
  h_S_ : 0 < S_.numel
  slices_S64x18_S64x16_0_0 : S64x18.Slices ![0, 0] S64x16
  slices_S64x18_S64x1_0_16 : S64x18.Slices ![0, 16] S64x1
  slices_S64x18_S64x1_0_17 : S64x18.Slices ![0, 17] S64x1
  bcast_S_S64x1 : S_.BroadcastsInDim S64x1 (![] : Fin 0 → Fin S64x1.rank)
  bcast_S64x1_S64x16_0_1 : S64x1.BroadcastsInDim S64x16 (![0, 1] : Fin 2 → Fin S64x16.rank)
  bcast_S192_S1x192_1 : S192.BroadcastsInDim S1x192 (![1] : Fin 1 → Fin S1x192.rank)
  bcast_S1x192_S64x192_0_1 : S1x192.BroadcastsInDim S64x192 (![0, 1] : Fin 2 → Fin S64x192.rank)
  slices_S64x192_S64x64_0_0 : S64x192.Slices ![0, 0] S64x64
  slices_S64x192_S64x64_0_64 : S64x192.Slices ![0, 64] S64x64
  slices_S64x192_S64x64_0_128 : S64x192.Slices ![0, 128] S64x64
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  dot_S10000x3_S3x128_S10000x128_1_0_0_1_n_n_wf : DotDims.WF S10000x3 S3x128 S10000x128 [1] [0] [0] [1] [] []
  dot_S10000x128_S128x16_S10000x16_1_0_0_1_n_n_wf : DotDims.WF S10000x128 S128x16 S10000x16 [1] [0] [0] [1] [] []
  dot_S10000x16_S16x128_S10000x128_1_0_0_1_n_n_wf : DotDims.WF S10000x16 S16x128 S10000x128 [1] [0] [0] [1] [] []
  dot_S10000x128_S128x3_S10000x3_1_0_0_1_n_n_wf : DotDims.WF S10000x128 S128x3 S10000x3 [1] [0] [0] [1] [] []
  dot_S10000x64_S10000x18_S64x18_0_0_1_1_n_n_wf : DotDims.WF S10000x64 S10000x18 S64x18 [0] [0] [1] [1] [] []
  dot_S64x16_S16x192_S64x192_1_0_0_1_n_n_wf : DotDims.WF S64x16 S16x192 S64x192 [1] [0] [0] [1] [] []
  dot_S64x64_S64x192_S64x192_1_0_0_1_n_n_wf : DotDims.WF S64x64 S64x192 S64x192 [1] [0] [0] [1] [] []
  dot_S64x64_S64x32_S64x32_1_0_0_1_n_n_wf : DotDims.WF S64x64 S64x32 S64x32 [1] [0] [0] [1] [] []
  dot_S64x32_S32x8_S64x8_1_0_0_1_n_n_wf : DotDims.WF S64x32 S32x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S1000000x3.size a
  hwx0_0 : ∀ i : grid0.Coords, EltTy.bits .f32 = 32 ∨ (Rect.block (s := S1000000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1000000x1.size a
  hwx0_1 : ∀ i : grid0.Coords, EltTy.bits .i32 = 32 ∨ (Rect.block (s := S1000000x1) S10000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .f32 = 32 ∨ (Rect.block (s := S128x16) S128x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x128.size a
  hwx0_6 : ∀ i : grid0.Coords, EltTy.bits .f32 = 32 ∨ (Rect.block (s := S16x128) S16x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x3.size a ≤ S128x3.size a
  hwx0_8 : ∀ i : grid0.Coords, EltTy.bits .f32 = 32 ∨ (Rect.block (s := S128x3) S128x3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3.size a ≤ S3.size a
  hwx0_9 : ∀ i : grid0.Coords, EltTy.bits .f32 = 32 ∨ (Rect.block (s := S3) S3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x16.size a ≤ S1000000x16.size a
  hwx0_10 : ∀ i : grid0.Coords, EltTy.bits .f32 = 32 ∨ (Rect.block (s := S1000000x16) S10000x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10000x3.size a ≤ S1000000x3.size a
  hwx0_11 : ∀ i : grid0.Coords, EltTy.bits .f32 = 32 ∨ (Rect.block (s := S1000000x3) S10000x3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S10000x1.size a ≤ S1000000x1.size a
  hwx0_12 : ∀ i : grid0.Coords, EltTy.bits .f32 = 32 ∨ (Rect.block (s := S1000000x1) S10000x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x64x18.size a ≤ S2x64x18.size a
  hwx0_13 : ∀ i : grid0.Coords, EltTy.bits .f32 = 32 ∨ (Rect.block (s := S2x64x18) S1x64x18.size (cc0_transform_13 i) (hinb0_13 i)).WholeWords (EltTy.packing .f32)

variable [Facts₀]

def dot_S10000x3_S3x128_S10000x128_1_0_0_1_n_n : DotDims S10000x3 S3x128 S10000x128 where
  lhsContracting := [1]
  rhsContracting := [0]
  lhsNonContracting := [0]
  rhsNonContracting := [1]
  lhsBatch := []
  rhsBatch := []
  wf := dot_S10000x3_S3x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf
def dot_S10000x64_S10000x18_S64x18_0_0_1_1_n_n : DotDims S10000x64 S10000x18 S64x18 where
  lhsContracting := [0]
  rhsContracting := [0]
  lhsNonContracting := [1]
  rhsNonContracting := [1]
  lhsBatch := []
  rhsBatch := []
  wf := dot_S10000x64_S10000x18_S64x18_0_0_1_1_n_n_wf
def dot_S64x16_S16x192_S64x192_1_0_0_1_n_n : DotDims S64x16 S16x192 S64x192 where
  lhsContracting := [1]
  rhsContracting := [0]
  lhsNonContracting := [0]
  rhsNonContracting := [1]
  lhsBatch := []
  rhsBatch := []
  wf := dot_S64x16_S16x192_S64x192_1_0_0_1_n_n_wf
def dot_S64x64_S64x192_S64x192_1_0_0_1_n_n : DotDims S64x64 S64x192 S64x192 where
  lhsContracting := [1]
  rhsContracting := [0]
  lhsNonContracting := [0]
  rhsNonContracting := [1]
  lhsBatch := []
  rhsBatch := []
  wf := dot_S64x64_S64x192_S64x192_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x8_S64x8_1_0_0_1_n_n : DotDims S64x32 S32x8 S64x8 where
  lhsContracting := [1]
  rhsContracting := [0]
  lhsNonContracting := [0]
  rhsNonContracting := [1]
  lhsBatch := []
  rhsBatch := []
  wf := dot_S64x32_S32x8_S64x8_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S16x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1_0) S10000x16.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v1_1) S10000x3.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1_2) S10000x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1_3) S1x64x18.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S1000000 : Shape := ⟨1, ![1000000]⟩
abbrev S64x64 : Shape := ⟨2, ![64, 64]⟩
abbrev S64x1 : Shape := ⟨2, ![64, 1]⟩
abbrev S3x128 : Shape := ⟨2, ![3, 128]⟩
abbrev S128 : Shape := ⟨1, ![128]⟩
abbrev S128x16 : Shape := ⟨2, ![128, 16]⟩
abbrev S16 : Shape := ⟨1, ![16]⟩
abbrev S16x128 : Shape := ⟨2, ![16, 128]⟩
abbrev S128x3 : Shape := ⟨2, ![128, 3]⟩
abbrev S3 : Shape := ⟨1, ![3]⟩
abbrev S16x192 : Shape := ⟨2, ![16, 192]⟩
abbrev S64x192 : Shape := ⟨2, ![64, 192]⟩
abbrev S192 : Shape := ⟨1, ![192]⟩
abbrev S64x32 : Shape := ⟨2, ![64, 32]⟩
abbrev S32 : Shape := ⟨1, ![32]⟩
abbrev S32x8 : Shape := ⟨2, ![32, 8]⟩
abbrev S8 : Shape := ⟨1, ![8]⟩
abbrev S1000000x128 : Shape := ⟨2, ![1000000, 128]⟩
abbrev S1x128 : Shape := ⟨2, ![1, 128]⟩
abbrev S_ : Shape := ⟨0, ![]⟩
abbrev S1000000x16 : Shape := ⟨2, ![1000000, 16]⟩
abbrev S1x16 : Shape := ⟨2, ![1, 16]⟩
abbrev S1x3 : Shape := ⟨2, ![1, 3]⟩
abbrev S64 : Shape := ⟨1, ![64]⟩
abbrev S1000000x1 : Shape := ⟨2, ![1000000, 1]⟩
abbrev S64x16 : Shape := ⟨2, ![64, 16]⟩
abbrev S1x192 : Shape := ⟨2, ![1, 192]⟩
abbrev S1x32 : Shape := ⟨2, ![1, 32]⟩
abbrev S64x8 : Shape := ⟨2, ![64, 8]⟩
abbrev S1x8 : Shape := ⟨2, ![1, 8]⟩

abbrev nBuf : Space → Nat
  | .hbm => 128
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S1000000, .i32⟩
  | .hbm, ⟨2, _⟩ => ⟨S64x64, .f32⟩
  | .hbm, ⟨3, _⟩ => ⟨S64x1, .f32⟩
  | .hbm, ⟨4, _⟩ => ⟨S1000000, .f32⟩
  | .hbm, ⟨5, _⟩ => ⟨S3x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S16x128, .f32⟩
  | .hbm, ⟨10, _⟩ => ⟨S128, .f32⟩
  | .hbm, ⟨11, _⟩ => ⟨S128x3, .f32⟩
  | .hbm, ⟨12, _⟩ => ⟨S3, .f32⟩
  | .hbm, ⟨13, _⟩ => ⟨S16x192, .f32⟩
  | .hbm, ⟨14, _⟩ => ⟨S64x192, .f32⟩
  | .hbm, ⟨15, _⟩ => ⟨S192, .f32⟩
  | .hbm, ⟨16, _⟩ => ⟨S192, .f32⟩
  | .hbm, ⟨17, _⟩ => ⟨S64x32, .f32⟩
  | .hbm, ⟨18, _⟩ => ⟨S32, .f32⟩
  | .hbm, ⟨19, _⟩ => ⟨S32x8, .f32⟩
  | .hbm, ⟨20, _⟩ => ⟨S8, .f32⟩
  | .hbm, ⟨21, _⟩ => ⟨S1000000x128, .f32⟩
  | .hbm, ⟨22, _⟩ => ⟨S1x128, .f32⟩
  | .hbm, ⟨23, _⟩ => ⟨S1000000x128, .f32⟩
  | .hbm, ⟨24, _⟩ => ⟨S1000000x128, .f32⟩
  | .hbm, ⟨25, _⟩ => ⟨S_, .f32⟩
  | .hbm, ⟨26, _⟩ => ⟨S1000000x128, .f32⟩
  | .hbm, ⟨27, _⟩ => ⟨S1000000x128, .f32⟩
  | .hbm, ⟨28, _⟩ => ⟨S1000000x16, .f32⟩
  | .hbm, ⟨29, _⟩ => ⟨S1x16, .f32⟩
  | .hbm, ⟨30, _⟩ => ⟨S1000000x16, .f32⟩
  | .hbm, ⟨31, _⟩ => ⟨S1000000x16, .f32⟩
  | .hbm, ⟨32, _⟩ => ⟨S1000000x128, .f32⟩
  | .hbm, ⟨33, _⟩ => ⟨S1x128, .f32⟩
  | .hbm, ⟨34, _⟩ => ⟨S1000000x128, .f32⟩
  | .hbm, ⟨35, _⟩ => ⟨S1000000x128, .f32⟩
  | .hbm, ⟨36, _⟩ => ⟨S_, .f32⟩
  | .hbm, ⟨37, _⟩ => ⟨S1000000x128, .f32⟩
  | .hbm, ⟨38, _⟩ => ⟨S1000000x128, .f32⟩
  | .hbm, ⟨39, _⟩ => ⟨S1000000x3, .f32⟩
  | .hbm, ⟨40, _⟩ => ⟨S1x3, .f32⟩
  | .hbm, ⟨41, _⟩ => ⟨S1000000x3, .f32⟩
  | .hbm, ⟨42, _⟩ => ⟨S1000000x3, .f32⟩
  | .hbm, ⟨43, _⟩ => ⟨S1000000x3, .f32⟩
  | .hbm, ⟨44, _⟩ => ⟨S1000000x3, .f32⟩
  | .hbm, ⟨45, _⟩ => ⟨S_, .f32⟩
  | .hbm, ⟨46, _⟩ => ⟨S1000000, .f32⟩
  | .hbm, ⟨47, _⟩ => ⟨S_, .f32⟩
  | .hbm, ⟨48, _⟩ => ⟨S64, .f32⟩
  | .hbm, ⟨49, _⟩ => ⟨S1000000x1, .i32⟩
  | .hbm, ⟨50, _⟩ => ⟨S64, .f32⟩
  | .hbm, ⟨51, _⟩ => ⟨S_, .f32⟩
  | .hbm, ⟨52, _⟩ => ⟨S1000000, .f32⟩
  | .hbm, ⟨53, _⟩ => ⟨S_, .f32⟩
  | .hbm, ⟨54, _⟩ => ⟨S64, .f32⟩
  | .hbm, ⟨55, _⟩ => ⟨S1000000x1, .i32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64x1, .f32⟩
  | .hbm, ⟨62, _⟩ => ⟨S_, .f32⟩
  | .hbm, ⟨63, _⟩ => ⟨S64x16, .f32⟩
  | .hbm, ⟨64, _⟩ => ⟨S1000000x1, .i32⟩
  | .hbm, ⟨65, _⟩ => ⟨S64x16, .f32⟩
  | .hbm, ⟨66, _⟩ => ⟨S_, .f32⟩
  | .hbm, ⟨67, _⟩ => ⟨S1000000, .f32⟩
  | .hbm, ⟨68, _⟩ => ⟨S_, .f32⟩
  | .hbm, ⟨69, _⟩ => ⟨S64, .f32⟩
  | .hbm, ⟨70, _⟩ => ⟨S1000000x1, .i32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64x1, .f32⟩
  | .hbm, ⟨76, _⟩ => ⟨S64x16, .f32⟩
  | .hbm, ⟨77, _⟩ => ⟨S64x16, .f32⟩
  | .hbm, ⟨78, _⟩ => ⟨S64x192, .f32⟩
  | .hbm, ⟨79, _⟩ => ⟨S1x192, .f32⟩
  | .hbm, ⟨80, _⟩ => ⟨S64x192, .f32⟩
  | .hbm, ⟨81, _⟩ => ⟨S64x192, .f32⟩
  | .hbm, ⟨82, _⟩ => ⟨S64x192, .f32⟩
  | .hbm, ⟨83, _⟩ => ⟨S1x192, .f32⟩
  | .hbm, ⟨84, _⟩ => ⟨S64x192, .f32⟩
  | .hbm, ⟨85, _⟩ => ⟨S64x192, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S64x64, .f32⟩
  | .hbm, ⟨94, _⟩ => ⟨S64x64, .f32⟩
  | .hbm, ⟨95, _⟩ => ⟨S_, .f32⟩
  | .hbm, ⟨96, _⟩ => ⟨S64x64, .f32⟩
  | .hbm, ⟨97, _⟩ => ⟨S64x64, .f32⟩
  | .hbm, ⟨98, _⟩ => ⟨S_, .f32⟩
  | .hbm, ⟨99, _⟩ => ⟨S64x64, .f32⟩
  | .hbm, ⟨100, _⟩ => ⟨S64x64, .f32⟩
  | .hbm, ⟨101, _⟩ => ⟨S64x64, .f32⟩
  | .hbm, ⟨102, _⟩ => ⟨S64x64, .f32⟩
  | .hbm, ⟨103, _⟩ => ⟨S64x64, .f32⟩
  | .hbm, ⟨104, _⟩ => ⟨S_, .f32⟩
  | .hbm, ⟨105, _⟩ => ⟨S64x64, .f32⟩
  | .hbm, ⟨106, _⟩ => ⟨S64x64, .f32⟩
  | .hbm, ⟨107, _⟩ => ⟨S_, .f32⟩
  | .hbm, ⟨108, _⟩ => ⟨S64x64, .f32⟩
  | .hbm, ⟨109, _⟩ => ⟨S64x64, .f32⟩
  | .hbm, ⟨110, _⟩ => ⟨S64x64, .f32⟩
  | .hbm, ⟨111, _⟩ => ⟨S64x64, .f32⟩
  | .hbm, ⟨112, _⟩ => ⟨S64x64, .f32⟩
  | .hbm, ⟨113, _⟩ => ⟨S_, .f32⟩
  | .hbm, ⟨114, _⟩ => ⟨S64x64, .f32⟩
  | .hbm, ⟨115, _⟩ => ⟨S64x64, .f32⟩
  | .hbm, ⟨116, _⟩ => ⟨S64x64, .f32⟩
  | .hbm, ⟨117, _⟩ => ⟨S64x64, .f32⟩
  | .hbm, ⟨118, _⟩ => ⟨S64x64, .f32⟩
  | .hbm, ⟨119, _⟩ => ⟨S64x32, .f32⟩
  | .hbm, ⟨120, _⟩ => ⟨S1x32, .f32⟩
  | .hbm, ⟨121, _⟩ => ⟨S64x32, .f32⟩
  | .hbm, ⟨122, _⟩ => ⟨S64x32, .f32⟩
  | .hbm, ⟨123, _⟩ => ⟨S64x32, .f32⟩
  | .hbm, ⟨124, _⟩ => ⟨S64x8, .f32⟩
  | .hbm, ⟨125, _⟩ => ⟨S1x8, .f32⟩
  | .hbm, ⟨126, _⟩ => ⟨S64x8, .f32⟩
  | .hbm, ⟨127, _⟩ => ⟨S64x8, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call1_cst : Ref sig .tc := ⟨.hbm, 36, rfl⟩
abbrev main_call1_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_cst_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_8 : Ref sig .tc := ⟨.hbm, 95, rfl⟩
abbrev main_v61 : Ref sig .tc := ⟨.hbm, 96, rfl⟩
abbrev main_v62 : Ref sig .tc := ⟨.hbm, 97, rfl⟩
abbrev main_cst_9 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_12 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  reducesTo_S1000000x3_S1000000_d1 : S1000000x3.ReducesTo [1] S1000000
  h_S_ : 0 < S_.numel
  bcast_S_S64 : S_.BroadcastsInDim S64 (![] : Fin 0 → Fin S64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S64_S64x1_0 : S64.BroadcastsInDim S64x1 (![0] : Fin 1 → Fin S64x1.rank)
  bcast_S_S64x16 : S_.BroadcastsInDim S64x16 (![] : Fin 0 → Fin S64x16.rank)
  bcast_S64x1_S64x16_0_1 : S64x1.BroadcastsInDim S64x16 (![0, 1] : Fin 2 → Fin S64x16.rank)
  bcast_S192_S1x192_1 : S192.BroadcastsInDim S1x192 (![1] : Fin 1 → Fin S1x192.rank)
  bcast_S1x192_S64x192_0_1 : S1x192.BroadcastsInDim S64x192 (![0, 1] : Fin 2 → Fin S64x192.rank)
  slices_S64x192_S64x64_0_0 : S64x192.Slices ![0, 0] S64x64
  slices_S64x192_S64x64_0_64 : S64x192.Slices ![0, 64] S64x64
  slices_S64x192_S64x64_0_128 : S64x192.Slices ![0, 128] S64x64
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  dot_S1000000x3_S3x128_S1000000x128_1_0_0_1_n_n_wf : DotDims.WF S1000000x3 S3x128 S1000000x128 [1] [0] [0] [1] [] []
  dot_S1000000x128_S128x16_S1000000x16_1_0_0_1_n_n_wf : DotDims.WF S1000000x128 S128x16 S1000000x16 [1] [0] [0] [1] [] []
  dot_S1000000x16_S16x128_S1000000x128_1_0_0_1_n_n_wf : DotDims.WF S1000000x16 S16x128 S1000000x128 [1] [0] [0] [1] [] []
  dot_S1000000x128_S128x3_S1000000x3_1_0_0_1_n_n_wf : DotDims.WF S1000000x128 S128x3 S1000000x3 [1] [0] [0] [1] [] []
  scatter_S64_S1000000x1_S1000000_n_0_0_1_wf : ScatterDims.WF S64 S1000000x1 S1000000 [] [0] [0] 1
  scatter_S64x16_S1000000x1_S1000000x16_1_0_0_1_wf : ScatterDims.WF S64x16 S1000000x1 S1000000x16 [1] [0] [0] 1
  dot_S64x16_S16x192_S64x192_1_0_0_1_n_n_wf : DotDims.WF S64x16 S16x192 S64x192 [1] [0] [0] [1] [] []
  dot_S64x64_S64x192_S64x192_1_0_0_1_n_n_wf : DotDims.WF S64x64 S64x192 S64x192 [1] [0] [0] [1] [] []
  dot_S64x64_S64x32_S64x32_1_0_0_1_n_n_wf : DotDims.WF S64x64 S64x32 S64x32 [1] [0] [0] [1] [] []
  dot_S64x32_S32x8_S64x8_1_0_0_1_n_n_wf : DotDims.WF S64x32 S32x8 S64x8 [1] [0] [0] [1] [] []

variable [Facts₀]

def dot_S1000000x3_S3x128_S1000000x128_1_0_0_1_n_n : DotDims S1000000x3 S3x128 S1000000x128 where
  lhsContracting := [1]
  rhsContracting := [0]
  lhsNonContracting := [0]
  rhsNonContracting := [1]
  lhsBatch := []
  rhsBatch := []
  wf := dot_S1000000x3_S3x128_S1000000x128_1_0_0_1_n_n_wf
def dot_S1000000x128_S128x16_S1000000x16_1_0_0_1_n_n : DotDims S1000000x128 S128x16 S1000000x16 where
  lhsContracting := [1]
  rhsContracting := [0]
  lhsNonContracting := [0]
  rhsNonContracting := [1]
  lhsBatch := []
  rhsBatch := []
  wf := dot_S1000000x128_S128x16_S1000000x16_1_0_0_1_n_n_wf
def dot_S1000000x16_S16x128_S1000000x128_1_0_0_1_n_n : DotDims S1000000x16 S16x128 S1000000x128 where
  lhsContracting := [1]
  rhsContracting := [0]
  lhsNonContracting := [0]
  rhsNonContracting := [1]
  lhsBatch := []
  rhsBatch := []
  wf := dot_S1000000x16_S16x128_S1000000x128_1_0_0_1_n_n_wf
def dot_S1000000x128_S128x3_S1000000x3_1_0_0_1_n_n : DotDims S1000000x128 S128x3 S1000000x3 where
  lhsContracting := [1]
  rhsContracting := [0]
  lhsNonContracting := [0]
  rhsNonContracting := [1]
  lhsBatch := []
  rhsBatch := []
  wf := dot_S1000000x128_S128x3_S1000000x3_1_0_0_1_n_n_wf
def scatter_S64_S1000000x1_S1000000_n_0_0_1 : ScatterDims S64 S1000000x1 S1000000 where
  updateWindowDims := []
  insertedWindowDims := [0]
  scatterDimsToOperandDims := [0]
  indexVectorDim := 1
  wf := scatter_S64_S1000000x1_S1000000_n_0_0_1_wf
def scatter_S64x16_S1000000x1_S1000000x16_1_0_0_1 : ScatterDims S64x16 S1000000x1 S1000000x16 where
  updateWindowDims := [1]
  insertedWindowDims := [0]
  scatterDimsToOperandDims := [0]
  indexVectorDim := 1
  wf := scatter_S64x16_S1000000x1_S1000000x16_1_0_0_1_wf
def dot_S64x16_S16x192_S64x192_1_0_0_1_n_n : DotDims S64x16 S16x192 S64x192 where
  lhsContracting := [1]
  rhsContracting := [0]
  lhsNonContracting := [0]
  rhsNonContracting := [1]
  lhsBatch := []
  rhsBatch := []
  wf := dot_S64x16_S16x192_S64x192_1_0_0_1_n_n_wf
def dot_S64x64_S64x192_S64x192_1_0_0_1_n_n : DotDims S64x64 S64x192 S64x192 where
  lhsContracting := [1]
  rhsContracting := [0]
  lhsNonContracting := [0]
  rhsNonContracting := [1]
  lhsBatch := []
  rhsBatch := []
  wf := dot_S64x64_S64x192_S64x192_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x8_S64x8_1_0_0_1_n_n : DotDims S64x32 S32x8 S64x8 where
  lhsContracting := [1]
  rhsContracting := [0]
  lhsNonContracting := [0]
  rhsNonContracting := [1]
  lhsBatch := []
  rhsBatch := []
  wf := dot_S64x32_S32x8_S64x8_1_0_0_1_n_n_wf

class Facts : Prop extends Facts₀ where

variable [Facts]
-- ==== Proof.TailTerms.lean ====
/-
  The first host lines after the kernel call, as functions of the [2, 64, 18] accumulator array.

  The two cores' blocks are added (`tot`, a sum over the core axis onto a zero initial value); columns 0–15 of the
  result are the segments' affordance sums, column 16 the error sums, column 17 the counts. The coherence signal is
  column 16 over the maximum of column 17 with one (`sigK`), the mean affordances columns 0–15 over that same
  maximum, broadcast along the 16 columns (`baK`).
-/
import proofs.«415734_j84988812853402_4_alg».proof.KernelIdeal
import proofs.«415734_j84988812853402_4_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.TailTerms

open Idealize.ShloMosaic Idealize.ShloMosaic.ValueIdx
open Cert.KernelIdeal Cert.KernelIdeal.Facts₀ Cert.KernelIdeal.Facts

variable {F : FTy → Type} [FloatOps F]

/-- The two cores' blocks added. -/
def tot (a : Vec F S2x64x18 .f32) : FVec F S64x18 .f32 :=
  Host.reduceAdd a (constant S_ .f32 0#32) reducesTo_S2x64x18_S64x18_d0 h_S_

/-- The counts' maximum with one, as a [64, 1] column. -/
def denK (a : Vec F S2x64x18 .f32) : FVec F S64x1 .f32 :=
  maximumf (extractStridedSlice S64x1 ![0, 17] (tot a) slices_S64x18_S64x1_0_17)
    (broadcastInDim S64x1 ![] bcast_S_S64x1 (constant S_ .f32 1065353216#32))

/-- The coherence signal: the error sums over the counts' maximum with one. -/
def sigK (a : Vec F S2x64x18 .f32) : FVec F S64x1 .f32 :=
  Host.divf (extractStridedSlice S64x1 ![0, 16] (tot a) slices_S64x18_S64x1_0_16) (denK a)

/-- The mean affordances: the affordance sums over the counts' maximum with one. -/
def baK (a : Vec F S2x64x18 .f32) : FVec F S64x16 .f32 :=
  Host.divf (extractStridedSlice S64x16 ![0, 0] (tot a) slices_S64x18_S64x16_0_0)
    (broadcastInDim S64x16 ![0, 1] bcast_S64x1_S64x16_0_1 (denK a))

/-! ## Read at an index, over the extended reals -/

/-- The sum over the core axis at `(b, j)`: the initial value plus the two cores' entries. -/
private theorem tot_sum (a : Vec Ideal S2x64x18 .f32) (b : Fin 64) (j : Fin 18) :
    tot (F := Ideal) a (ix2 b j) = Ideal.ofBits .f32 0#32 + ∑ k : Fin 2, a (ix3 k b j) := by
  unfold tot
  simp only [Host.reduceAdd, Ideal.hostReduceAdd_def]
  rw [Ideal.hostReduceAdd_single reducesTo_S2x64x18_S64x18_d0 (by decide)]
  refine congrArg (_ + ·) (Finset.sum_congr rfl fun k _ => ?_)
  exact congrArg a (funext fun c => Fin.ext (by match c with | ⟨0, _⟩ => rfl | ⟨1, _⟩ => rfl | ⟨2, _⟩ => rfl))

/-- The two cores' blocks added, at `(b, j)`: zero is the initial value and drops out. -/
theorem tot_at (a : Vec Ideal S2x64x18 .f32) (b : Fin 64) (j : Fin 18) :
    tot (F := Ideal) a (ix2 b j) = a (ix3 0 b j) + a (ix3 1 b j) := by
  rw [tot_sum, Fin.sum_univ_two, Ideal.ofBits_zero_f32, zero_add]

/-- Column 16 of a [64, 18] array, taken as a [64, 1] column, at `(b, 0)`. -/
private theorem col16_at (x : FVec Ideal S64x18 .f32) (b : Fin 64) :
    extractStridedSlice S64x1 ![0, 16] x slices_S64x18_S64x1_0_16 (ix2 b 0) = x (ix2 b 16) :=
  extractStridedSlice_apply ![0, 16] x slices_S64x18_S64x1_0_16 (ix2 b 0) (ix2 b 16) (fun c => match c with
    | ⟨0, _⟩ => by show b.val = 0 + b.val; omega
    | ⟨1, _⟩ => by show (16 : Nat) = 16 + 0; rfl)

/-- Column 17 of a [64, 18] array, taken as a [64, 1] column, at `(b, 0)`. -/
private theorem col17_at (x : FVec Ideal S64x18 .f32) (b : Fin 64) :
    extractStridedSlice S64x1 ![0, 17] x slices_S64x18_S64x1_0_17 (ix2 b 0) = x (ix2 b 17) :=
  extractStridedSlice_apply ![0, 17] x slices_S64x18_S64x1_0_17 (ix2 b 0) (ix2 b 17) (fun c => match c with
    | ⟨0, _⟩ => by show b.val = 0 + b.val; omega
    | ⟨1, _⟩ => by show (17 : Nat) = 17 + 0; rfl)

/-- The counts' maximum with one, at `(b, 0)`: the word of the constant is the extended real one. -/
private theorem denK_at (a : Vec Ideal S2x64x18 .f32) (b : Fin 64) :
    denK (F := Ideal) a (ix2 b 0) = max (a (ix3 0 b 17) + a (ix3 1 b 17)) 1 := by
  unfold denK
  rw [maximumf_apply, col17_at, tot_at, broadcastInDim_scalar_apply, constant_apply, Ideal.ofBits_one_f32]

/-- The coherence signal at `(b, 0)`. -/
theorem sigK_at (a : Vec Ideal S2x64x18 .f32) (b : Fin 64) :
    sigK (F := Ideal) a (ix2 b 0)
      = Ideal.div (a (ix3 0 b 16) + a (ix3 1 b 16)) (max (a (ix3 0 b 17) + a (ix3 1 b 17)) 1) := by
  unfold sigK
  rw [hostDivf_apply, col16_at, tot_at, denK_at]

/-- Columns 0–15 of a [64, 18] array, at `(b, j)`. -/
private theorem cols_at (x : FVec Ideal S64x18 .f32) (b : Fin 64) (j : Fin 16) (h : j.val < 18) :
    extractStridedSlice S64x16 ![0, 0] x slices_S64x18_S64x16_0_0 (ix2 b j) = x (ix2 b ⟨j.val, h⟩) :=
  extractStridedSlice_apply ![0, 0] x slices_S64x18_S64x16_0_0 (ix2 b j) (ix2 b ⟨j.val, h⟩) (fun c => match c with
    | ⟨0, _⟩ => by show b.val = 0 + b.val; omega
    | ⟨1, _⟩ => by show j.val = 0 + j.val; omega)

/-- A [64, 1] column broadcast along 16 columns, at `(b, j)`, is the column's entry `b`. -/
private theorem bcast_col_at (x : FVec Ideal S64x1 .f32) (b : Fin 64) (j : Fin 16) :
    broadcastInDim S64x16 ![0, 1] bcast_S64x1_S64x16_0_1 x (ix2 b j) = x (ix2 b 0) :=
  broadcastInDim_apply _ bcast_S64x1_S64x16_0_1 x (ix2 b j) (ix2 b 0) (fun c => match c with
    | ⟨0, _⟩ => by show b.val = if (64 : Nat) = 1 then 0 else b.val; rw [if_neg (by decide)]
    | ⟨1, _⟩ => by show 0 = if (1 : Nat) = 1 then 0 else j.val; rw [if_pos rfl])

/-- The mean affordances at `(b, j)`. -/
theorem baK_at (a : Vec Ideal S2x64x18 .f32) (b : Fin 64) (j : Fin 16) :
    baK (F := Ideal) a (ix2 b j)
      = Ideal.div (a (ix3 0 b ⟨j.val, by omega⟩) + a (ix3 1 b ⟨j.val, by omega⟩))
          (max (a (ix3 0 b 17) + a (ix3 1 b 17)) 1) := by
  unfold baK
  rw [hostDivf_apply, cols_at _ b j (by omega), tot_at, bcast_col_at, denK_at]

end Cert.KernelIdeal.TailTerms

end
-- ==== Proof.BlockValue.lean ====
/-
  What each case of the kernel body leaves in the four output staging buffers, as the body's payloads.

  The body runs in two cases: at a core's first tile it stores the zero block into the accumulator first, at a later
  tile it does not. In both it stores the affordances, the reconstruction and the squared errors once each, each store
  covering its whole block, and last the updated accumulator, a function of what the buffer held when it was loaded:
  the zero block just stored in the first case, what the previous tile left in the other. Read back, a buffer holds the
  payload of the last store that covers it, and each payload's loads read whole staging buffers, so they are the
  blocks themselves.
-/
import proofs.«415734_j84988812853402_4_alg».proof.Proof.Patched.KernelIdeal.Frame
import Idealize.ShloMosaic.Lib.Pipeline.Value
import Idealize.ShloMosaic.Lib.Tactic

noncomputable section

namespace Cert.KernelIdeal.BlockValue

open Idealize.ShloMosaic Idealize.ShloMosaic.TcCoe Idealize.SL.Sem
open Cert.KernelIdeal Cert.KernelIdeal.Gen Cert.KernelIdeal.GenP

variable {F : FTy → Type} [FloatOps F]

/-! The zero offsets of a whole-buffer rectangle, at ranks one, two and three, are the constant zero. -/

private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- Output 10 (the affordances) at a core's first tile: the one store that covers the block leaves its payload. -/
theorem out_A_10 (c : Dev nD) (i : grid0.Coords) (arg2 : Memref sig .tc .vmem S10000x3 .f32) (harg2 : arg2.IsWhole) (arg3 : Memref sig .tc .vmem S10000x1 .i32) (harg3 : arg3.IsWhole) (arg4 : Memref sig .tc .vmem S3x128 .f32) (harg4 : arg4.IsWhole) (arg5 : Memref sig .tc .vmem S128 .f32) (harg5 : arg5.IsWhole) (arg6 : Memref sig .tc .vmem S128x16 .f32) (harg6 : arg6.IsWhole) (arg7 : Memref sig .tc .vmem S16 .f32) (harg7 : arg7.IsWhole) (arg8 : Memref sig .tc .vmem S16x128 .f32) (harg8 : arg8.IsWhole) (arg9 : Memref sig .tc .vmem S128 .f32) (harg9 : arg9.IsWhole) (arg10 : Memref sig .tc .vmem S128x3 .f32) (harg10 : arg10.IsWhole) (arg11 : Memref sig .tc .vmem S3 .f32) (harg11 : arg11.IsWhole) (arg12 : Memref sig .tc .vmem S10000x16 .f32) (harg12 : arg12.IsWhole) (arg13 : Memref sig .tc .vmem S10000x3 .f32) (harg13 : arg13.IsWhole) (arg14 : Memref sig .tc .vmem S10000x1 .f32) (harg14 : arg14.IsWhole) (arg15 : Memref sig .tc .vmem S1x64x18 .f32) (harg15 : arg15.IsWhole) (hc0 : cond0_0 i) (x0 : Vec F S10000x3 .f32) (x1 : Vec F S10000x1 .i32) (x2 : Vec F S3x128 .f32) (x3 : Vec F S128 .f32) (x4 : Vec F S128x16 .f32) (x5 : Vec F S16 .f32) (x6 : Vec F S16x128 .f32) (x7 : Vec F S128 .f32) (x8 : Vec F S128x3 .f32) (x9 : Vec F S3 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay6 x0 x2 x3 x4 x5 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero (S := S10000x16) hz2]
  simp only [View.readAt_eq_ld, harg2.read_unread, harg4.read_unread, harg5.read_unread, harg6.read_unread, harg7.read_unread,
    View.ld_unit_zero (S := S10000x3) hz2, View.ld_unit_zero (S := S3x128) hz2, View.ld_unit_zero (S := S128) hz1,
    View.ld_unit_zero (S := S128x16) hz2, View.ld_unit_zero (S := S16) hz1]

/-- Output 11 (the reconstruction) at a core's first tile: the one store that covers the block leaves its payload. -/
theorem out_A_11 (c : Dev nD) (i : grid0.Coords) (arg2 : Memref sig .tc .vmem S10000x3 .f32) (harg2 : arg2.IsWhole) (arg3 : Memref sig .tc .vmem S10000x1 .i32) (harg3 : arg3.IsWhole) (arg4 : Memref sig .tc .vmem S3x128 .f32) (harg4 : arg4.IsWhole) (arg5 : Memref sig .tc .vmem S128 .f32) (harg5 : arg5.IsWhole) (arg6 : Memref sig .tc .vmem S128x16 .f32) (harg6 : arg6.IsWhole) (arg7 : Memref sig .tc .vmem S16 .f32) (harg7 : arg7.IsWhole) (arg8 : Memref sig .tc .vmem S16x128 .f32) (harg8 : arg8.IsWhole) (arg9 : Memref sig .tc .vmem S128 .f32) (harg9 : arg9.IsWhole) (arg10 : Memref sig .tc .vmem S128x3 .f32) (harg10 : arg10.IsWhole) (arg11 : Memref sig .tc .vmem S3 .f32) (harg11 : arg11.IsWhole) (arg12 : Memref sig .tc .vmem S10000x16 .f32) (harg12 : arg12.IsWhole) (arg13 : Memref sig .tc .vmem S10000x3 .f32) (harg13 : arg13.IsWhole) (arg14 : Memref sig .tc .vmem S10000x1 .f32) (harg14 : arg14.IsWhole) (arg15 : Memref sig .tc .vmem S1x64x18 .f32) (harg15 : arg15.IsWhole) (hc0 : cond0_0 i) (x0 : Vec F S10000x3 .f32) (x1 : Vec F S10000x1 .i32) (x2 : Vec F S3x128 .f32) (x3 : Vec F S128 .f32) (x4 : Vec F S128x16 .f32) (x5 : Vec F S16 .f32) (x6 : Vec F S16x128 .f32) (x7 : Vec F S128 .f32) (x8 : Vec F S128x3 .f32) (x9 : Vec F S3 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay1 (k0_pay7 x0 x2 x3 x4 x5 x6 x7 x8) (k0_pay8 x9) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero (S := S10000x3) hz2]
  simp only [View.readAt_eq_ld, harg2.read_unread, harg4.read_unread, harg5.read_unread, harg6.read_unread, harg7.read_unread, harg8.read_unread, harg9.read_unread, harg10.read_unread, harg11.read_unread,
    View.ld_unit_zero (S := S10000x3) hz2, View.ld_unit_zero (S := S3x128) hz2, View.ld_unit_zero (S := S128) hz1, View.ld_unit_zero (S := S128x16) hz2, View.ld_unit_zero (S := S16) hz1, View.ld_unit_zero (S := S16x128) hz2, View.ld_unit_zero (S := S128x3) hz2, View.ld_unit_zero (S := S3) hz1]

/-- Output 12 (the squared errors) at a core's first tile: the one store that covers the block leaves its payload. -/
theorem out_A_12 (c : Dev nD) (i : grid0.Coords) (arg2 : Memref sig .tc .vmem S10000x3 .f32) (harg2 : arg2.IsWhole) (arg3 : Memref sig .tc .vmem S10000x1 .i32) (harg3 : arg3.IsWhole) (arg4 : Memref sig .tc .vmem S3x128 .f32) (harg4 : arg4.IsWhole) (arg5 : Memref sig .tc .vmem S128 .f32) (harg5 : arg5.IsWhole) (arg6 : Memref sig .tc .vmem S128x16 .f32) (harg6 : arg6.IsWhole) (arg7 : Memref sig .tc .vmem S16 .f32) (harg7 : arg7.IsWhole) (arg8 : Memref sig .tc .vmem S16x128 .f32) (harg8 : arg8.IsWhole) (arg9 : Memref sig .tc .vmem S128 .f32) (harg9 : arg9.IsWhole) (arg10 : Memref sig .tc .vmem S128x3 .f32) (harg10 : arg10.IsWhole) (arg11 : Memref sig .tc .vmem S3 .f32) (harg11 : arg11.IsWhole) (arg12 : Memref sig .tc .vmem S10000x16 .f32) (harg12 : arg12.IsWhole) (arg13 : Memref sig .tc .vmem S10000x3 .f32) (harg13 : arg13.IsWhole) (arg14 : Memref sig .tc .vmem S10000x1 .f32) (harg14 : arg14.IsWhole) (arg15 : Memref sig .tc .vmem S1x64x18 .f32) (harg15 : arg15.IsWhole) (hc0 : cond0_0 i) (x0 : Vec F S10000x3 .f32) (x1 : Vec F S10000x1 .i32) (x2 : Vec F S3x128 .f32) (x3 : Vec F S128 .f32) (x4 : Vec F S128x16 .f32) (x5 : Vec F S16 .f32) (x6 : Vec F S16x128 .f32) (x7 : Vec F S128 .f32) (x8 : Vec F S128x3 .f32) (x9 : Vec F S3 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay2 x0 (k0_pay7 x0 x2 x3 x4 x5 x6 x7 x8) (k0_pay8 x9) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero (S := S10000x1) hz2]
  simp only [View.readAt_eq_ld, harg2.read_unread, harg4.read_unread, harg5.read_unread, harg6.read_unread, harg7.read_unread, harg8.read_unread, harg9.read_unread, harg10.read_unread, harg11.read_unread,
    View.ld_unit_zero (S := S10000x3) hz2, View.ld_unit_zero (S := S3x128) hz2, View.ld_unit_zero (S := S128) hz1, View.ld_unit_zero (S := S128x16) hz2, View.ld_unit_zero (S := S16) hz1, View.ld_unit_zero (S := S16x128) hz2, View.ld_unit_zero (S := S128x3) hz2, View.ld_unit_zero (S := S3) hz1]

/-- Output 13 (the accumulator) at a core's first tile: the one store that covers the block leaves its payload, read over the zero block the reset stored just before. -/
theorem out_A_13 (c : Dev nD) (i : grid0.Coords) (arg2 : Memref sig .tc .vmem S10000x3 .f32) (harg2 : arg2.IsWhole) (arg3 : Memref sig .tc .vmem S10000x1 .i32) (harg3 : arg3.IsWhole) (arg4 : Memref sig .tc .vmem S3x128 .f32) (harg4 : arg4.IsWhole) (arg5 : Memref sig .tc .vmem S128 .f32) (harg5 : arg5.IsWhole) (arg6 : Memref sig .tc .vmem S128x16 .f32) (harg6 : arg6.IsWhole) (arg7 : Memref sig .tc .vmem S16 .f32) (harg7 : arg7.IsWhole) (arg8 : Memref sig .tc .vmem S16x128 .f32) (harg8 : arg8.IsWhole) (arg9 : Memref sig .tc .vmem S128 .f32) (harg9 : arg9.IsWhole) (arg10 : Memref sig .tc .vmem S128x3 .f32) (harg10 : arg10.IsWhole) (arg11 : Memref sig .tc .vmem S3 .f32) (harg11 : arg11.IsWhole) (arg12 : Memref sig .tc .vmem S10000x16 .f32) (harg12 : arg12.IsWhole) (arg13 : Memref sig .tc .vmem S10000x3 .f32) (harg13 : arg13.IsWhole) (arg14 : Memref sig .tc .vmem S10000x1 .f32) (harg14 : arg14.IsWhole) (arg15 : Memref sig .tc .vmem S1x64x18 .f32) (harg15 : arg15.IsWhole) (hc0 : cond0_0 i) (x0 : Vec F S10000x3 .f32) (x1 : Vec F S10000x1 .i32) (x2 : Vec F S3x128 .f32) (x3 : Vec F S128 .f32) (x4 : Vec F S128x16 .f32) (x5 : Vec F S16 .f32) (x6 : Vec F S16x128 .f32) (x7 : Vec F S128 .f32) (x8 : Vec F S128x3 .f32) (x9 : Vec F S3 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay3 x0 (k0_pay5 x1) (k0_pay6 x0 x2 x3 x4 x5) (k0_pay7 x0 x2 x3 x4 x5 x6 x7 x8) (k0_pay8 x9) (k0_pay4 (F := F)) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_cons_unit_zero (S := S1x64x18) hz3, View.readCov_unit_zero (S := S1x64x18) _ hz3]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S10000x3) hz2, View.ld_unit_zero (S := S10000x1) hz2, View.ld_unit_zero (S := S3x128) hz2, View.ld_unit_zero (S := S128) hz1, View.ld_unit_zero (S := S128x16) hz2, View.ld_unit_zero (S := S16) hz1, View.ld_unit_zero (S := S16x128) hz2, View.ld_unit_zero (S := S128x3) hz2, View.ld_unit_zero (S := S3) hz1]

/-- Output 10 (the affordances) at a later tile: the one store that covers the block leaves its payload. -/
theorem out_B_10 (c : Dev nD) (i : grid0.Coords) (arg2 : Memref sig .tc .vmem S10000x3 .f32) (harg2 : arg2.IsWhole) (arg3 : Memref sig .tc .vmem S10000x1 .i32) (harg3 : arg3.IsWhole) (arg4 : Memref sig .tc .vmem S3x128 .f32) (harg4 : arg4.IsWhole) (arg5 : Memref sig .tc .vmem S128 .f32) (harg5 : arg5.IsWhole) (arg6 : Memref sig .tc .vmem S128x16 .f32) (harg6 : arg6.IsWhole) (arg7 : Memref sig .tc .vmem S16 .f32) (harg7 : arg7.IsWhole) (arg8 : Memref sig .tc .vmem S16x128 .f32) (harg8 : arg8.IsWhole) (arg9 : Memref sig .tc .vmem S128 .f32) (harg9 : arg9.IsWhole) (arg10 : Memref sig .tc .vmem S128x3 .f32) (harg10 : arg10.IsWhole) (arg11 : Memref sig .tc .vmem S3 .f32) (harg11 : arg11.IsWhole) (arg12 : Memref sig .tc .vmem S10000x16 .f32) (harg12 : arg12.IsWhole) (arg13 : Memref sig .tc .vmem S10000x3 .f32) (harg13 : arg13.IsWhole) (arg14 : Memref sig .tc .vmem S10000x1 .f32) (harg14 : arg14.IsWhole) (arg15 : Memref sig .tc .vmem S1x64x18 .f32) (harg15 : arg15.IsWhole) (hc0 : ¬cond0_0 i) (x0 : Vec F S10000x3 .f32) (x1 : Vec F S10000x1 .i32) (x2 : Vec F S3x128 .f32) (x3 : Vec F S128 .f32) (x4 : Vec F S128x16 .f32) (x5 : Vec F S16 .f32) (x6 : Vec F S16x128 .f32) (x7 : Vec F S128 .f32) (x8 : Vec F S128x3 .f32) (x9 : Vec F S3 .f32) (xo13 : Vec F S1x64x18 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo13 = k0_pay6 x0 x2 x3 x4 x5 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo13)]
  unfold kernelRun0_B
  dsimp only
  sl_unfold_words
  rw [View.canon_unit_zero (S := S10000x16) hz2]
  simp only [View.readAt_eq_ld, harg2.read_unread, harg4.read_unread, harg5.read_unread, harg6.read_unread, harg7.read_unread,
    View.ld_unit_zero (S := S10000x3) hz2, View.ld_unit_zero (S := S3x128) hz2, View.ld_unit_zero (S := S128) hz1,
    View.ld_unit_zero (S := S128x16) hz2, View.ld_unit_zero (S := S16) hz1]

/-- Output 11 (the reconstruction) at a later tile: the one store that covers the block leaves its payload. -/
theorem out_B_11 (c : Dev nD) (i : grid0.Coords) (arg2 : Memref sig .tc .vmem S10000x3 .f32) (harg2 : arg2.IsWhole) (arg3 : Memref sig .tc .vmem S10000x1 .i32) (harg3 : arg3.IsWhole) (arg4 : Memref sig .tc .vmem S3x128 .f32) (harg4 : arg4.IsWhole) (arg5 : Memref sig .tc .vmem S128 .f32) (harg5 : arg5.IsWhole) (arg6 : Memref sig .tc .vmem S128x16 .f32) (harg6 : arg6.IsWhole) (arg7 : Memref sig .tc .vmem S16 .f32) (harg7 : arg7.IsWhole) (arg8 : Memref sig .tc .vmem S16x128 .f32) (harg8 : arg8.IsWhole) (arg9 : Memref sig .tc .vmem S128 .f32) (harg9 : arg9.IsWhole) (arg10 : Memref sig .tc .vmem S128x3 .f32) (harg10 : arg10.IsWhole) (arg11 : Memref sig .tc .vmem S3 .f32) (harg11 : arg11.IsWhole) (arg12 : Memref sig .tc .vmem S10000x16 .f32) (harg12 : arg12.IsWhole) (arg13 : Memref sig .tc .vmem S10000x3 .f32) (harg13 : arg13.IsWhole) (arg14 : Memref sig .tc .vmem S10000x1 .f32) (harg14 : arg14.IsWhole) (arg15 : Memref sig .tc .vmem S1x64x18 .f32) (harg15 : arg15.IsWhole) (hc0 : ¬cond0_0 i) (x0 : Vec F S10000x3 .f32) (x1 : Vec F S10000x1 .i32) (x2 : Vec F S3x128 .f32) (x3 : Vec F S128 .f32) (x4 : Vec F S128x16 .f32) (x5 : Vec F S16 .f32) (x6 : Vec F S16x128 .f32) (x7 : Vec F S128 .f32) (x8 : Vec F S128x3 .f32) (x9 : Vec F S3 .f32) (xo13 : Vec F S1x64x18 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo13 = k0_pay1 (k0_pay7 x0 x2 x3 x4 x5 x6 x7 x8) (k0_pay8 x9) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo13)]
  unfold kernelRun0_B
  dsimp only
  sl_unfold_words
  rw [View.canon_unit_zero (S := S10000x3) hz2]
  simp only [View.readAt_eq_ld, harg2.read_unread, harg4.read_unread, harg5.read_unread, harg6.read_unread, harg7.read_unread, harg8.read_unread, harg9.read_unread, harg10.read_unread, harg11.read_unread,
    View.ld_unit_zero (S := S10000x3) hz2, View.ld_unit_zero (S := S3x128) hz2, View.ld_unit_zero (S := S128) hz1, View.ld_unit_zero (S := S128x16) hz2, View.ld_unit_zero (S := S16) hz1, View.ld_unit_zero (S := S16x128) hz2, View.ld_unit_zero (S := S128x3) hz2, View.ld_unit_zero (S := S3) hz1]

/-- Output 12 (the squared errors) at a later tile: the one store that covers the block leaves its payload. -/
theorem out_B_12 (c : Dev nD) (i : grid0.Coords) (arg2 : Memref sig .tc .vmem S10000x3 .f32) (harg2 : arg2.IsWhole) (arg3 : Memref sig .tc .vmem S10000x1 .i32) (harg3 : arg3.IsWhole) (arg4 : Memref sig .tc .vmem S3x128 .f32) (harg4 : arg4.IsWhole) (arg5 : Memref sig .tc .vmem S128 .f32) (harg5 : arg5.IsWhole) (arg6 : Memref sig .tc .vmem S128x16 .f32) (harg6 : arg6.IsWhole) (arg7 : Memref sig .tc .vmem S16 .f32) (harg7 : arg7.IsWhole) (arg8 : Memref sig .tc .vmem S16x128 .f32) (harg8 : arg8.IsWhole) (arg9 : Memref sig .tc .vmem S128 .f32) (harg9 : arg9.IsWhole) (arg10 : Memref sig .tc .vmem S128x3 .f32) (harg10 : arg10.IsWhole) (arg11 : Memref sig .tc .vmem S3 .f32) (harg11 : arg11.IsWhole) (arg12 : Memref sig .tc .vmem S10000x16 .f32) (harg12 : arg12.IsWhole) (arg13 : Memref sig .tc .vmem S10000x3 .f32) (harg13 : arg13.IsWhole) (arg14 : Memref sig .tc .vmem S10000x1 .f32) (harg14 : arg14.IsWhole) (arg15 : Memref sig .tc .vmem S1x64x18 .f32) (harg15 : arg15.IsWhole) (hc0 : ¬cond0_0 i) (x0 : Vec F S10000x3 .f32) (x1 : Vec F S10000x1 .i32) (x2 : Vec F S3x128 .f32) (x3 : Vec F S128 .f32) (x4 : Vec F S128x16 .f32) (x5 : Vec F S16 .f32) (x6 : Vec F S16x128 .f32) (x7 : Vec F S128 .f32) (x8 : Vec F S128x3 .f32) (x9 : Vec F S3 .f32) (xo13 : Vec F S1x64x18 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo13 = k0_pay2 x0 (k0_pay7 x0 x2 x3 x4 x5 x6 x7 x8) (k0_pay8 x9) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo13)]
  unfold kernelRun0_B
  dsimp only
  sl_unfold_words
  rw [View.canon_unit_zero (S := S10000x1) hz2]
  simp only [View.readAt_eq_ld, harg2.read_unread, harg4.read_unread, harg5.read_unread, harg6.read_unread, harg7.read_unread, harg8.read_unread, harg9.read_unread, harg10.read_unread, harg11.read_unread,
    View.ld_unit_zero (S := S10000x3) hz2, View.ld_unit_zero (S := S3x128) hz2, View.ld_unit_zero (S := S128) hz1, View.ld_unit_zero (S := S128x16) hz2, View.ld_unit_zero (S := S16) hz1, View.ld_unit_zero (S := S16x128) hz2, View.ld_unit_zero (S := S128x3) hz2, View.ld_unit_zero (S := S3) hz1]

/-- Output 13 (the accumulator) at a later tile: the one store that covers the block leaves its payload over what the buffer held. -/
theorem out_B_13 (c : Dev nD) (i : grid0.Coords) (arg2 : Memref sig .tc .vmem S10000x3 .f32) (harg2 : arg2.IsWhole) (arg3 : Memref sig .tc .vmem S10000x1 .i32) (harg3 : arg3.IsWhole) (arg4 : Memref sig .tc .vmem S3x128 .f32) (harg4 : arg4.IsWhole) (arg5 : Memref sig .tc .vmem S128 .f32) (harg5 : arg5.IsWhole) (arg6 : Memref sig .tc .vmem S128x16 .f32) (harg6 : arg6.IsWhole) (arg7 : Memref sig .tc .vmem S16 .f32) (harg7 : arg7.IsWhole) (arg8 : Memref sig .tc .vmem S16x128 .f32) (harg8 : arg8.IsWhole) (arg9 : Memref sig .tc .vmem S128 .f32) (harg9 : arg9.IsWhole) (arg10 : Memref sig .tc .vmem S128x3 .f32) (harg10 : arg10.IsWhole) (arg11 : Memref sig .tc .vmem S3 .f32) (harg11 : arg11.IsWhole) (arg12 : Memref sig .tc .vmem S10000x16 .f32) (harg12 : arg12.IsWhole) (arg13 : Memref sig .tc .vmem S10000x3 .f32) (harg13 : arg13.IsWhole) (arg14 : Memref sig .tc .vmem S10000x1 .f32) (harg14 : arg14.IsWhole) (arg15 : Memref sig .tc .vmem S1x64x18 .f32) (harg15 : arg15.IsWhole) (hc0 : ¬cond0_0 i) (x0 : Vec F S10000x3 .f32) (x1 : Vec F S10000x1 .i32) (x2 : Vec F S3x128 .f32) (x3 : Vec F S128 .f32) (x4 : Vec F S128x16 .f32) (x5 : Vec F S16 .f32) (x6 : Vec F S16x128 .f32) (x7 : Vec F S128 .f32) (x8 : Vec F S128x3 .f32) (x9 : Vec F S3 .f32) (xo13 : Vec F S1x64x18 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo13 = k0_pay3 x0 (k0_pay5 x1) (k0_pay6 x0 x2 x3 x4 x5) (k0_pay7 x0 x2 x3 x4 x5 x6 x7 x8) (k0_pay8 x9) xo13 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo13)]
  unfold kernelRun0_B
  dsimp only
  sl_unfold_words
  rw [View.canon_unit_zero (S := S1x64x18) hz3]
  simp only [View.readAt_eq_ld, harg2.read_unread, harg3.read_unread, harg4.read_unread, harg5.read_unread, harg6.read_unread, harg7.read_unread, harg8.read_unread, harg9.read_unread, harg10.read_unread, harg11.read_unread, harg15.read_unread,
    View.ld_unit_zero (S := S10000x3) hz2, View.ld_unit_zero (S := S10000x1) hz2, View.ld_unit_zero (S := S3x128) hz2, View.ld_unit_zero (S := S128) hz1, View.ld_unit_zero (S := S128x16) hz2, View.ld_unit_zero (S := S16) hz1, View.ld_unit_zero (S := S16x128) hz2, View.ld_unit_zero (S := S128x3) hz2, View.ld_unit_zero (S := S3) hz1, View.ld_unit_zero (S := S1x64x18) hz3]

end Cert.KernelIdeal.BlockValue

end
-- ==== Proof.RowSpec.lean ====
/-
  The two per-point networks as functions of ONE row of `pos`, over the extended reals.

  For a row `x : Fin 3 → EReal` of positions and the eight parameter arrays,
    `hidF k   = max (∑ d, x d * Wf1 d k + bf1 k) 0`            (128 hidden units of the first network),
    `aff j    = ∑ k, hidF k * Wf2 k j + bf2 j`                 (16 affordances),
    `hidG k   = max (∑ j, aff j * Wg1 j k + bg1 k) 0`          (128 hidden units of the second network),
    `rec d    = ∑ k, hidG k * Wg2 k d + bg2 d`                 (the reconstructed position),
    `err      = ∑ d, (x d - rec d) * (x d - rec d)`            (the squared reconstruction error).
  Both programs compute exactly these, the kernel on a tile of 10000 rows at a time and the reference on all
  1000000 rows at once; a row's values depend on that row alone.
-/
import Idealize.ShloMosaic.PureOps.Ideal

noncomputable section

namespace Cert.RowSpec

open scoped BigOperators

/-- The parameters of the two networks, as plain index functions. -/
structure Params where
  Wf1 : Fin 3 → Fin 128 → EReal
  bf1 : Fin 128 → EReal
  Wf2 : Fin 128 → Fin 16 → EReal
  bf2 : Fin 16 → EReal
  Wg1 : Fin 16 → Fin 128 → EReal
  bg1 : Fin 128 → EReal
  Wg2 : Fin 128 → Fin 3 → EReal
  bg2 : Fin 3 → EReal

variable (P : Params) (x : Fin 3 → EReal)

/-- Hidden unit `k` of the first network at the row `x`. -/
def hidF (k : Fin 128) : EReal := max (∑ d : Fin 3, x d * P.Wf1 d k + P.bf1 k) 0

/-- Affordance `j` of the row `x`. -/
def aff (j : Fin 16) : EReal := ∑ k : Fin 128, hidF P x k * P.Wf2 k j + P.bf2 j

/-- Hidden unit `k` of the second network at the row `x`. -/
def hidG (k : Fin 128) : EReal := max (∑ j : Fin 16, aff P x j * P.Wg1 j k + P.bg1 k) 0

/-- Coordinate `d` of the reconstructed position of the row `x`. -/
def recon (d : Fin 3) : EReal := ∑ k : Fin 128, hidG P x k * P.Wg2 k d + P.bg2 d

/-- The squared reconstruction error of the row `x`. -/
def err : EReal := ∑ d : Fin 3, (x d - recon P x d) * (x d - recon P x d)

end Cert.RowSpec

end
-- ==== Proof.SegSpec.lean ====
/-
  The segment sums, as plain sums over the extended reals.

  Row `n` of the 1000000 points carries an 18-entry vector `col n` = [its 16 affordances | its squared error | 1] and
  an integer id `batch n`. Segment `b`'s entry `j` is the sum of `col n j` over the rows whose id is `b`. The
  kernel forms it with a one-hot weight, `∑ₙ hot n b · col n j` with `hot n b` one when `batch n = b` and zero
  otherwise, a tile of 10000 rows at a time, 50 tiles on each of two cores; the reference sums over the rows of
  the segment directly. Over the extended reals `0 · x = 0` and `1 · x = x` for every `x`, infinite ones included,
  and addition is commutative and associative, so all of these are one number:

    `total b j = coreSum 0 b j + coreSum 1 b j`                         (`total_eq_cores`),
    `total b j = ∑ n with batch n = b, col n j`                         (`total_eq_filter`).
-/
import proofs.«415734_j84988812853402_4_alg».proof.Proof.RowSpec

noncomputable section

namespace Cert.SegSpec

open scoped BigOperators
open Cert.RowSpec

/-- Row `10000 p + r`: row `r` of tile `p`. -/
abbrev tileRow (p : Fin 100) (r : Fin 10000) : Fin 1000000 := ⟨10000 * p.val + r.val, by omega⟩

/-- Tile `50 k + u`: tile `u` of core `k`. -/
abbrev coreTile (k : Fin 2) (u : Fin 50) : Fin 100 := ⟨50 * k.val + u.val, by omega⟩

variable (P : Params) (pos : Fin 1000000 → Fin 3 → EReal) (batch : Fin 1000000 → BitVec 32)

/-- The one-hot weight of row `n` for segment `b`. -/
def hot (n : Fin 1000000) (b : Fin 64) : EReal := if batch n = BitVec.ofNat 32 b.val then 1 else 0

/-- Entry `j` of row `n`'s vector [affordances | squared error | 1]. -/
def col (n : Fin 1000000) (j : Fin 18) : EReal :=
  if h : j.val < 16 then aff P (pos n) ⟨j.val, h⟩ else if j.val = 16 then err P (pos n) else 1

/-- Tile `p`'s one-hot product: the weighted sum over its 10000 rows. -/
def tileSum (p : Fin 100) (b : Fin 64) (j : Fin 18) : EReal :=
  ∑ r : Fin 10000, hot batch (tileRow p r) b * col P pos (tileRow p r) j

/-- What core `k` accumulates: the sum of its 50 tiles' products. -/
def coreSum (k : Fin 2) (b : Fin 64) (j : Fin 18) : EReal := ∑ u : Fin 50, tileSum P pos batch (coreTile k u) b j

/-- The weighted sum over all rows. -/
def total (b : Fin 64) (j : Fin 18) : EReal := ∑ n : Fin 1000000, hot batch n b * col P pos n j

/-- A sum over `a * b` indices, block by block. -/
theorem sum_blocks {M : Type} [AddCommMonoid M] (a b : ℕ) (g : Fin (a * b) → M) :
    ∑ n, g n = ∑ p : Fin a, ∑ r : Fin b, g ⟨b * p.val + r.val, by
      have hp := p.isLt; have hr := r.isLt
      calc b * p.val + r.val < b * p.val + b := by omega
        _ = b * (p.val + 1) := by ring
        _ ≤ b * a := Nat.mul_le_mul_left b hp
        _ = a * b := Nat.mul_comm b a⟩ := by
  rw [← Equiv.sum_comp finProdFinEquiv g, Fintype.sum_prod_type]
  refine Finset.sum_congr rfl fun p _ => Finset.sum_congr rfl fun r _ => congrArg g (Fin.ext ?_)
  simp [finProdFinEquiv, Nat.add_comm]

/-- The whole sum is the sum over the 100 tiles. -/
theorem total_eq_tiles (b : Fin 64) (j : Fin 18) : total P pos batch b j = ∑ p : Fin 100, tileSum P pos batch p b j :=
  sum_blocks 100 10000 fun n => hot batch n b * col P pos n j

/-- The sum over the 100 tiles is the two cores' sums. -/
theorem total_eq_cores (b : Fin 64) (j : Fin 18) :
    total P pos batch b j = coreSum P pos batch 0 b j + coreSum P pos batch 1 b j := by
  rw [total_eq_tiles, sum_blocks 2 50 fun p => tileSum P pos batch p b j, Fin.sum_univ_two]
  rfl

/-- The one-hot weighted sum is the sum over the rows of the segment. -/
theorem total_eq_filter (b : Fin 64) (j : Fin 18) :
    total P pos batch b j = ∑ n ∈ Finset.univ.filter (fun n => batch n = BitVec.ofNat 32 b.val), col P pos n j := by
  unfold total hot
  rw [Finset.sum_filter]
  refine Finset.sum_congr rfl fun n _ => ?_
  split_ifs <;> simp

end Cert.SegSpec

end
-- ==== Proof.BlockRead.lean ====
/-
  The blocks the kernel body is handed at tile `t`, read off the argument arrays.

  Tile `t` (of 100, numbered core by core: tile `50 k + u` is core `k`'s tile `u`) is handed rows
  `10000 t … 10000 t + 9999` of `pos` and of the ids — the ids through the [1000000, 1] reshape of the flat id array,
  whose entry `(n, 0)` is id `n` — and the eight parameter arrays whole (their block index is constant and their
  block is the array).
-/
import proofs.«415734_j84988812853402_4_alg».proof.Proof.Patched.KernelIdeal.Frame
import proofs.«415734_j84988812853402_4_alg».proof.Proof.SegSpec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.BlockRead

open Idealize.ShloMosaic Idealize.ShloMosaic.TcCoe Idealize.SL.Sem Idealize.ShloMosaic.ValueIdx
open Cert.KernelIdeal Cert.KernelIdeal.Gen Cert.KernelIdeal.GenP Cert.SegSpec

variable {F : FTy → Type} [FloatOps F]
variable (m : (ℓ : Loc nD τ sig) → Buf (Elt F) ℓ)

/-- A grid point as a tile number below 100. -/
abbrev pt (t : Fin cfg0.N) : Fin 100 := ⟨t.val, Nat.lt_of_lt_of_eq t.isLt N_0⟩

/-- The blocks of tile `t`, under names of their literal types. -/
abbrev posBlk (c : Dev nD) (t : Fin cfg0.N) : Vec F S10000x3 .f32 := iblk m c 0 t
abbrev idBlk (c : Dev nD) (t : Fin cfg0.N) : Vec F S10000x1 .i32 := iblk m c 1 t
abbrev wf1Blk (c : Dev nD) (t : Fin cfg0.N) : Vec F S3x128 .f32 := iblk m c 2 t
abbrev bf1Blk (c : Dev nD) (t : Fin cfg0.N) : Vec F S128 .f32 := iblk m c 3 t
abbrev wf2Blk (c : Dev nD) (t : Fin cfg0.N) : Vec F S128x16 .f32 := iblk m c 4 t
abbrev bf2Blk (c : Dev nD) (t : Fin cfg0.N) : Vec F S16 .f32 := iblk m c 5 t
abbrev wg1Blk (c : Dev nD) (t : Fin cfg0.N) : Vec F S16x128 .f32 := iblk m c 6 t
abbrev bg1Blk (c : Dev nD) (t : Fin cfg0.N) : Vec F S128 .f32 := iblk m c 7 t
abbrev wg2Blk (c : Dev nD) (t : Fin cfg0.N) : Vec F S128x3 .f32 := iblk m c 8 t
abbrev bg2Blk (c : Dev nD) (t : Fin cfg0.N) : Vec F S3 .f32 := iblk m c 9 t

/-- Window 0's block index at grid point `t` is `(t, 0)`: the map sends `(k, u)` to `50 k + u`, and `t` is `(t / 50, t % 50)`. -/
private theorem idx0 : ∀ t : Fin cfg0.N, win0_0.index t (0 : Fin 2) = t.val ∧ win0_0.index t (1 : Fin 2) = 0 :=
  (by decide +kernel : ∀ t : Fin grid0.N, _)

/-- Window 1's block index at grid point `t` is `(t, 0)` too. -/
private theorem idx1 : ∀ t : Fin cfg0.N, win0_1.index t (0 : Fin 2) = t.val ∧ win0_1.index t (1 : Fin 2) = 0 :=
  (by decide +kernel : ∀ t : Fin grid0.N, _)

/-- Row `r` of tile `t`'s position block is row `10000 t + r` of `pos`. -/
theorem posBlk_at (c : Dev nD) (t : Fin cfg0.N) (r : Fin 10000) (d : Fin 3) :
    posBlk m c t (ix2 r d) = m ((c.tc : Thread nD τ).loc main_arg0) (ix2 (tileRow (pt t) r) d) := by
  have hi := idx0 t
  show ((cfg0.win 0).blk t).view.read (Elt F) (V m c main_arg0) (ix2 r d) = _
  rw [View.read_apply]
  show V m c main_arg0 _ = _
  refine (congrFun (V_main_arg0 m c) _).trans ?_
  refine congrArg (m ((c.tc : Thread nD τ).loc main_arg0)) ?_
  funext a
  apply Fin.ext
  match a with
  | ⟨0, _⟩ =>
    show win0_0.index t 0 * 10000 + 1 * r.val = 10000 * t.val + r.val
    rw [hi.1]; omega
  | ⟨1, _⟩ =>
    show win0_0.index t 1 * 3 + 1 * d.val = d.val
    rw [hi.2]; omega

/-- The ids' [1000000, 1] array the region finds is the reshape of the flat id array. -/
private theorem V_ids (c : Dev nD) :
    (V m c main_v0 : S1000000x1.Idx → Elt F .i32)
      = shapeCast S1000000x1 (m ((c.tc : Thread nD τ).loc main_arg1)) shapeCasts_S1000000_S1000000x1 := by
  show StableHlo.after hostOps0 (fun b => m (c, b)) (Proc.devRef .tc main_v0) = _
  after_results
  rfl

/-- Row `r` of tile `t`'s id block is id `10000 t + r`. -/
theorem idBlk_at (c : Dev nD) (t : Fin cfg0.N) (r : Fin 10000) :
    idBlk m c t (ix2 r 0) = m ((c.tc : Thread nD τ).loc main_arg1) (ix1 (tileRow (pt t) r)) := by
  have hi := idx1 t
  show ((cfg0.win 1).blk t).view.read (Elt F) (V m c main_v0) (ix2 r 0) = _
  rw [View.read_apply]
  show V m c main_v0 _ = _
  refine (congrFun (V_ids m c) _).trans ?_
  -- entry `(n, 0)` of the reshape sits at row-major position `n`, as entry `n` of the flat array does
  refine shapeCast_apply _ _ _ (ix1 (tileRow (pt t) r)) ?_
  rw [Shape.rowMajor_val_one, Shape.rowMajor_val_two]
  show 10000 * t.val + r.val = (win0_1.index t 0 * 10000 + 1 * r.val) * 1 + (win0_1.index t 1 * 1 + 1 * 0)
  rw [hi.1, hi.2]; omega

/-- Window 2's block index is `(0, 0)` at every grid point. -/
private theorem idx2 : ∀ t : Fin cfg0.N, win0_2.index t (0 : Fin 2) = 0 ∧ win0_2.index t (1 : Fin 2) = 0 :=
  (by decide +kernel : ∀ t : Fin grid0.N, _)

/-- The parameter blocks are the parameter arrays. -/
theorem wf1Blk_eq (c : Dev nD) (t : Fin cfg0.N) : wf1Blk m c t = m ((c.tc : Thread nD τ).loc main_arg5) := by
  have hi := idx2 t
  funext y
  show ((cfg0.win 2).blk t).view.read (Elt F) (V m c main_arg5) y = _
  rw [View.read_apply]
  show V m c main_arg5 _ = _
  refine (congrFun (V_main_arg5 m c) _).trans ?_
  refine congrArg (m ((c.tc : Thread nD τ).loc main_arg5)) ?_
  funext a
  apply Fin.ext
  match a with
  | ⟨0, _⟩ =>
    show win0_2.index t 0 * 3 + 1 * (y 0).val = (y 0).val
    rw [hi.1]; omega
  | ⟨1, _⟩ =>
    show win0_2.index t 1 * 128 + 1 * (y 1).val = (y 1).val
    rw [hi.2]; omega

/-- Window 3's block index is `0` at every grid point. -/
private theorem idx3 : ∀ t : Fin cfg0.N, win0_3.index t (0 : Fin 1) = 0 :=
  (by decide +kernel : ∀ t : Fin grid0.N, _)

theorem bf1Blk_eq (c : Dev nD) (t : Fin cfg0.N) : bf1Blk m c t = m ((c.tc : Thread nD τ).loc main_arg6) := by
  have hi := idx3 t
  funext y
  show ((cfg0.win 3).blk t).view.read (Elt F) (V m c main_arg6) y = _
  rw [View.read_apply]
  show V m c main_arg6 _ = _
  refine (congrFun (V_main_arg6 m c) _).trans ?_
  refine congrArg (m ((c.tc : Thread nD τ).loc main_arg6)) ?_
  funext a
  apply Fin.ext
  match a with
  | ⟨0, _⟩ =>
    show win0_3.index t 0 * 128 + 1 * (y 0).val = (y 0).val
    rw [hi]; omega

/-- Window 4's block index is `(0, 0)` at every grid point. -/
private theorem idx4 : ∀ t : Fin cfg0.N, win0_4.index t (0 : Fin 2) = 0 ∧ win0_4.index t (1 : Fin 2) = 0 :=
  (by decide +kernel : ∀ t : Fin grid0.N, _)

theorem wf2Blk_eq (c : Dev nD) (t : Fin cfg0.N) : wf2Blk m c t = m ((c.tc : Thread nD τ).loc main_arg7) := by
  have hi := idx4 t
  funext y
  show ((cfg0.win 4).blk t).view.read (Elt F) (V m c main_arg7) y = _
  rw [View.read_apply]
  show V m c main_arg7 _ = _
  refine (congrFun (V_main_arg7 m c) _).trans ?_
  refine congrArg (m ((c.tc : Thread nD τ).loc main_arg7)) ?_
  funext a
  apply Fin.ext
  match a with
  | ⟨0, _⟩ =>
    show win0_4.index t 0 * 128 + 1 * (y 0).val = (y 0).val
    rw [hi.1]; omega
  | ⟨1, _⟩ =>
    show win0_4.index t 1 * 16 + 1 * (y 1).val = (y 1).val
    rw [hi.2]; omega

/-- Window 5's block index is `0` at every grid point. -/
private theorem idx5 : ∀ t : Fin cfg0.N, win0_5.index t (0 : Fin 1) = 0 :=
  (by decide +kernel : ∀ t : Fin grid0.N, _)

theorem bf2Blk_eq (c : Dev nD) (t : Fin cfg0.N) : bf2Blk m c t = m ((c.tc : Thread nD τ).loc main_arg8) := by
  have hi := idx5 t
  funext y
  show ((cfg0.win 5).blk t).view.read (Elt F) (V m c main_arg8) y = _
  rw [View.read_apply]
  show V m c main_arg8 _ = _
  refine (congrFun (V_main_arg8 m c) _).trans ?_
  refine congrArg (m ((c.tc : Thread nD τ).loc main_arg8)) ?_
  funext a
  apply Fin.ext
  match a with
  | ⟨0, _⟩ =>
    show win0_5.index t 0 * 16 + 1 * (y 0).val = (y 0).val
    rw [hi]; omega

/-- Window 6's block index is `(0, 0)` at every grid point. -/
private theorem idx6 : ∀ t : Fin cfg0.N, win0_6.index t (0 : Fin 2) = 0 ∧ win0_6.index t (1 : Fin 2) = 0 :=
  (by decide +kernel : ∀ t : Fin grid0.N, _)

theorem wg1Blk_eq (c : Dev nD) (t : Fin cfg0.N) : wg1Blk m c t = m ((c.tc : Thread nD τ).loc main_arg9) := by
  have hi := idx6 t
  funext y
  show ((cfg0.win 6).blk t).view.read (Elt F) (V m c main_arg9) y = _
  rw [View.read_apply]
  show V m c main_arg9 _ = _
  refine (congrFun (V_main_arg9 m c) _).trans ?_
  refine congrArg (m ((c.tc : Thread nD τ).loc main_arg9)) ?_
  funext a
  apply Fin.ext
  match a with
  | ⟨0, _⟩ =>
    show win0_6.index t 0 * 16 + 1 * (y 0).val = (y 0).val
    rw [hi.1]; omega
  | ⟨1, _⟩ =>
    show win0_6.index t 1 * 128 + 1 * (y 1).val = (y 1).val
    rw [hi.2]; omega

/-- Window 7's block index is `0` at every grid point. -/
private theorem idx7 : ∀ t : Fin cfg0.N, win0_7.index t (0 : Fin 1) = 0 :=
  (by decide +kernel : ∀ t : Fin grid0.N, _)

theorem bg1Blk_eq (c : Dev nD) (t : Fin cfg0.N) : bg1Blk m c t = m ((c.tc : Thread nD τ).loc main_arg10) := by
  have hi := idx7 t
  funext y
  show ((cfg0.win 7).blk t).view.read (Elt F) (V m c main_arg10) y = _
  rw [View.read_apply]
  show V m c main_arg10 _ = _
  refine (congrFun (V_main_arg10 m c) _).trans ?_
  refine congrArg (m ((c.tc : Thread nD τ).loc main_arg10)) ?_
  funext a
  apply Fin.ext
  match a with
  | ⟨0, _⟩ =>
    show win0_7.index t 0 * 128 + 1 * (y 0).val = (y 0).val
    rw [hi]; omega

/-- Window 8's block index is `(0, 0)` at every grid point. -/
private theorem idx8 : ∀ t : Fin cfg0.N, win0_8.index t (0 : Fin 2) = 0 ∧ win0_8.index t (1 : Fin 2) = 0 :=
  (by decide +kernel : ∀ t : Fin grid0.N, _)

theorem wg2Blk_eq (c : Dev nD) (t : Fin cfg0.N) : wg2Blk m c t = m ((c.tc : Thread nD τ).loc main_arg11) := by
  have hi := idx8 t
  funext y
  show ((cfg0.win 8).blk t).view.read (Elt F) (V m c main_arg11) y = _
  rw [View.read_apply]
  show V m c main_arg11 _ = _
  refine (congrFun (V_main_arg11 m c) _).trans ?_
  refine congrArg (m ((c.tc : Thread nD τ).loc main_arg11)) ?_
  funext a
  apply Fin.ext
  match a with
  | ⟨0, _⟩ =>
    show win0_8.index t 0 * 128 + 1 * (y 0).val = (y 0).val
    rw [hi.1]; omega
  | ⟨1, _⟩ =>
    show win0_8.index t 1 * 3 + 1 * (y 1).val = (y 1).val
    rw [hi.2]; omega

/-- Window 9's block index is `0` at every grid point. -/
private theorem idx9 : ∀ t : Fin cfg0.N, win0_9.index t (0 : Fin 1) = 0 :=
  (by decide +kernel : ∀ t : Fin grid0.N, _)

theorem bg2Blk_eq (c : Dev nD) (t : Fin cfg0.N) : bg2Blk m c t = m ((c.tc : Thread nD τ).loc main_arg12) := by
  have hi := idx9 t
  funext y
  show ((cfg0.win 9).blk t).view.read (Elt F) (V m c main_arg12) y = _
  rw [View.read_apply]
  show V m c main_arg12 _ = _
  refine (congrFun (V_main_arg12 m c) _).trans ?_
  refine congrArg (m ((c.tc : Thread nD τ).loc main_arg12)) ?_
  funext a
  apply Fin.ext
  match a with
  | ⟨0, _⟩ =>
    show win0_9.index t 0 * 3 + 1 * (y 0).val = (y 0).val
    rw [hi]; omega

end Cert.KernelIdeal.BlockRead

end
-- ==== Proof.ParamsOf.lean ====
/-
  The eight parameter arrays of the two networks, read as the row functions' parameters; a row of an array of
  positions.
-/
import proofs.«415734_j84988812853402_4_alg».proof.Proof.RowSpec
import Idealize.ShloMosaic.Lib.ValueIdx

noncomputable section

namespace Cert.RowSpec

open Idealize.ShloMosaic Idealize.ShloMosaic.ValueIdx

/-- The parameters held by eight arrays of the networks' shapes (weights `[in, out]`, biases `[out]`). -/
def paramsOf (w1 : (⟨2, ![3, 128]⟩ : Shape).Idx → EReal) (b1 : (⟨1, ![128]⟩ : Shape).Idx → EReal)
    (w2 : (⟨2, ![128, 16]⟩ : Shape).Idx → EReal) (b2 : (⟨1, ![16]⟩ : Shape).Idx → EReal)
    (w3 : (⟨2, ![16, 128]⟩ : Shape).Idx → EReal) (b3 : (⟨1, ![128]⟩ : Shape).Idx → EReal)
    (w4 : (⟨2, ![128, 3]⟩ : Shape).Idx → EReal) (b4 : (⟨1, ![3]⟩ : Shape).Idx → EReal) : Params where
  Wf1 d k := w1 (ix2 d k)
  bf1 k := b1 (ix1 k)
  Wf2 k j := w2 (ix2 k j)
  bf2 j := b2 (ix1 j)
  Wg1 j k := w3 (ix2 j k)
  bg1 k := b3 (ix1 k)
  Wg2 k d := w4 (ix2 k d)
  bg2 d := b4 (ix1 d)

/-- Row `n` of an `[N, 3]` array of positions. -/
abbrev rowAt {N : Nat} (x : (⟨2, ![N, 3]⟩ : Shape).Idx → EReal) (n : Fin N) : Fin 3 → EReal := fun d => x (ix2 n d)

end Cert.RowSpec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.TileValue.lean ====
/-
  What the kernel body computes on one tile of 10000 rows, read at an index over the extended reals.

  The body's stored values are pure functions of the blocks it loads (the generated payloads). Read at row `r`:
  the stored affordances are the row function `aff` of row `r` of the position block, the stored reconstruction is
  `recon` of it, the stored error `err` of it — each matrix product into a zero accumulator is the sum over its
  contracted axis, the bias a broadcast along rows, `maximumf · 0` the positive part, the lane reduction the sum of
  the three squared differences. The accumulator update at `(b, j)` adds to what the buffer held the one-hot product
  `∑ᵣ [id r = b] · [aff r | err r | 1] j`: the mask is the comparison of the broadcast ids with the column number,
  widened and converted, so it is one or zero; the right operand is the concatenation of the three pieces along
  columns; the product contracts the row axis of both operands.
-/
import proofs.«415734_j84988812853402_4_alg».proof.KernelIdeal
import proofs.«415734_j84988812853402_4_alg».proof.Proof.Gen.KernelIdeal.Skeleton
import proofs.«415734_j84988812853402_4_alg».proof.Proof.ParamsOf
import proofs.«415734_j84988812853402_4_alg».proof.Proof.LibMatmulAt
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileValue

open Idealize.ShloMosaic Idealize.ShloMosaic.ValueIdx
open Cert.KernelIdeal Cert.KernelIdeal.Gen Cert.RowSpec

/-! ### Where the four products read their operands

Each of the four products contracts the left operand's second axis with the right operand's first and has no batch
axis: the left operand is read at (row, k), the right at (k, column). -/

private theorem mmA_l0 (i : S10000x128.Idx) (q : dot_S10000x3_S3x128_S10000x128_1_0_0_1_n_n.contr.Idx) :
    (dot_S10000x3_S3x128_S10000x128_1_0_0_1_n_n.lhsIdx i q 0).val = (i 0).val := by
  unfold DotDims.lhsIdx
  rw [dif_neg (show ¬(0 : Fin S10000x3.rank) ∈ dot_S10000x3_S3x128_S10000x128_1_0_0_1_n_n.lhsBatch by decide),
    dif_pos (show (0 : Fin S10000x3.rank) ∈ dot_S10000x3_S3x128_S10000x128_1_0_0_1_n_n.lhsNonContracting by decide)]
  rfl
private theorem mmA_l1 (i : S10000x128.Idx) (q : dot_S10000x3_S3x128_S10000x128_1_0_0_1_n_n.contr.Idx) :
    (dot_S10000x3_S3x128_S10000x128_1_0_0_1_n_n.lhsIdx i q 1).val = (q ⟨0, by decide⟩).val :=
  dot_S10000x3_S3x128_S10000x128_1_0_0_1_n_n.lhsIdx_val_of_single rfl i q
private theorem mmA_r0 (i : S10000x128.Idx) (q : dot_S10000x3_S3x128_S10000x128_1_0_0_1_n_n.contr.Idx) :
    (dot_S10000x3_S3x128_S10000x128_1_0_0_1_n_n.rhsIdx i q 0).val = (q ⟨0, by decide⟩).val :=
  dot_S10000x3_S3x128_S10000x128_1_0_0_1_n_n.rhsIdx_val_of_single rfl i q
private theorem mmA_r1 (i : S10000x128.Idx) (q : dot_S10000x3_S3x128_S10000x128_1_0_0_1_n_n.contr.Idx) :
    (dot_S10000x3_S3x128_S10000x128_1_0_0_1_n_n.rhsIdx i q 1).val = (i 1).val := by
  unfold DotDims.rhsIdx
  rw [dif_neg (show ¬(1 : Fin S3x128.rank) ∈ dot_S10000x3_S3x128_S10000x128_1_0_0_1_n_n.rhsBatch by decide),
    dif_pos (show (1 : Fin S3x128.rank) ∈ dot_S10000x3_S3x128_S10000x128_1_0_0_1_n_n.rhsNonContracting by decide)]
  rfl

/-- The positions times the first weights, at `(p, q)`: the sum over the three coordinates. -/
private theorem mmA_at (l : FVec Ideal S10000x3 .f32) (r : FVec Ideal S3x128 .f32) (p : Fin 10000) (q : Fin 128) :
    matmul dot_S10000x3_S3x128_S10000x128_1_0_0_1_n_n none l r (constant (F := Ideal) S10000x128 .f32 0x00000000#32) (ix2 p q)
      = ∑ k : Fin 3, l (ix2 p k) * r (ix2 k q) :=
  MatmulAt.matmul_zero_at dot_S10000x3_S3x128_S10000x128_1_0_0_1_n_n rfl rfl mmA_l0 mmA_l1 mmA_r0 mmA_r1 none l r p q

private theorem mmB_l0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl
private theorem mmB_l1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
private theorem mmB_r0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
private theorem mmB_r1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl

/-- The first hidden layer times the second weights, at `(p, q)`: the sum over the 128 hidden units. -/
private theorem mmB_at (l : FVec Ideal S10000x128 .f32) (r : FVec Ideal S128x16 .f32) (p : Fin 10000) (q : Fin 16) :
    matmul dot_S10000x128_S128x16_S10000x16_1_0_0_1_n_n none l r (constant (F := Ideal) S10000x16 .f32 0x00000000#32) (ix2 p q)
      = ∑ k : Fin 128, l (ix2 p k) * r (ix2 k q) :=
  MatmulAt.matmul_zero_at dot_S10000x128_S128x16_S10000x16_1_0_0_1_n_n rfl rfl mmB_l0 mmB_l1 mmB_r0 mmB_r1 none l r p q

private theorem mmC_l0 (i : S10000x128.Idx) (q : dot_S10000x16_S16x128_S10000x128_1_0_0_1_n_n.contr.Idx) :
    (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide),
    dif_pos (show (0 : Fin S10000x16.rank) ∈ dot_S10000x16_S16x128_S10000x128_1_0_0_1_n_n.lhsNonContracting by decide)]
  rfl
private theorem mmC_l1 (i : S10000x128.Idx) (q : dot_S10000x16_S16x128_S10000x128_1_0_0_1_n_n.contr.Idx) :
    (dot_S10000x16_S16x128_S10000x128_1_0_0_1_n_n.lhsIdx i q 1).val = (q ⟨0, by decide⟩).val :=
  dot_S10000x16_S16x128_S10000x128_1_0_0_1_n_n.lhsIdx_val_of_single rfl i q
private theorem mmC_r0 (i : S10000x128.Idx) (q : dot_S10000x16_S16x128_S10000x128_1_0_0_1_n_n.contr.Idx) :
    (dot_S10000x16_S16x128_S10000x128_1_0_0_1_n_n.rhsIdx i q 0).val = (q ⟨0, by decide⟩).val :=
  dot_S10000x16_S16x128_S10000x128_1_0_0_1_n_n.rhsIdx_val_of_single rfl i q
private theorem mmC_r1 (i : S10000x128.Idx) (q : dot_S10000x16_S16x128_S10000x128_1_0_0_1_n_n.contr.Idx) :
    (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide),
    dif_pos (show (1 : Fin S16x128.rank) ∈ dot_S10000x16_S16x128_S10000x128_1_0_0_1_n_n.rhsNonContracting by decide)]
  rfl

/-- The affordances times the third weights, at `(p, q)`: the sum over the 16 affordances. -/
private theorem mmC_at (l : FVec Ideal S10000x16 .f32) (r : FVec Ideal S16x128 .f32) (p : Fin 10000) (q : Fin 128) :
    matmul dot_S10000x16_S16x128_S10000x128_1_0_0_1_n_n none l r (constant (F := Ideal) S10000x128 .f32 0x00000000#32) (ix2 p q)
      = ∑ k : Fin 16, l (ix2 p k) * r (ix2 k q) :=
  MatmulAt.matmul_zero_at dot_S10000x16_S16x128_S10000x128_1_0_0_1_n_n rfl rfl mmC_l0 mmC_l1 mmC_r0 mmC_r1 none l r p q

private theorem mmD_l0 (i : S10000x3.Idx) (q : dot_S10000x128_S128x3_S10000x3_1_0_0_1_n_n.contr.Idx) :
    (dot_S10000x128_S128x3_S10000x3_1_0_0_1_n_n.lhsIdx i q 0).val = (i 0).val := by
  unfold DotDims.lhsIdx
  rw [dif_neg (show ¬(0 : Fin S10000x128.rank) ∈ dot_S10000x128_S128x3_S10000x3_1_0_0_1_n_n.lhsBatch by decide),
    dif_pos (show (0 : Fin S10000x128.rank) ∈ dot_S10000x128_S128x3_S10000x3_1_0_0_1_n_n.lhsNonContracting by decide)]
  rfl
private theorem mmD_l1 (i : S10000x3.Idx) (q : dot_S10000x128_S128x3_S10000x3_1_0_0_1_n_n.contr.Idx) :
    (dot_S10000x128_S128x3_S10000x3_1_0_0_1_n_n.lhsIdx i q 1).val = (q ⟨0, by decide⟩).val :=
  dot_S10000x128_S128x3_S10000x3_1_0_0_1_n_n.lhsIdx_val_of_single rfl i q
private theorem mmD_r0 (i : S10000x3.Idx) (q : dot_S10000x128_S128x3_S10000x3_1_0_0_1_n_n.contr.Idx) :
    (dot_S10000x128_S128x3_S10000x3_1_0_0_1_n_n.rhsIdx i q 0).val = (q ⟨0, by decide⟩).val :=
  dot_S10000x128_S128x3_S10000x3_1_0_0_1_n_n.rhsIdx_val_of_single rfl i q
private theorem mmD_r1 (i : S10000x3.Idx) (q : dot_S10000x128_S128x3_S10000x3_1_0_0_1_n_n.contr.Idx) :
    (dot_S10000x128_S128x3_S10000x3_1_0_0_1_n_n.rhsIdx i q 1).val = (i 1).val := by
  unfold DotDims.rhsIdx
  rw [dif_neg (show ¬(1 : Fin S128x3.rank) ∈ dot_S10000x128_S128x3_S10000x3_1_0_0_1_n_n.rhsBatch by decide),
    dif_pos (show (1 : Fin S128x3.rank) ∈ dot_S10000x128_S128x3_S10000x3_1_0_0_1_n_n.rhsNonContracting by decide)]
  rfl

/-- The second hidden layer times the fourth weights, at `(p, q)`: the sum over the 128 hidden units. -/
private theorem mmD_at (l : FVec Ideal S10000x128 .f32) (r : FVec Ideal S128x3 .f32) (p : Fin 10000) (q : Fin 3) :
    matmul dot_S10000x128_S128x3_S10000x3_1_0_0_1_n_n none l r (constant (F := Ideal) S10000x3 .f32 0x00000000#32) (ix2 p q)
      = ∑ k : Fin 128, l (ix2 p k) * r (ix2 k q) :=
  MatmulAt.matmul_zero_at dot_S10000x128_S128x3_S10000x3_1_0_0_1_n_n rfl rfl mmD_l0 mmD_l1 mmD_r0 mmD_r1 none l r p q

/-! ### The layout operations and the lane reduction at an index -/

/-- A bias `[b]` cast to one row `[1, b]` and broadcast over `a` rows reads, at `(p, c)`, the bias at `c`. -/
private theorem bias_at {α : Type} {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (c : Fin b) :
    broadcastTo ⟨2, ![a, b]⟩ (shapeCast ⟨2, ![1, b]⟩ v h₁) h₂ (ix2 p c) = v (ix1 c) :=
  (broadcastTo_1b_ab_apply _ h₂ p c).trans (shapeCast_a_1a_apply v h₁ 0 c)

/-- A vector `[a]` cast to one column `[a, 1]` reads, at `(i, u)`, the vector at `i`. -/
private theorem col_at {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the three lanes of a `[10000, 3]` block, at row `r`. -/
private theorem rowsum_at (v : FVec Ideal S10000x3 .f32) (h : S10000x3.Reduces [1] S10000) (hφ : FKind.Formats .f32)
    (hacc : (0x00000000#32 : BitVec 32) = FKind.add.neutral .f32 hφ) (r : Fin 10000) :
    multiReduction (F := Ideal) .add [1] S10000 v 0x00000000#32 h hφ hacc (ix1 r) = ∑ d : Fin 3, v (ix2 r d) := by
  refine (Ideal.multiReduction_add_single v _ h hφ hacc (ix1 r)).trans ?_
  refine Finset.sum_congr rfl fun d _ => congrArg v (funext fun a => ?_)
  match a with
  | ⟨0, _⟩ => rfl
  | ⟨1, _⟩ => rfl

/-- The positive part: the maximum with the broadcast of the scalar zero, at an index. -/
private theorem relu_at {s : Shape} (x : FVec Ideal s .f32) (i : s.Idx) :
    maximumf x (broadcast s (Scalar.ofBits (F := Ideal) .f32 0x00000000#32)) i = max (x i) 0 := by
  show max (x i) (Ideal.ofBits .f32 0x00000000#32) = max (x i) 0
  rw [Ideal.ofBits_zero_f32]

/-! ### The three stored values at a row -/

variable (x0 : Vec Ideal S10000x3 .f32) (x1 : Vec Ideal S10000x1 .i32)
  (x2 : Vec Ideal S3x128 .f32) (x3 : Vec Ideal S128 .f32) (x4 : Vec Ideal S128x16 .f32) (x5 : Vec Ideal S16 .f32)
  (x6 : Vec Ideal S16x128 .f32) (x7 : Vec Ideal S128 .f32) (x8 : Vec Ideal S128x3 .f32) (x9 : Vec Ideal S3 .f32)

/-- The stored affordances at `(r, j)`: `aff` of row `r` of the position block. -/
theorem aff_at (r : Fin 10000) (j : Fin 16) :
    k0_pay6 (F := Ideal) x0 x2 x3 x4 x5 (ix2 r j) = aff (paramsOf x2 x3 x4 x5 x6 x7 x8 x9) (rowAt x0 r) j := by
  unfold k0_pay6
  rw [addf_apply, mmB_at, bias_at]
  unfold aff
  refine congrArg (· + _) (Finset.sum_congr rfl fun k _ => congrArg (· * _) ?_)
  rw [relu_at, addf_apply, mmA_at, bias_at]
  rfl

/-- The stored reconstruction at `(r, d)`: `recon` of row `r`. -/
theorem recon_at (r : Fin 10000) (d : Fin 3) :
    k0_pay1 (F := Ideal) (k0_pay7 x0 x2 x3 x4 x5 x6 x7 x8) (k0_pay8 x9) (ix2 r d)
      = recon (paramsOf x2 x3 x4 x5 x6 x7 x8 x9) (rowAt x0 r) d := by
  unfold k0_pay1 k0_pay7 k0_pay8
  rw [addf_apply, mmD_at, bias_at]
  unfold recon
  refine congrArg (· + _) (Finset.sum_congr rfl fun k _ => congrArg (· * _) ?_)
  rw [relu_at, addf_apply, mmC_at, bias_at]
  unfold hidG
  refine congrArg (fun t => max (t + _) 0) (Finset.sum_congr rfl fun j _ => congrArg (· * _) ?_)
  exact aff_at x0 x2 x3 x4 x5 x6 x7 x8 x9 r j

/-- The stored squared error at `(r, 0)`: `err` of row `r`. -/
theorem err_at (r : Fin 10000) :
    k0_pay2 (F := Ideal) x0 (k0_pay7 x0 x2 x3 x4 x5 x6 x7 x8) (k0_pay8 x9) (ix2 r 0)
      = err (paramsOf x2 x3 x4 x5 x6 x7 x8 x9) (rowAt x0 r) := by
  unfold k0_pay2
  rw [col_at]
  refine (rowsum_at _ _ _ _ r).trans ?_
  unfold err
  refine Finset.sum_congr rfl fun d _ => ?_
  rw [mulf_apply, subf_apply, recon_at x0 x2 x3 x4 x5 x6 x7 x8 x9 r d]

end Cert.KernelIdeal.TileValue

end
-- ==== Proof.TileAcc.lean ====
/-
  The accumulator update of the kernel body on one tile, read at an index over the extended reals.

  The update adds to what the [1, 64, 18] buffer held the one-hot product of the tile: at `(0, b, j)`,
  `held (0, b, j) + ∑ᵣ [id r = b] · c r j` over the tile's 10000 rows, where `c r j` is entry `j` of the concatenation
  along columns of the [10000, 16] affordances, the [10000, 1] squared errors and a [10000, 1] column of ones. The mask
  is the comparison of the ids, broadcast along columns, with the column number (an iota), widened to 32 bits and
  converted to a float: one where the id is the column number, zero elsewhere. The matrix product contracts the row
  axis of both operands into a zero accumulator. The reset block is the broadcast of zero.
-/
import proofs.«415734_j84988812853402_4_alg».proof.KernelIdeal
import proofs.«415734_j84988812853402_4_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.TileAcc

open Idealize.ShloMosaic Idealize.ShloMosaic.ValueIdx
open Cert.KernelIdeal Cert.KernelIdeal.Gen

/-- Entry `j` of row `r` of the concatenation [a | e | 1] along columns. -/
def catCol (a : FVec Ideal S10000x16 .f32) (e : FVec Ideal S10000x1 .f32) (r : Fin 10000) (j : Fin 18) : EReal :=
  if h : j.val < 16 then a (ix2 r ⟨j.val, h⟩) else if j.val = 16 then e (ix2 r 0) else 1

/-! ## Where the dimension numbers read their operands -/

private theorem lhs_axis0 (i : S64x18.Idx) (q : dot_S10000x64_S10000x18_S64x18_0_0_1_1_n_n.contr.Idx) :
    (dot_S10000x64_S10000x18_S64x18_0_0_1_1_n_n.lhsIdx i q 0).val = (q ⟨0, by decide⟩).val :=
  dot_S10000x64_S10000x18_S64x18_0_0_1_1_n_n.lhsIdx_val_of_single rfl i q

private theorem lhs_axis1 (i : S64x18.Idx) (q : dot_S10000x64_S10000x18_S64x18_0_0_1_1_n_n.contr.Idx) :
    (dot_S10000x64_S10000x18_S64x18_0_0_1_1_n_n.lhsIdx i q 1).val = (i 0).val := by
  unfold DotDims.lhsIdx
  rw [dif_neg (show ¬(1 : Fin S10000x64.rank) ∈ dot_S10000x64_S10000x18_S64x18_0_0_1_1_n_n.lhsBatch by decide),
    dif_pos (show (1 : Fin S10000x64.rank) ∈ dot_S10000x64_S10000x18_S64x18_0_0_1_1_n_n.lhsNonContracting by decide)]
  rfl

private theorem rhs_axis0 (i : S64x18.Idx) (q : dot_S10000x64_S10000x18_S64x18_0_0_1_1_n_n.contr.Idx) :
    (dot_S10000x64_S10000x18_S64x18_0_0_1_1_n_n.rhsIdx i q 0).val = (q ⟨0, by decide⟩).val :=
  dot_S10000x64_S10000x18_S64x18_0_0_1_1_n_n.rhsIdx_val_of_single rfl i q

private theorem rhs_axis1 (i : S64x18.Idx) (q : dot_S10000x64_S10000x18_S64x18_0_0_1_1_n_n.contr.Idx) :
    (dot_S10000x64_S10000x18_S64x18_0_0_1_1_n_n.rhsIdx i q 1).val = (i 1).val := by
  unfold DotDims.rhsIdx
  rw [dif_neg (show ¬(1 : Fin S10000x18.rank) ∈ dot_S10000x64_S10000x18_S64x18_0_0_1_1_n_n.rhsBatch by decide),
    dif_pos (show (1 : Fin S10000x18.rank) ∈ dot_S10000x64_S10000x18_S64x18_0_0_1_1_n_n.rhsNonContracting by decide)]
  rfl

/-- The product that contracts the row axis of both operands, into a zero accumulator: entry `(b, j)` is
    `∑ₖ l[k, b] · r[k, j]`. -/
private theorem matmul_at (l : FVec Ideal S10000x64 .f32) (r : FVec Ideal S10000x18 .f32) (b : Fin 64) (j : Fin 18) :
    matmul dot_S10000x64_S10000x18_S64x18_0_0_1_1_n_n none l r (constant (F := Ideal) S64x18 .f32 0x00000000#32) (ix2 b j)
      = ∑ k : Fin 10000, l (ix2 k b) * r (ix2 k j) := by
  simp only [matmul]
  rw [Ideal.matmul_constant_zero_apply,
    ← Equiv.sum_comp (contrEquiv1 dot_S10000x64_S10000x18_S64x18_0_0_1_1_n_n 10000 rfl rfl).symm]
  refine Finset.sum_congr rfl fun k _ => ?_
  have hk := contrEquiv1_symm_val dot_S10000x64_S10000x18_S64x18_0_0_1_1_n_n 10000 rfl rfl k
  have el : dot_S10000x64_S10000x18_S64x18_0_0_1_1_n_n.lhsIdx (ix2 b j)
      ((contrEquiv1 dot_S10000x64_S10000x18_S64x18_0_0_1_1_n_n 10000 rfl rfl).symm k) = ix2 k b :=
    funext fun a => Fin.ext (by
      match a with
      | ⟨0, _⟩ => exact (lhs_axis0 _ _).trans hk
      | ⟨1, _⟩ => exact lhs_axis1 _ _)
  have er : dot_S10000x64_S10000x18_S64x18_0_0_1_1_n_n.rhsIdx (ix2 b j)
      ((contrEquiv1 dot_S10000x64_S10000x18_S64x18_0_0_1_1_n_n 10000 rfl rfl).symm k) = ix2 k j :=
    funext fun a => Fin.ext (by
      match a with
      | ⟨0, _⟩ => exact (rhs_axis0 _ _).trans hk
      | ⟨1, _⟩ => exact rhs_axis1 _ _)
  rw [el, er]

/-! ## The one-hot mask -/

/-- A [10000, 1] column broadcast along columns reads its row's one entry. -/
private theorem bcast_col_at (v5 : IVec S10000x1 32) (k : Fin 10000) (b : Fin 64) :
    broadcastTo S10000x64 v5 broadcasts_S10000x1_S10000x64 (ix2 k b) = v5 (ix2 k 0) :=
  broadcastTo_apply v5 _ (ix2 k b) (ix2 k 0) fun ax => by
    match ax with
    | ⟨0, _⟩ => rfl
    | ⟨1, _⟩ => rfl

/-- The mask at `(k, b)`: one where row `k`'s id is the column number `b`, zero elsewhere. -/
private theorem mask_at (v5 : IVec S10000x1 32) (k : Fin 10000) (b : Fin 64) :
    (sitofp .f32 (extui 32 (cmpi .eq (broadcastTo S10000x64 v5 broadcasts_S10000x1_S10000x64)
        (iota .tc S10000x64 32 [1] iota_S10000x64_d1_w32)) natLt_1_32) : FVec Ideal S10000x64 .f32) (ix2 k b)
      = if v5 (ix2 k 0) = BitVec.ofNat 32 b.val then (1 : EReal) else 0 := by
  rw [sitofp_apply, extui_apply]
  show FloatOps.sitofp (F := Ideal) .f32 ((IntOp.cmpi .eq (broadcastTo S10000x64 v5 broadcasts_S10000x1_S10000x64 (ix2 k b))
      (iota .tc S10000x64 32 [1] iota_S10000x64_d1_w32 (ix2 k b))).setWidth 32) = _
  rw [bcast_col_at, iota_single_apply]
  show ((((IntOp.cmpi .eq (v5 (ix2 k 0)) (BitVec.ofNat 32 b.val)).setWidth 32).toInt : ℝ) : EReal) = _
  by_cases h : v5 (ix2 k 0) = BitVec.ofNat 32 b.val
  · have hc : IntOp.cmpi .eq (v5 (ix2 k 0)) (BitVec.ofNat 32 b.val) = 1#1 := by simp [IntOp.cmpi, h]
    rw [if_pos h, hc]
    norm_num
  · have hc : IntOp.cmpi .eq (v5 (ix2 k 0)) (BitVec.ofNat 32 b.val) = 0#1 := by
      show BitVec.ofBool (v5 (ix2 k 0) == BitVec.ofNat 32 b.val) = 0#1
      rw [beq_eq_false_iff_ne.mpr h]; rfl
    rw [if_neg h, hc]
    norm_num

/-! ## The concatenation [a | e | 1] along columns -/

/-- The concatenation at `(k, j)`: columns below 16 read the affordances, column 16 the squared error, column 17 the
    constant one. -/
private theorem cat_at (a : FVec Ideal S10000x16 .f32) (e : FVec Ideal S10000x1 .f32) (k : Fin 10000) (j : Fin 18) :
    concatenate S10000x18 1 [⟨S10000x16, a⟩, ⟨S10000x1, e⟩,
        ⟨S10000x1, broadcast S10000x1 (Scalar.ofBits (F := Ideal) .f32 0x3F800000#32)⟩]
        concatenates_S10000x16_S10000x1_S10000x1_S10000x18_d1 (ix2 k j)
      = catCol a e k j := by
  unfold catCol
  split
  · next h =>
    exact concatenate_apply_piece 1 _ _ (ix2 k j) 0 (by show (0 : ℕ) < 3; omega) S10000x16 a rfl rfl 0 rfl (ix2 k ⟨j.val, h⟩)
      (fun b hb => by
        match b with
        | ⟨0, _⟩ => rfl
        | ⟨1, _⟩ => exact absurd rfl hb)
      (Nat.zero_add _)
  · next h =>
    split
    · next h16 =>
      exact concatenate_apply_piece 1 _ _ (ix2 k j) 1 (by show (1 : ℕ) < 3; omega) S10000x1 e rfl rfl 16 rfl (ix2 k 0)
        (fun b hb => by
          match b with
          | ⟨0, _⟩ => rfl
          | ⟨1, _⟩ => exact absurd rfl hb)
        (by show 16 + 0 = j.val; omega)
    · next h16 =>
      refine (concatenate_apply_piece 1 _ _ (ix2 k j) 2 (by show (2 : ℕ) < 3; omega) S10000x1 _ rfl rfl 17 rfl (ix2 k 0)
        (fun b hb => by
          match b with
          | ⟨0, _⟩ => rfl
          | ⟨1, _⟩ => exact absurd rfl hb)
        (by show 17 + 0 = j.val; have := j.isLt; omega)).trans ?_
      exact Ideal.ofBits_one_f32

/-- The accumulator update at `(0, b, j)`: what the buffer held plus the tile's one-hot product. -/
theorem acc_at (v3 : Vec Ideal S10000x3 .f32) (v5 : IVec S10000x1 32) (v19 : FVec Ideal S10000x16 .f32)
    (v29 v32 : FVec Ideal S10000x3 .f32) (v48 : Vec Ideal S1x64x18 .f32) (b : Fin 64) (j : Fin 18) :
    k0_pay3 (F := Ideal) v3 v5 v19 v29 v32 v48 (ix3 0 b j)
      = v48 (ix3 0 b j)
        + ∑ r : Fin 10000, (if v5 (ix2 r 0) = BitVec.ofNat 32 b.val then (1 : EReal) else 0)
            * catCol v19 (k0_pay2 (F := Ideal) v3 v29 v32) r j := by
  unfold k0_pay3
  rw [shapeCast_ab_1ab_apply, addf_apply, shapeCast_1ab_ab_apply, matmul_at]
  refine congrArg (v48 (ix3 0 b j) + ·) (Finset.sum_congr rfl fun r _ => ?_)
  rw [mask_at, cat_at]

/-- The reset block is zero everywhere. -/
theorem zero_at (b : Fin 64) (j : Fin 18) : k0_pay4 (F := Ideal) (ix3 0 b j) = 0 := by
  unfold k0_pay4
  rw [shapeCast_ab_1ab_apply]
  exact Ideal.ofBits_zero_f32

/-- The ids as the body uses them are the loaded ids (a cast between equal shapes). -/
theorem ids_at (v4 : Vec Ideal S10000x1 .i32) (r : Fin 10000) : k0_pay5 (F := Ideal) v4 (ix2 r 0) = v4 (ix2 r 0) := by
  unfold k0_pay5
  rw [shapeCast_self]

end Cert.KernelIdeal.TileAcc

end
-- ==== Proof.KernelArgs.lean ====
/-
  The kernel program's argument arrays as the specification reads them: the networks' parameters, the rows of `pos`,
  the ids.
-/
import proofs.«415734_j84988812853402_4_alg».proof.KernelIdeal
import proofs.«415734_j84988812853402_4_alg».proof.Proof.Gen.KernelIdeal
import proofs.«415734_j84988812853402_4_alg».proof.Proof.ParamsOf

noncomputable section

namespace Cert.KernelIdeal.KernelArgs

open Idealize.ShloMosaic Idealize.ShloMosaic.TcCoe Idealize.SL.Sem Idealize.ShloMosaic.ValueIdx
open Cert.KernelIdeal Cert.RowSpec

variable (m : (ℓ : Loc nD τ sig) → Buf (Elt Ideal) ℓ)

/-- The networks' parameters as memory holds them on core `c`. -/
def Pm (c : Dev nD) : Params :=
  paramsOf (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))
    (m ((c.tc : Thread nD τ).loc main_arg11)) (m ((c.tc : Thread nD τ).loc main_arg12))

/-- Row `n` of `pos`. -/
def posOf (c : Dev nD) : Fin 1000000 → Fin 3 → EReal := fun n => rowAt (m ((c.tc : Thread nD τ).loc main_arg0)) n

/-- The id of row `n`. -/
def idsOf (c : Dev nD) : Fin 1000000 → BitVec 32 := fun n => m ((c.tc : Thread nD τ).loc main_arg1) (ix1 n)

end Cert.KernelIdeal.KernelArgs

end
-- ==== Proof.ArrayValue.lean ====
/-
  What the three per-row output arrays hold after the kernel's run, over the extended reals.

  Tile `t` writes back rows `10000 t … 10000 t + 9999` of the affordances, of the reconstruction and of the squared
  errors, every tile does, and the 100 tiles' row ranges cover the 1000000 rows. What tile `t` writes at its row `r` is
  the row function (`aff`, `recon`, `err`) of row `r` of its position block, which is row `10000 t + r` of `pos`,
  at the parameter arrays. So each array ends holding its row function of `pos`, row by row.
-/
import proofs.«415734_j84988812853402_4_alg».proof.Proof.Patched.KernelIdeal.Frame
import proofs.«415734_j84988812853402_4_alg».proof.Proof.BlockValue
import proofs.«415734_j84988812853402_4_alg».proof.Proof.BlockRead
import proofs.«415734_j84988812853402_4_alg».proof.Proof.TileValue
import proofs.«415734_j84988812853402_4_alg».proof.Proof.TileAcc
import proofs.«415734_j84988812853402_4_alg».proof.Proof.KernelArgs
import proofs.«415734_j84988812853402_4_alg».proof.Proof.SegSpec
import Idealize.ShloMosaic.Lib.Pipeline.Value
import Idealize.ShloMosaic.Lib.ValueIdx

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.KernelIdeal.KernelArgs Cert.RowSpec
open Cert.KernelIdeal.BlockRead Cert.SegSpec

variable (m : (ℓ : Loc nD τ sig) → Buf (Elt Ideal) ℓ)

/-- The affordances array: `aff` of each row of `pos`. -/
def G10 (c : Dev nD) : S1000000x16.Idx → EReal :=
  fun i => aff (Pm m c) (posOf m c ⟨(i 0).val, (i 0).isLt⟩) ⟨(i 1).val, (i 1).isLt⟩

/-- The reconstruction array: `recon` of each row of `pos`. -/
def G11 (c : Dev nD) : S1000000x3.Idx → EReal :=
  fun i => recon (Pm m c) (posOf m c ⟨(i 0).val, (i 0).isLt⟩) ⟨(i 1).val, (i 1).isLt⟩

/-- The squared-error column: `err` of each row of `pos`. -/
def G12 (c : Dev nD) : S1000000x1.Idx → EReal :=
  fun i => err (Pm m c) (posOf m c ⟨(i 0).val, (i 0).isLt⟩)

/-! ### What tile `t` leaves in its three row blocks -/

/-- The parameters read off tile `t`'s parameter blocks are the parameters memory holds. -/
private theorem params_blk (c : Dev nD) (t : Fin cfg0.N) :
    paramsOf (wf1Blk m c t) (bf1Blk m c t) (wf2Blk m c t) (bf2Blk m c t) (wg1Blk m c t) (bg1Blk m c t) (wg2Blk m c t)
      (bg2Blk m c t) = Pm m c := by
  rw [wf1Blk_eq, bf1Blk_eq, wf2Blk_eq, bf2Blk_eq, wg1Blk_eq, bg1Blk_eq, wg2Blk_eq, bg2Blk_eq]
  rfl

/-- Row `r` of tile `t`'s position block is row `10000 t + r` of `pos`. -/
private theorem row_blk (c : Dev nD) (t : Fin cfg0.N) (r : Fin 10000) :
    rowAt (posBlk m c t) r = posOf m c (tileRow (pt t) r) :=
  funext fun d => posBlk_at m c t r d

/-- The affordances block of tile `t` at `(r, j)`. -/
theorem blk10_at (c : Dev nD) (t : Fin cfg0.N) (r : Fin 10000) (j : Fin 16) :
    (outsAt0 m c t.val t.isLt).1 (ix2 r j) = aff (Pm m c) (posOf m c (tileRow (pt t) r)) j := by
  have key : k0_pay6 (F := Ideal) (posBlk m c t) (wf1Blk m c t) (bf1Blk m c t) (wf2Blk m c t) (bf2Blk m c t) (ix2 r j)
      = aff (Pm m c) (posOf m c (tileRow (pt t) r)) j := by
    rw [TileValue.aff_at (posBlk m c t) (wf1Blk m c t) (bf1Blk m c t) (wf2Blk m c t) (bf2Blk m c t) (wg1Blk m c t)
      (bg1Blk m c t) (wg2Blk m c t) (bg2Blk m c t) r j, params_blk m c t, row_blk m c t r]
  by_cases h : t.val % 50 = 0
  · rw [outsAt0_A m c t h]
    dsimp only
    exact (congrFun (BlockValue.out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h) (posBlk m c t) (idBlk m c t) (wf1Blk m c t) (bf1Blk m c t) (wf2Blk m c t) (bf2Blk m c t) (wg1Blk m c t) (bg1Blk m c t) (wg2Blk m c t) (bg2Blk m c t)) (ix2 r j)).trans key
  · rw [outsAt0_B m c t h]
    dsimp only
    exact (congrFun (BlockValue.out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h' => h ((hcond0_0 t).mp h')) (posBlk m c t) (idBlk m c t) (wf1Blk m c t) (bf1Blk m c t) (wf2Blk m c t) (bf2Blk m c t) (wg1Blk m c t) (bg1Blk m c t) (wg2Blk m c t) (bg2Blk m c t) (outsAt0 m c (t.val - 1) (Nat.lt_of_le_of_lt (Nat.sub_le _ _) t.isLt)).2.2.2) (ix2 r j)).trans key

/-! ### The affordances array -/

/-- Tile `t`'s affordances block starts at row `10000 t`, column 0. -/
private theorem idx10 : ∀ t : Fin cfg0.N, win0_10.index t (0 : Fin 2) = t.val ∧ win0_10.index t (1 : Fin 2) = 0 :=
  (by decide +kernel : ∀ t : Fin grid0.N, _)

/-- The affordances block of tile `t` at any index of the block. -/
private theorem read10 (c : Dev nD) (t : Fin cfg0.N) (y : S10000x16.Idx) :
    (outsAt0 m c t.val t.isLt).1 y = aff (Pm m c) (posOf m c (tileRow (pt t) (y 0))) (y 1) :=
  (congrArg (outsAt0 m c t.val t.isLt).1 (eq_ix2 y)).trans (blk10_at m c t (y 0) (y 1))

/-- What tile `t` writes back is block `t` of the affordances array. -/
theorem flushed10_eq (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  funext y
  show (outsAt0 m c t.val t.isLt).1 ((cfg0.win 10).xinj (grid0.coords t) y) = G10 m c (((cfg0.win 10).blk t).view.emb y)
  refine (read10 m c t _).trans ?_
  obtain ⟨e0, e1⟩ := idx10 t
  have hr : tileRow (pt t) ((cfg0.win 10).xinj (grid0.coords t) y 0)
      = ⟨(((cfg0.win 10).blk t).view.emb y 0).val, (((cfg0.win 10).blk t).view.emb y 0).isLt⟩ :=
    Fin.ext (by
      show 10000 * t.val + (y 0).val = win0_10.index t (0 : Fin 2) * 10000 + 1 * (y 0).val
      omega)
  have hj : (cfg0.win 10).xinj (grid0.coords t) y 1
      = ⟨(((cfg0.win 10).blk t).view.emb y 1).val, (((cfg0.win 10).blk t).view.emb y 1).isLt⟩ :=
    Fin.ext (by
      show (y 1).val = win0_10.index t (1 : Fin 2) * 16 + 1 * (y 1).val
      omega)
  rw [hr, hj]
  rfl

/-- An index of the affordances array is in tile `t`'s block iff each coordinate is in the block's range. -/
private theorem mem_blk10 (t : Fin cfg0.N) (i : S1000000x16.Idx) :
    i ∈ ((cfg0.win 10).blk t).view.set ↔ ∀ a : Fin 2, win0_10.index t a * S10000x16.size a ≤ (i a).val
      ∧ (i a).val < win0_10.index t a * S10000x16.size a + S10000x16.size a := by
  show i ∈ ((View.whole main_v1_0).slice (win0_10.rect t)).set ↔ _
  rw [View.set_slice_whole, Rect.mem_set_unit]
  exact Iff.rfl

/-- Row `n` of the affordances array is in the block of tile `n / 10000`, which is written back. -/
private theorem cover10 (i : S1000000x16.Idx) :
    ∃ t : Fin cfg0.N, (cfg0.win 10).flush t = true ∧ i ∈ ((cfg0.win 10).blk t).view.set := by
  have hi0 : (i 0).val < 1000000 := (i 0).isLt
  have hi1 : (i 1).val < 16 := (i 1).isLt
  have hN : cfg0.N = 100 := N_0
  refine ⟨⟨(i 0).val / 10000, by omega⟩, flush0_10 _, ?_⟩
  rw [mem_blk10]
  obtain ⟨e0, e1⟩ := idx10 ⟨(i 0).val / 10000, by omega⟩
  intro a
  match a with
  | ⟨0, _⟩ =>
    show win0_10.index ⟨(i 0).val / 10000, _⟩ (0 : Fin 2) * 10000 ≤ (i 0).val
      ∧ (i 0).val < win0_10.index ⟨(i 0).val / 10000, _⟩ (0 : Fin 2) * 10000 + 10000
    rw [e0]; dsimp only; omega
  | ⟨1, _⟩ =>
    show win0_10.index ⟨(i 0).val / 10000, _⟩ (1 : Fin 2) * 16 ≤ (i 1).val
      ∧ (i 1).val < win0_10.index ⟨(i 0).val / 10000, _⟩ (1 : Fin 2) * 16 + 16
    rw [e1]; omega

theorem final10 (c : Dev nD) : (dats m 0 c).arrAt 10 cfg0.N = G10 m c :=
  (dats m 0 c).arrAt_eq_of_cover 10 (G10 m c) (fun t _ => flushed10_eq m c t) cover10

/-! ### The reconstruction array -/

/-- The reconstruction block of tile `t` at `(r, d)`. -/
theorem blk11_at (c : Dev nD) (t : Fin cfg0.N) (r : Fin 10000) (d : Fin 3) :
    (outsAt0 m c t.val t.isLt).2.1 (ix2 r d) = recon (Pm m c) (posOf m c (tileRow (pt t) r)) d := by
  have key : k0_pay1 (F := Ideal) (k0_pay7 (posBlk m c t) (wf1Blk m c t) (bf1Blk m c t) (wf2Blk m c t) (bf2Blk m c t)
        (wg1Blk m c t) (bg1Blk m c t) (wg2Blk m c t)) (k0_pay8 (bg2Blk m c t)) (ix2 r d)
      = recon (Pm m c) (posOf m c (tileRow (pt t) r)) d := by
    rw [TileValue.recon_at (posBlk m c t) (wf1Blk m c t) (bf1Blk m c t) (wf2Blk m c t) (bf2Blk m c t) (wg1Blk m c t)
      (bg1Blk m c t) (wg2Blk m c t) (bg2Blk m c t) r d, params_blk m c t, row_blk m c t r]
  by_cases h : t.val % 50 = 0
  · rw [outsAt0_A m c t h]
    dsimp only
    exact (congrFun (BlockValue.out_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h) (posBlk m c t) (idBlk m c t) (wf1Blk m c t) (bf1Blk m c t) (wf2Blk m c t) (bf2Blk m c t) (wg1Blk m c t) (bg1Blk m c t) (wg2Blk m c t) (bg2Blk m c t)) (ix2 r d)).trans key
  · rw [outsAt0_B m c t h]
    dsimp only
    exact (congrFun (BlockValue.out_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h' => h ((hcond0_0 t).mp h')) (posBlk m c t) (idBlk m c t) (wf1Blk m c t) (bf1Blk m c t) (wf2Blk m c t) (bf2Blk m c t) (wg1Blk m c t) (bg1Blk m c t) (wg2Blk m c t) (bg2Blk m c t) (outsAt0 m c (t.val - 1) (Nat.lt_of_le_of_lt (Nat.sub_le _ _) t.isLt)).2.2.2) (ix2 r d)).trans key

/-- Tile `t`'s reconstruction block starts at row `10000 t`, column 0. -/
private theorem idx11 : ∀ t : Fin cfg0.N, win0_11.index t (0 : Fin 2) = t.val ∧ win0_11.index t (1 : Fin 2) = 0 :=
  (by decide +kernel : ∀ t : Fin grid0.N, _)

/-- The reconstruction block of tile `t` at any index of the block. -/
private theorem read11 (c : Dev nD) (t : Fin cfg0.N) (y : S10000x3.Idx) :
    (outsAt0 m c t.val t.isLt).2.1 y = recon (Pm m c) (posOf m c (tileRow (pt t) (y 0))) (y 1) :=
  (congrArg (outsAt0 m c t.val t.isLt).2.1 (eq_ix2 y)).trans (blk11_at m c t (y 0) (y 1))

/-- What tile `t` writes back is block `t` of the reconstruction array. -/
theorem flushed11_eq (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  funext y
  show (outsAt0 m c t.val t.isLt).2.1 ((cfg0.win 11).xinj (grid0.coords t) y) = G11 m c (((cfg0.win 11).blk t).view.emb y)
  refine (read11 m c t _).trans ?_
  obtain ⟨e0, e1⟩ := idx11 t
  have hr : tileRow (pt t) ((cfg0.win 11).xinj (grid0.coords t) y 0)
      = ⟨(((cfg0.win 11).blk t).view.emb y 0).val, (((cfg0.win 11).blk t).view.emb y 0).isLt⟩ :=
    Fin.ext (by
      show 10000 * t.val + (y 0).val = win0_11.index t (0 : Fin 2) * 10000 + 1 * (y 0).val
      omega)
  have hd : (cfg0.win 11).xinj (grid0.coords t) y 1
      = ⟨(((cfg0.win 11).blk t).view.emb y 1).val, (((cfg0.win 11).blk t).view.emb y 1).isLt⟩ :=
    Fin.ext (by
      show (y 1).val = win0_11.index t (1 : Fin 2) * 3 + 1 * (y 1).val
      omega)
  rw [hr, hd]
  rfl

/-- An index of the reconstruction array is in tile `t`'s block iff each coordinate is in the block's range. -/
private theorem mem_blk11 (t : Fin cfg0.N) (i : S1000000x3.Idx) :
    i ∈ ((cfg0.win 11).blk t).view.set ↔ ∀ a : Fin 2, win0_11.index t a * S10000x3.size a ≤ (i a).val
      ∧ (i a).val < win0_11.index t a * S10000x3.size a + S10000x3.size a := by
  show i ∈ ((View.whole main_v1_1).slice (win0_11.rect t)).set ↔ _
  rw [View.set_slice_whole, Rect.mem_set_unit]
  exact Iff.rfl

/-- Row `n` of the reconstruction array is in the block of tile `n / 10000`, which is written back. -/
private theorem cover11 (i : S1000000x3.Idx) :
    ∃ t : Fin cfg0.N, (cfg0.win 11).flush t = true ∧ i ∈ ((cfg0.win 11).blk t).view.set := by
  have hi0 : (i 0).val < 1000000 := (i 0).isLt
  have hi1 : (i 1).val < 3 := (i 1).isLt
  have hN : cfg0.N = 100 := N_0
  refine ⟨⟨(i 0).val / 10000, by omega⟩, flush0_11 _, ?_⟩
  rw [mem_blk11]
  obtain ⟨e0, e1⟩ := idx11 ⟨(i 0).val / 10000, by omega⟩
  intro a
  match a with
  | ⟨0, _⟩ =>
    show win0_11.index ⟨(i 0).val / 10000, _⟩ (0 : Fin 2) * 10000 ≤ (i 0).val
      ∧ (i 0).val < win0_11.index ⟨(i 0).val / 10000, _⟩ (0 : Fin 2) * 10000 + 10000
    rw [e0]; dsimp only; omega
  | ⟨1, _⟩ =>
    show win0_11.index ⟨(i 0).val / 10000, _⟩ (1 : Fin 2) * 3 ≤ (i 1).val
      ∧ (i 1).val < win0_11.index ⟨(i 0).val / 10000, _⟩ (1 : Fin 2) * 3 + 3
    rw [e1]; omega

theorem final11 (c : Dev nD) : (dats m 0 c).arrAt 11 cfg0.N = G11 m c :=
  (dats m 0 c).arrAt_eq_of_cover 11 (G11 m c) (fun t _ => flushed11_eq m c t) cover11

/-! ### The squared-error column -/

/-- The squared-error block of tile `t` at `(r, 0)`. -/
theorem blk12_at (c : Dev nD) (t : Fin cfg0.N) (r : Fin 10000) :
    (outsAt0 m c t.val t.isLt).2.2.1 (ix2 r 0) = err (Pm m c) (posOf m c (tileRow (pt t) r)) := by
  have key : k0_pay2 (F := Ideal) (posBlk m c t) (k0_pay7 (posBlk m c t) (wf1Blk m c t) (bf1Blk m c t) (wf2Blk m c t)
        (bf2Blk m c t) (wg1Blk m c t) (bg1Blk m c t) (wg2Blk m c t)) (k0_pay8 (bg2Blk m c t)) (ix2 r 0)
      = err (Pm m c) (posOf m c (tileRow (pt t) r)) := by
    rw [TileValue.err_at (posBlk m c t) (wf1Blk m c t) (bf1Blk m c t) (wf2Blk m c t) (bf2Blk m c t) (wg1Blk m c t)
      (bg1Blk m c t) (wg2Blk m c t) (bg2Blk m c t) r, params_blk m c t, row_blk m c t r]
  by_cases h : t.val % 50 = 0
  · rw [outsAt0_A m c t h]
    dsimp only
    exact (congrFun (BlockValue.out_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h) (posBlk m c t) (idBlk m c t) (wf1Blk m c t) (bf1Blk m c t) (wf2Blk m c t) (bf2Blk m c t) (wg1Blk m c t) (bg1Blk m c t) (wg2Blk m c t) (bg2Blk m c t)) (ix2 r 0)).trans key
  · rw [outsAt0_B m c t h]
    dsimp only
    exact (congrFun (BlockValue.out_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h' => h ((hcond0_0 t).mp h')) (posBlk m c t) (idBlk m c t) (wf1Blk m c t) (bf1Blk m c t) (wf2Blk m c t) (bf2Blk m c t) (wg1Blk m c t) (bg1Blk m c t) (wg2Blk m c t) (bg2Blk m c t) (outsAt0 m c (t.val - 1) (Nat.lt_of_le_of_lt (Nat.sub_le _ _) t.isLt)).2.2.2) (ix2 r 0)).trans key

/-- Tile `t`'s squared-error block starts at row `10000 t`, column 0. -/
private theorem idx12 : ∀ t : Fin cfg0.N, win0_12.index t (0 : Fin 2) = t.val ∧ win0_12.index t (1 : Fin 2) = 0 :=
  (by decide +kernel : ∀ t : Fin grid0.N, _)

/-- The squared-error block of tile `t` at any index of the block: its one column is column 0. -/
private theorem read12 (c : Dev nD) (t : Fin cfg0.N) (y : S10000x1.Idx) :
    (outsAt0 m c t.val t.isLt).2.2.1 y = err (Pm m c) (posOf m c (tileRow (pt t) (y 0))) := by
  have h1 : y 1 = (0 : Fin 1) := Fin.ext (by
    show (y 1).val = 0
    have : (y 1).val < 1 := (y 1).isLt
    omega)
  have hy : y = ix2 (y 0) (0 : Fin 1) := (eq_ix2 y).trans (congrArg (ix2 (y 0)) h1)
  exact (congrArg (outsAt0 m c t.val t.isLt).2.2.1 hy).trans (blk12_at m c t (y 0))

/-- What tile `t` writes back is block `t` of the squared-error column. -/
theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  funext y
  show (outsAt0 m c t.val t.isLt).2.2.1 ((cfg0.win 12).xinj (grid0.coords t) y) = G12 m c (((cfg0.win 12).blk t).view.emb y)
  refine (read12 m c t _).trans ?_
  obtain ⟨e0, e1⟩ := idx12 t
  have hr : tileRow (pt t) ((cfg0.win 12).xinj (grid0.coords t) y 0)
      = ⟨(((cfg0.win 12).blk t).view.emb y 0).val, (((cfg0.win 12).blk t).view.emb y 0).isLt⟩ :=
    Fin.ext (by
      show 10000 * t.val + (y 0).val = win0_12.index t (0 : Fin 2) * 10000 + 1 * (y 0).val
      omega)
  rw [hr]
  rfl

/-- An index of the squared-error column is in tile `t`'s block iff each coordinate is in the block's range. -/
private theorem mem_blk12 (t : Fin cfg0.N) (i : S1000000x1.Idx) :
    i ∈ ((cfg0.win 12).blk t).view.set ↔ ∀ a : Fin 2, win0_12.index t a * S10000x1.size a ≤ (i a).val
      ∧ (i a).val < win0_12.index t a * S10000x1.size a + S10000x1.size a := by
  show i ∈ ((View.whole main_v1_2).slice (win0_12.rect t)).set ↔ _
  rw [View.set_slice_whole, Rect.mem_set_unit]
  exact Iff.rfl

/-- Row `n` of the squared-error column is in the block of tile `n / 10000`, which is written back. -/
private theorem cover12 (i : S1000000x1.Idx) :
    ∃ t : Fin cfg0.N, (cfg0.win 12).flush t = true ∧ i ∈ ((cfg0.win 12).blk t).view.set := by
  have hi0 : (i 0).val < 1000000 := (i 0).isLt
  have hi1 : (i 1).val < 1 := (i 1).isLt
  have hN : cfg0.N = 100 := N_0
  refine ⟨⟨(i 0).val / 10000, by omega⟩, flush0_12 _, ?_⟩
  rw [mem_blk12]
  obtain ⟨e0, e1⟩ := idx12 ⟨(i 0).val / 10000, by omega⟩
  intro a
  match a with
  | ⟨0, _⟩ =>
    show win0_12.index ⟨(i 0).val / 10000, _⟩ (0 : Fin 2) * 10000 ≤ (i 0).val
      ∧ (i 0).val < win0_12.index ⟨(i 0).val / 10000, _⟩ (0 : Fin 2) * 10000 + 10000
    rw [e0]; dsimp only; omega
  | ⟨1, _⟩ =>
    show win0_12.index ⟨(i 0).val / 10000, _⟩ (1 : Fin 2) * 1 ≤ (i 1).val
      ∧ (i 1).val < win0_12.index ⟨(i 0).val / 10000, _⟩ (1 : Fin 2) * 1 + 1
    rw [e1]; omega

theorem final12 (c : Dev nD) : (dats m 0 c).arrAt 12 cfg0.N = G12 m c :=
  (dats m 0 c).arrAt_eq_of_cover 12 (G12 m c) (fun t _ => flushed12_eq m c t) cover12

end Cert.KernelIdeal.ArrayValue

end
-- ==== Proof.AccValue.lean ====
/-
  What the per-core accumulator array holds after the kernel's run, over the extended reals.

  Core `k`'s block of the [2, 64, 18] array is carried in its staging buffer across the core's 50 tiles and written
  back after the last. The first tile stores zero and adds its one-hot product, each later tile adds its own to what
  the buffer held, so after tile `u` of core `k` the buffer holds the sum of the products of tiles `0 … u` of that
  core (zero is neutral and the sum is built left to right), and what is written back is the sum over all 50:
  `coreSum k`. A tile's product is `tileSum` of the tile: its one-hot weights are the ids of its rows against the
  segment number, its right operand the rows' [affordances | squared error | 1].
-/
import proofs.«415734_j84988812853402_4_alg».proof.Proof.Patched.KernelIdeal.Frame
import proofs.«415734_j84988812853402_4_alg».proof.Proof.BlockValue
import proofs.«415734_j84988812853402_4_alg».proof.Proof.BlockRead
import proofs.«415734_j84988812853402_4_alg».proof.Proof.TileValue
import proofs.«415734_j84988812853402_4_alg».proof.Proof.TileAcc
import proofs.«415734_j84988812853402_4_alg».proof.Proof.KernelArgs
import proofs.«415734_j84988812853402_4_alg».proof.Proof.SegSpec
import Idealize.ShloMosaic.Lib.Pipeline.Value
import Idealize.ShloMosaic.Lib.ValueIdx

noncomputable section

namespace Cert.KernelIdeal.AccValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.KernelIdeal.KernelArgs Cert.RowSpec Cert.SegSpec

variable (m : (ℓ : Loc nD τ sig) → Buf (Elt Ideal) ℓ)

/-- The accumulator array: core `k`'s block is the sum of its 50 tiles' one-hot products. -/
def G13 (c : Dev nD) : S2x64x18.Idx → EReal :=
  fun i => coreSum (Pm m c) (posOf m c) (idsOf m c) ⟨(i 0).val, (i 0).isLt⟩ ⟨(i 1).val, (i 1).isLt⟩ ⟨(i 2).val, (i 2).isLt⟩

/-! ## One tile's product, in the specification's words -/

/-- The parameter blocks handed to any tile are the parameter arrays, so they hold the networks' parameters. -/
private theorem params_blk (c : Dev nD) (t : Fin cfg0.N) :
    paramsOf (BlockRead.wf1Blk m c t) (BlockRead.bf1Blk m c t) (BlockRead.wf2Blk m c t) (BlockRead.bf2Blk m c t) (BlockRead.wg1Blk m c t) (BlockRead.bg1Blk m c t) (BlockRead.wg2Blk m c t) (BlockRead.bg2Blk m c t) = Pm m c := by
  unfold Pm
  rw [BlockRead.wf1Blk_eq, BlockRead.bf1Blk_eq, BlockRead.wf2Blk_eq, BlockRead.bf2Blk_eq, BlockRead.wg1Blk_eq,
    BlockRead.bg1Blk_eq, BlockRead.wg2Blk_eq, BlockRead.bg2Blk_eq]

/-- Row `r` of tile `t`'s position block is row `10000 t + r` of `pos`. -/
private theorem row_blk (c : Dev nD) (t : Fin cfg0.N) (r : Fin 10000) :
    rowAt (BlockRead.posBlk m c t) r = posOf m c (tileRow (BlockRead.pt t) r) := by
  funext d
  exact BlockRead.posBlk_at m c t r d

/-- Row `r` of the tile's right operand [affordances | squared error | 1] is `col` of row `10000 t + r`: the
    affordances and the squared error are the row functions of that row of `pos` at the parameter arrays. -/
private theorem col_blk (c : Dev nD) (t : Fin cfg0.N) (r : Fin 10000) (j : Fin 18) :
    TileAcc.catCol (k0_pay6 (F := Ideal) (BlockRead.posBlk m c t) (BlockRead.wf1Blk m c t) (BlockRead.bf1Blk m c t) (BlockRead.wf2Blk m c t) (BlockRead.bf2Blk m c t)) (k0_pay2 (F := Ideal) (BlockRead.posBlk m c t) (k0_pay7 (F := Ideal) (BlockRead.posBlk m c t) (BlockRead.wf1Blk m c t) (BlockRead.bf1Blk m c t) (BlockRead.wf2Blk m c t) (BlockRead.bf2Blk m c t) (BlockRead.wg1Blk m c t) (BlockRead.bg1Blk m c t) (BlockRead.wg2Blk m c t)) (k0_pay8 (F := Ideal) (BlockRead.bg2Blk m c t))) r j = col (Pm m c) (posOf m c) (tileRow (BlockRead.pt t) r) j := by
  unfold TileAcc.catCol col
  by_cases h : j.val < 16
  · rw [dif_pos h, dif_pos h]
    refine (TileValue.aff_at (BlockRead.posBlk m c t) (BlockRead.wf1Blk m c t) (BlockRead.bf1Blk m c t) (BlockRead.wf2Blk m c t) (BlockRead.bf2Blk m c t) (BlockRead.wg1Blk m c t) (BlockRead.bg1Blk m c t) (BlockRead.wg2Blk m c t) (BlockRead.bg2Blk m c t) r ⟨j.val, h⟩).trans ?_
    rw [params_blk, row_blk]
  · rw [dif_neg h, dif_neg h]
    by_cases h16 : j.val = 16
    · rw [if_pos h16, if_pos h16]
      refine (TileValue.err_at (BlockRead.posBlk m c t) (BlockRead.wf1Blk m c t) (BlockRead.bf1Blk m c t) (BlockRead.wf2Blk m c t) (BlockRead.bf2Blk m c t) (BlockRead.wg1Blk m c t) (BlockRead.bg1Blk m c t) (BlockRead.wg2Blk m c t) (BlockRead.bg2Blk m c t) r).trans ?_
      rw [params_blk, row_blk]
    · rw [if_neg h16, if_neg h16]

/-- The one-hot weight the body forms from the tile's ids is `hot` of row `10000 t + r`. -/
private theorem hot_blk (c : Dev nD) (t : Fin cfg0.N) (r : Fin 10000) (b : Fin 64) :
    (if (k0_pay5 (F := Ideal) (BlockRead.idBlk m c t)) (ix2 r 0) = BitVec.ofNat 32 b.val then (1 : EReal) else 0)
      = hot (idsOf m c) (tileRow (BlockRead.pt t) r) b := by
  rw [TileAcc.ids_at, BlockRead.idBlk_at]
  rfl

/-- So the product the body adds at tile `t` is `tileSum` of the tile. -/
private theorem tile_sum (c : Dev nD) (t : Fin cfg0.N) (b : Fin 64) (j : Fin 18) :
    (∑ r : Fin 10000, (if (k0_pay5 (F := Ideal) (BlockRead.idBlk m c t)) (ix2 r 0) = BitVec.ofNat 32 b.val then (1 : EReal) else 0)
        * TileAcc.catCol (k0_pay6 (F := Ideal) (BlockRead.posBlk m c t) (BlockRead.wf1Blk m c t) (BlockRead.bf1Blk m c t) (BlockRead.wf2Blk m c t) (BlockRead.bf2Blk m c t)) (k0_pay2 (F := Ideal) (BlockRead.posBlk m c t) (k0_pay7 (F := Ideal) (BlockRead.posBlk m c t) (BlockRead.wf1Blk m c t) (BlockRead.bf1Blk m c t) (BlockRead.wf2Blk m c t) (BlockRead.bf2Blk m c t) (BlockRead.wg1Blk m c t) (BlockRead.bg1Blk m c t) (BlockRead.wg2Blk m c t)) (k0_pay8 (F := Ideal) (BlockRead.bg2Blk m c t))) r j)
      = tileSum (Pm m c) (posOf m c) (idsOf m c) (BlockRead.pt t) b j := by
  unfold tileSum
  refine Finset.sum_congr rfl fun r _ => ?_
  rw [hot_blk, col_blk]

/-! ## What the accumulator's buffer holds after each tile -/

/-- At a core's first tile the buffer is left at the tile's product: the body adds it to the zero block. -/
private theorem step_A (c : Dev nD) (t : Fin cfg0.N) (h0 : t.val % 50 = 0) (b : Fin 64) (j : Fin 18) :
    (outsAt0 m c t.val t.isLt).2.2.2 (ix3 0 b j) = tileSum (Pm m c) (posOf m c) (idsOf m c) (BlockRead.pt t) b j := by
  rw [outsAt0_A m c t h0]
  dsimp only
  refine (congrFun (BlockValue.out_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (BlockRead.posBlk m c t) (BlockRead.idBlk m c t) (BlockRead.wf1Blk m c t) (BlockRead.bf1Blk m c t) (BlockRead.wf2Blk m c t) (BlockRead.bf2Blk m c t) (BlockRead.wg1Blk m c t) (BlockRead.bg1Blk m c t) (BlockRead.wg2Blk m c t) (BlockRead.bg2Blk m c t)) (ix3 0 b j)).trans ?_
  refine (TileAcc.acc_at (BlockRead.posBlk m c t) (k0_pay5 (F := Ideal) (BlockRead.idBlk m c t)) (k0_pay6 (F := Ideal) (BlockRead.posBlk m c t) (BlockRead.wf1Blk m c t) (BlockRead.bf1Blk m c t) (BlockRead.wf2Blk m c t) (BlockRead.bf2Blk m c t)) (k0_pay7 (F := Ideal) (BlockRead.posBlk m c t) (BlockRead.wf1Blk m c t) (BlockRead.bf1Blk m c t) (BlockRead.wf2Blk m c t) (BlockRead.bf2Blk m c t) (BlockRead.wg1Blk m c t) (BlockRead.bg1Blk m c t) (BlockRead.wg2Blk m c t)) (k0_pay8 (F := Ideal) (BlockRead.bg2Blk m c t)) (k0_pay4 (F := Ideal)) b j).trans ?_
  rw [TileAcc.zero_at, zero_add]
  exact tile_sum m c t b j

/-- At a later tile the buffer is left at what the tile before left plus the tile's product. -/
private theorem step_B (c : Dev nD) (t : Fin cfg0.N) (h0 : ¬t.val % 50 = 0) (b : Fin 64) (j : Fin 18) :
    (outsAt0 m c t.val t.isLt).2.2.2 (ix3 0 b j)
      = (outsAt0 m c (t.val - 1) (Nat.lt_of_le_of_lt (Nat.sub_le _ _) t.isLt)).2.2.2 (ix3 0 b j) + tileSum (Pm m c) (posOf m c) (idsOf m c) (BlockRead.pt t) b j := by
  rw [outsAt0_B m c t h0]
  dsimp only
  refine (congrFun (BlockValue.out_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (BlockRead.posBlk m c t) (BlockRead.idBlk m c t) (BlockRead.wf1Blk m c t) (BlockRead.bf1Blk m c t) (BlockRead.wf2Blk m c t) (BlockRead.bf2Blk m c t) (BlockRead.wg1Blk m c t) (BlockRead.bg1Blk m c t) (BlockRead.wg2Blk m c t) (BlockRead.bg2Blk m c t) (outsAt0 m c (t.val - 1) (Nat.lt_of_le_of_lt (Nat.sub_le _ _) t.isLt)).2.2.2) (ix3 0 b j)).trans ?_
  refine (TileAcc.acc_at (BlockRead.posBlk m c t) (k0_pay5 (F := Ideal) (BlockRead.idBlk m c t)) (k0_pay6 (F := Ideal) (BlockRead.posBlk m c t) (BlockRead.wf1Blk m c t) (BlockRead.bf1Blk m c t) (BlockRead.wf2Blk m c t) (BlockRead.bf2Blk m c t)) (k0_pay7 (F := Ideal) (BlockRead.posBlk m c t) (BlockRead.wf1Blk m c t) (BlockRead.bf1Blk m c t) (BlockRead.wf2Blk m c t) (BlockRead.bf2Blk m c t) (BlockRead.wg1Blk m c t) (BlockRead.bg1Blk m c t) (BlockRead.wg2Blk m c t)) (k0_pay8 (F := Ideal) (BlockRead.bg2Blk m c t)) (outsAt0 m c (t.val - 1) (Nat.lt_of_le_of_lt (Nat.sub_le _ _) t.isLt)).2.2.2 b j).trans ?_
  rw [tile_sum m c t b j]

/-- Tile `p`'s product with the bound `p < 100` inside (zero past the last tile), so that sums over ranges of
    naturals can be taken. -/
private def tsum (c : Dev nD) (p : ℕ) (b : Fin 64) (j : Fin 18) : EReal :=
  if h : p < 100 then tileSum (Pm m c) (posOf m c) (idsOf m c) ⟨p, h⟩ b j else 0

private theorem tsum_pt (c : Dev nD) (t : Fin cfg0.N) (b : Fin 64) (j : Fin 18) :
    tsum m c t.val b j = tileSum (Pm m c) (posOf m c) (idsOf m c) (BlockRead.pt t) b j := by
  unfold tsum
  rw [dif_pos (Nat.lt_of_lt_of_eq t.isLt N_0)]

/-- THE INVARIANT. After tile `n`, which is tile `n % 50` of its core, the buffer holds the sum of the products of the
    core's tiles `n - n % 50, …, n`: the first of them started from zero and each later one added its own. -/
private theorem acc_inv (c : Dev nD) : ∀ (n : ℕ) (h : n < cfg0.N) (b : Fin 64) (j : Fin 18),
    (outsAt0 m c n h).2.2.2 (ix3 0 b j) = ∑ u ∈ Finset.range (n % 50 + 1), tsum m c (n - n % 50 + u) b j := by
  intro n
  induction n using Nat.strong_induction_on with
  | _ n ih =>
    intro h b j
    by_cases h0 : n % 50 = 0
    · refine (step_A m c ⟨n, h⟩ h0 b j).trans ((tsum_pt m c ⟨n, h⟩ b j).symm.trans ?_)
      show tsum m c n b j = _
      rw [h0]
      simp only [zero_add, Nat.sub_zero, add_zero, Finset.sum_range_one]
    · have hlt : n - 1 < cfg0.N := Nat.lt_of_le_of_lt (Nat.sub_le _ _) h
      have e1 : (n - 1) % 50 + 1 = n % 50 := by omega
      have e2 : n - 1 - (n - 1) % 50 = n - n % 50 := by omega
      have e3 : n - n % 50 + n % 50 = n := by omega
      refine (step_B m c ⟨n, h⟩ h0 b j).trans ?_
      rw [← tsum_pt m c ⟨n, h⟩ b j]
      show (outsAt0 m c (n - 1) hlt).2.2.2 (ix3 0 b j) + tsum m c n b j = _
      rw [ih (n - 1) (by omega) hlt b j, e1, e2, Finset.sum_range_succ, e3]

/-! ## What is written back, and the array -/

/-- The accumulator's block index at tile `t` is `(t / 50, 0, 0)`: the core's number. -/
private theorem idx13 : ∀ t : Fin cfg0.N, win0_13.index t (0 : Fin 3) = t.val / 50 ∧ win0_13.index t (1 : Fin 3) = 0
    ∧ win0_13.index t (2 : Fin 3) = 0 :=
  (by decide +kernel : ∀ t : Fin grid0.N, _)

/-- After a core's last tile the buffer holds the sum of all 50 of the core's products. -/
private theorem flush_val (c : Dev nD) (t : Fin cfg0.N) (h49 : t.val % 50 = 49) (b : Fin 64) (j : Fin 18) :
    (outsAt0 m c t.val t.isLt).2.2.2 (ix3 0 b j)
      = coreSum (Pm m c) (posOf m c) (idsOf m c) ⟨t.val / 50, by have := Nat.lt_of_lt_of_eq t.isLt N_0; omega⟩ b j := by
  have hN : t.val < 100 := Nat.lt_of_lt_of_eq t.isLt N_0
  refine (acc_inv m c t.val t.isLt b j).trans ?_
  rw [h49]
  show ∑ u ∈ Finset.range 50, tsum m c (t.val - 49 + u) b j = _
  unfold coreSum
  rw [Finset.sum_range]
  refine Finset.sum_congr rfl fun u _ => ?_
  have hu : u.val < 50 := u.isLt
  have hlt : t.val - 49 + u.val < 100 := by omega
  unfold tsum
  rw [dif_pos hlt]
  refine congrArg (fun p => tileSum (Pm m c) (posOf m c) (idsOf m c) p b j) (Fin.ext ?_)
  show t.val - 49 + u.val = 50 * (t.val / 50) + u.val
  omega

private theorem coreSum_congr (P : Params) (pos : Fin 1000000 → Fin 3 → EReal) (ids : Fin 1000000 → BitVec 32)
    {k k' : Fin 2} {b b' : Fin 64} {j j' : Fin 18} (hk : k.val = k'.val) (hb : b.val = b'.val) (hj : j.val = j'.val) :
    coreSum P pos ids k b j = coreSum P pos ids k' b' j' := by
  cases Fin.ext hk; cases Fin.ext hb; cases Fin.ext hj; rfl

/-- What a core's last tile leaves at an index of its block is `G13` at that index of the array: entry `(0, b, j)` of
    block `(t / 50, 0, 0)` is entry `(t / 50, b, j)`. -/
private theorem flush_at (c : Dev nD) (t : Fin cfg0.N) (h49 : t.val % 50 = 49) (y : S1x64x18.Idx) :
    (outsAt0 m c t.val t.isLt).2.2.2 y = G13 m c (((cfg0.win 13).blk t).view.emb y) := by
  obtain ⟨a, b, j, rfl⟩ : ∃ (a : Fin 1) (b : Fin 64) (j : Fin 18), y = ix3 a b j := ⟨y 0, y 1, y 2, eq_ix3 y⟩
  obtain rfl : a = 0 := Subsingleton.elim _ _
  obtain ⟨i0, i1, i2⟩ := idx13 t
  refine (flush_val m c t h49 b j).trans ?_
  unfold G13
  refine coreSum_congr _ _ _ ?_ ?_ ?_
  · show t.val / 50 = win0_13.index t 0 * 1 + 1 * 0
    rw [i0]; omega
  · show b.val = win0_13.index t 1 * 64 + 1 * b.val
    rw [i1]; omega
  · show j.val = win0_13.index t 2 * 18 + 1 * j.val
    rw [i2]; omega

/-- WHAT A WRITE-BACK WRITES: at a core's last tile, the only tiles that write the accumulator back, the core's block of `G13`. -/
private theorem flushed13_eq (c : Dev nD) (t : Fin cfg0.N) (hf : (cfg0.win 13).flush t = true) :
    (dats m 0 c).flushed 13 t = ((cfg0.win 13).blk t).view.read (Elt Ideal) (G13 m c) := by
  have h49 : t.val % 50 = 49 := (flush0_13 t).mp hf
  show (cfg0.win 13).cut (grid0.coords t) ((dats m 0 c).after 13 t) = _
  rw [after0_13]
  funext y
  rw [View.read_apply]
  exact flush_at m c t h49 y

/-- An index of the array is in tile `t`'s block iff each coordinate is in the block's range on its axis. -/
private theorem mem_blk13 (t : Fin cfg0.N) (i : S2x64x18.Idx) :
    i ∈ ((cfg0.win 13).blk t).view.set ↔ ∀ a : Fin 3, win0_13.index t a * S1x64x18.size a ≤ (i a).val
      ∧ (i a).val < win0_13.index t a * S1x64x18.size a + S1x64x18.size a := by
  show i ∈ ((View.whole main_v1_3).slice (win0_13.rect t)).set ↔ _
  rw [View.set_slice_whole, Rect.mem_set_unit]
  exact Iff.rfl

/-- Entry `(k, b, j)` of the array is in the block core `k`'s last tile, tile `50 k + 49`, writes back. -/
private theorem cover13 (i : S2x64x18.Idx) :
    ∃ t : Fin cfg0.N, (cfg0.win 13).flush t = true ∧ i ∈ ((cfg0.win 13).blk t).view.set := by
  have h0 : (i 0).val < 2 := (i 0).isLt
  have h1 : (i 1).val < 64 := (i 1).isLt
  have h2 : (i 2).val < 18 := (i 2).isLt
  have hlt : 50 * (i 0).val + 49 < cfg0.N := by rw [show cfg0.N = 100 from N_0]; omega
  obtain ⟨t, ht⟩ : ∃ t : Fin cfg0.N, t.val = 50 * (i 0).val + 49 := ⟨⟨50 * (i 0).val + 49, hlt⟩, rfl⟩
  obtain ⟨e0, e1, e2⟩ := idx13 t
  refine ⟨t, (flush0_13 t).mpr (by omega), ?_⟩
  rw [mem_blk13]
  intro a
  match a with
  | ⟨0, _⟩ =>
    show win0_13.index t 0 * 1 ≤ (i 0).val ∧ (i 0).val < win0_13.index t 0 * 1 + 1
    rw [e0]; omega
  | ⟨1, _⟩ =>
    show win0_13.index t 1 * 64 ≤ (i 1).val ∧ (i 1).val < win0_13.index t 1 * 64 + 64
    rw [e1]; omega
  | ⟨2, _⟩ =>
    show win0_13.index t 2 * 18 ≤ (i 2).val ∧ (i 2).val < win0_13.index t 2 * 18 + 18
    rw [e2]; omega

theorem final13 (c : Dev nD) : (dats m 0 c).arrAt 13 cfg0.N = G13 m c := by
  exact (dats m 0 c).arrAt_eq_of_cover 13 (G13 m c) (fun t hf => flushed13_eq m c t hf) (fun i => cover13 i)

end Cert.KernelIdeal.AccValue

end
-- ==== Proof.ScatterAt.lean ====
/-
  The reference's accumulating scatters, read at an index over the extended reals.

  `segment_sum` lowers to a scatter whose indices are the [1000000, 1] column of ids: update row `n` lands on operand row
  `id n`, read as a signed integer and not clamped, and an update whose row lies outside `0 ≤ · < 64` is dropped. For a
  segment `b < 64` the signed value of a 32-bit id is `b` exactly when the id is the word `b`, so at row `b` the result is
  the operand's entry plus the sum of the updates over the rows whose id is the word `b` — for the rank-1 scatter (the
  per-row errors, the counts) and, column by column, for the rank-2 one (the affordances: the window is one whole row
  of 16, the column is kept).
-/
import proofs.«415734_j84988812853402_4_alg».proof.ReferenceIdeal
import proofs.«415734_j84988812853402_4_alg».proof.Proof.Gen.ReferenceIdeal
import Idealize.ShloMosaic.PureOps.Ideal.Laws
import Idealize.ShloMosaic.Lib.ValueIdx

noncomputable section

namespace Cert.ReferenceIdeal.ScatterAt

open Idealize.ShloMosaic Idealize.ShloMosaic.ValueIdx
open Cert.ReferenceIdeal

/-- An update lands on operand index `i` exactly when, on every axis, the signed start plus the window coordinate is
    `i`'s coordinate: in range it is the landing index itself, and `i`'s coordinates are in range. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro e a
      have := congrFun e a
      have h1 := (h a).1
      rw [← this]
      simp only [Int.toNat_of_nonneg h1]
    · intro e
      funext a
      apply Fin.ext
      have := e a
      simp only
      omega
  · next h =>
    constructor
    · intro e; exact absurd e (by simp)
    · intro e
      exfalso
      apply h
      intro a
      have := e a
      have := (i a).isLt
      omega

/-- For a small natural `b`, a 32-bit word has signed value `b` exactly when it is the word `b`. -/
private theorem toInt_eq_iff (w : BitVec 32) (b : Nat) (hb : b < 64) :
    w.toInt = (b : Int) ↔ w = BitVec.ofNat 32 b := by
  have hw := w.isLt
  rw [← BitVec.toNat_inj, BitVec.toNat_ofNat, BitVec.toInt]
  have : b % 2 ^ 32 = b := Nat.mod_eq_of_lt (by omega)
  rw [this]
  split <;> omega

/-- A rank-1 index built from one coordinate has that coordinate on its only axis. -/
private theorem ix1_val {N : Nat} (n : Fin N) (a : Fin 1) : ((ix1 n) a).val = n.val := by
  match a with | ⟨0, _⟩ => rfl

/-- Rank-1 scatter: update row `n` reads its start off the ids at `(n, 0)`. -/
private theorem start1 (n : Fin 1000000) (idx : IVec S1000000x1 32) (a : Fin 1) :
    scatter_S64_S1000000x1_S1000000_n_0_0_1.start (ix1 n) idx a = (idx (ix2 n 0)).toInt := by
  match a with
  | ⟨0, _⟩ =>
    unfold ScatterDims.start
    rw [dif_pos (show (⟨0, _⟩ : Fin S64.rank) ∈ scatter_S64_S1000000x1_S1000000_n_0_0_1.scatterDimsToOperandDims from List.mem_singleton.2 rfl)]
    congr 2
    funext c
    match c with
    | ⟨0, _⟩ => rfl
    | ⟨1, _⟩ => rfl

/-- Rank-1 scatter: there is no window axis, the window coordinate is `0`. -/
private theorem window1 (n : Fin 1000000) (a : Fin 1) :
    scatter_S64_S1000000x1_S1000000_n_0_0_1.window (ix1 n) a = 0 := by
  match a with
  | ⟨0, _⟩ => rfl

/-- Rank-1 scatter: update row `n` lands on operand row `b` exactly when its id is the word `b`. -/
private theorem lands1 (n : Fin 1000000) (idx : IVec S1000000x1 32) (b : Fin 64) :
    scatter_S64_S1000000x1_S1000000_n_0_0_1.resultIdx? (ix1 n) idx = some (ix1 b)
      ↔ idx (ix2 n 0) = BitVec.ofNat 32 b.val := by
  rw [resultIdx?_eq_some_iff, ← toInt_eq_iff _ _ b.isLt]
  constructor
  · intro h
    have h0 := h ⟨0, Nat.one_pos⟩
    rw [start1, window1, ix1_val] at h0
    simpa using h0
  · intro h a
    rw [start1, window1, ix1_val, h]
    simp

/-- The rank-1 scatter at row `b`: the operand's entry plus the updates of the rows whose id is the word `b`. -/
theorem scatter1_at (x : FVec Ideal S64 .f32) (idx : IVec S1000000x1 32) (upd : FVec Ideal S1000000 .f32) (b : Fin 64) :
    Host.scatterAdd (F := Ideal) scatter_S64_S1000000x1_S1000000_n_0_0_1 x idx upd (ix1 b)
      = x (ix1 b) + ∑ n ∈ Finset.univ.filter (fun n : Fin 1000000 => idx (ix2 n 0) = BitVec.ofNat 32 b.val), upd (ix1 n) := by
  unfold Host.scatterAdd
  rw [Ideal.hostScatterAdd_def]
  unfold Ideal.hostScatterAdd
  refine congrArg (x (ix1 b) + ·) ?_
  -- the update indices that land on row `b` are the `ix1 n` with `n` a row whose id is the word `b`
  refine Finset.sum_nbij' (fun j => j 0) (fun n => ix1 n) ?_ ?_ ?_ ?_ ?_
  · intro j hj
    obtain ⟨n, rfl⟩ : ∃ n : Fin 1000000, j = ix1 n := ⟨j 0, eq_ix1 j⟩
    exact Finset.mem_filter.2 ⟨Finset.mem_univ _, (lands1 n idx b).1 (Finset.mem_filter.1 hj).2⟩
  · intro n hn
    exact Finset.mem_filter.2 ⟨Finset.mem_univ _, (lands1 n idx b).2 (Finset.mem_filter.1 hn).2⟩
  · intro j _
    exact (eq_ix1 j).symm
  · intro n _
    rfl
  · intro j _
    exact congrArg upd (eq_ix1 j)

/-- Rank-2 scatter: on the row axis, update `(n, j')` reads its start off the ids at `(n, 0)`. -/
private theorem start2_row (n : Fin 1000000) (j' : Fin 16) (idx : IVec S1000000x1 32) (h : 0 < 2) :
    scatter_S64x16_S1000000x1_S1000000x16_1_0_0_1.start (ix2 n j') idx ⟨0, h⟩ = (idx (ix2 n 0)).toInt := by
  unfold ScatterDims.start
  rw [dif_pos (show (⟨0, h⟩ : Fin S64x16.rank) ∈ scatter_S64x16_S1000000x1_S1000000x16_1_0_0_1.scatterDimsToOperandDims from
    List.mem_singleton.2 rfl)]
  congr 2
  funext c
  match c with
  | ⟨0, _⟩ => rfl
  | ⟨1, _⟩ => rfl

/-- Rank-2 scatter: the column axis is not a scatter axis, its start is `0`. -/
private theorem start2_col (n : Fin 1000000) (j' : Fin 16) (idx : IVec S1000000x1 32) (h : 1 < 2) :
    scatter_S64x16_S1000000x1_S1000000x16_1_0_0_1.start (ix2 n j') idx ⟨1, h⟩ = 0 := rfl

/-- Rank-2 scatter: the row axis is inserted, its window coordinate is `0`. -/
private theorem window2_row (n : Fin 1000000) (j' : Fin 16) (h : 0 < 2) :
    scatter_S64x16_S1000000x1_S1000000x16_1_0_0_1.window (ix2 n j') ⟨0, h⟩ = 0 := rfl

/-- Rank-2 scatter: the column axis carries the update's own column. -/
private theorem window2_col (n : Fin 1000000) (j' : Fin 16) (h : 1 < 2) :
    scatter_S64x16_S1000000x1_S1000000x16_1_0_0_1.window (ix2 n j') ⟨1, h⟩ = j'.val := rfl

/-- Rank-2 scatter: update `(n, j')` lands on `(b, j)` exactly when row `n`'s id is the word `b` and the columns agree. -/
private theorem lands2 (n : Fin 1000000) (j' : Fin 16) (idx : IVec S1000000x1 32) (b : Fin 64) (j : Fin 16) :
    scatter_S64x16_S1000000x1_S1000000x16_1_0_0_1.resultIdx? (ix2 n j') idx = some (ix2 b j)
      ↔ idx (ix2 n 0) = BitVec.ofNat 32 b.val ∧ j' = j := by
  rw [resultIdx?_eq_some_iff, ← toInt_eq_iff _ _ b.isLt]
  constructor
  · intro h
    have h0 : (idx (ix2 n 0)).toInt + ((0 : Nat) : Int) = (b.val : Int) := by
      have := h ⟨0, by decide⟩
      rwa [start2_row, window2_row] at this
    have h1 : (0 : Int) + ((j'.val : Nat) : Int) = (j.val : Int) := by
      have := h ⟨1, by decide⟩
      rwa [start2_col, window2_col] at this
    exact ⟨by omega, Fin.ext (by omega)⟩
  · intro h a
    obtain ⟨hb, rfl⟩ := h
    match a with
    | ⟨0, _⟩ =>
      rw [start2_row, window2_row, hb]
      show (b.val : Int) + ((0 : Nat) : Int) = (b.val : Int)
      omega
    | ⟨1, _⟩ =>
      rw [start2_col, window2_col]
      show (0 : Int) + ((j'.val : Nat) : Int) = (j'.val : Int)
      omega

/-- The rank-2 scatter at `(b, j)`: the operand's entry plus column `j` of the updates of the rows whose id is the word `b`. -/
theorem scatter2_at (x : FVec Ideal S64x16 .f32) (idx : IVec S1000000x1 32) (upd : FVec Ideal S1000000x16 .f32)
    (b : Fin 64) (j : Fin 16) :
    Host.scatterAdd (F := Ideal) scatter_S64x16_S1000000x1_S1000000x16_1_0_0_1 x idx upd (ix2 b j)
      = x (ix2 b j) + ∑ n ∈ Finset.univ.filter (fun n : Fin 1000000 => idx (ix2 n 0) = BitVec.ofNat 32 b.val), upd (ix2 n j) := by
  unfold Host.scatterAdd
  rw [Ideal.hostScatterAdd_def]
  unfold Ideal.hostScatterAdd
  refine congrArg (x (ix2 b j) + ·) ?_
  -- the update indices that land on `(b, j)` are the `ix2 n j` with `n` a row whose id is the word `b`
  refine Finset.sum_nbij' (fun k => k 0) (fun n => ix2 n j) ?_ ?_ ?_ ?_ ?_
  · intro k hk
    obtain ⟨n, j', rfl⟩ : ∃ (n : Fin 1000000) (j' : Fin 16), k = ix2 n j' := ⟨k 0, k 1, eq_ix2 k⟩
    exact Finset.mem_filter.2 ⟨Finset.mem_univ _, ((lands2 n j' idx b j).1 (Finset.mem_filter.1 hk).2).1⟩
  · intro n hn
    exact Finset.mem_filter.2 ⟨Finset.mem_univ _, (lands2 n j idx b j).2 ⟨(Finset.mem_filter.1 hn).2, rfl⟩⟩
  · intro k hk
    obtain ⟨n, j', rfl⟩ : ∃ (n : Fin 1000000) (j' : Fin 16), k = ix2 n j' := ⟨k 0, k 1, eq_ix2 k⟩
    obtain ⟨_, rfl⟩ := (lands2 n j' idx b j).1 (Finset.mem_filter.1 hk).2
    rfl
  · intro n _
    rfl
  · intro k hk
    obtain ⟨n, j', rfl⟩ : ∃ (n : Fin 1000000) (j' : Fin 16), k = ix2 n j' := ⟨k 0, k 1, eq_ix2 k⟩
    obtain ⟨_, rfl⟩ := (lands2 n j' idx b j).1 (Finset.mem_filter.1 hk).2
    rfl

end Cert.ReferenceIdeal.ScatterAt

end
-- ==== Proof.RefStages.lean ====
/-
  The reference program's results, stage by stage, read at an index over the extended reals.

  Row `n` of the affordances, of the reconstruction and of the squared error are the row functions `aff`, `recon`,
  `err` of row `n` of `pos` (each `dot_general` the sum over its contracted axis, each bias broadcast along rows, `relu`
  the maximum with zero, the sum of squares a sum over the three coordinates onto a zero initial value). A segment's
  sums are accumulating scatters into zero arrays: at segment `b` the sum over the rows whose id is the word `b` —
  of the squared errors, of ones (the count), and column by column of the affordances — which is the one-hot
  weighted sum `total` at columns 16, 17 and `j < 16`. The coherence signal and the mean affordances are those sums
  divided by the count's maximum with one.
-/
import proofs.«415734_j84988812853402_4_alg».proof.Proof.Gen.ReferenceIdeal.Read
import proofs.«415734_j84988812853402_4_alg».proof.Proof.ParamsOf
import proofs.«415734_j84988812853402_4_alg».proof.Proof.SegSpec
import proofs.«415734_j84988812853402_4_alg».proof.Proof.ScatterAt
import Idealize.ShloMosaic.Lib.IdealHost

noncomputable section

namespace Cert.ReferenceIdeal.RefStages

open Idealize.ShloMosaic Idealize.ShloMosaic.ValueIdx
open Cert.ReferenceIdeal Cert.ReferenceIdeal.Read Cert.RowSpec Cert.SegSpec

variable (x0 : Vec Ideal S1000000x3 .f32) (x1 : Vec Ideal S1000000 .i32)
  (x5 : Vec Ideal S3x128 .f32) (x6 : Vec Ideal S128 .f32) (x7 : Vec Ideal S128x16 .f32) (x8 : Vec Ideal S16 .f32)
  (x9 : Vec Ideal S16x128 .f32) (x10 : Vec Ideal S128 .f32) (x11 : Vec Ideal S128x3 .f32) (x12 : Vec Ideal S3 .f32)

/-! ### Where each operation reads its operands, at a point given by its coordinates -/

/-- First contraction, left operand: row `n`, coordinate `d` of the positions. -/
private theorem lidx0 (n : Fin 1000000) (k : Fin 128) (d : Fin 3) : lidx_main_v0 (ix2 n k) d = ix2 n d :=
  funext fun a => Fin.ext (by match a with | ⟨0, _⟩ => rfl | ⟨1, _⟩ => rfl)

/-- First contraction, right operand: entry `(d, k)` of the weights. -/
private theorem ridx0 (n : Fin 1000000) (k : Fin 128) (d : Fin 3) : ridx_main_v0 (ix2 n k) d = ix2 d k :=
  funext fun a => Fin.ext (by match a with | ⟨0, _⟩ => rfl | ⟨1, _⟩ => rfl)

/-- The first bias, broadcast along rows, is read at `k`. -/
private theorem bidx1 (n : Fin 1000000) (k : Fin 128) : idx_main_v1 (idx_main_v2 (ix2 n k)) = ix1 k :=
  funext fun a => Fin.ext (by match a with | ⟨0, _⟩ => rfl)

/-- Second contraction, left operand: hidden unit `k` of row `n`. -/
private theorem lidx5 (n : Fin 1000000) (j : Fin 16) (k : Fin 128) : lidx_main_v5 (ix2 n j) k = ix2 n k :=
  funext fun a => Fin.ext (by match a with | ⟨0, _⟩ => rfl | ⟨1, _⟩ => rfl)

/-- Second contraction, right operand: entry `(k, j)` of the weights. -/
private theorem ridx5 (n : Fin 1000000) (j : Fin 16) (k : Fin 128) : ridx_main_v5 (ix2 n j) k = ix2 k j :=
  funext fun a => Fin.ext (by match a with | ⟨0, _⟩ => rfl | ⟨1, _⟩ => rfl)

/-- The second bias, broadcast along rows, is read at `j`. -/
private theorem bidx6 (n : Fin 1000000) (j : Fin 16) : idx_main_v6 (idx_main_v7 (ix2 n j)) = ix1 j :=
  funext fun a => Fin.ext (by match a with | ⟨0, _⟩ => rfl)

/-! ### The first network -/

/-- Hidden unit `k` of the first network at row `n`. -/
private theorem hidF_ref (n : Fin 1000000) (k : Fin 128) :
    val_main_v4 (F := Ideal) x0 x5 x6 (ix2 n k) = hidF (paramsOf x5 x6 x7 x8 x9 x10 x11 x12) (rowAt x0 n) k := by
  rw [val_main_v4_apply, val_main_v3_apply, val_main_v0_apply, val_main_v2_apply, val_main_v1_apply,
    val_main_call0_v0_apply, val_main_call0_cst_apply]
  simp only [Ideal.addf_def, Ideal.maximumf_def, Ideal.ofBits_def, Ideal.ofBits_zero_f32, lidx0, ridx0, bidx1]
  rfl

/-- The affordances at `(n, j)`: `aff` of row `n` of `pos`. -/
theorem aff_ref (n : Fin 1000000) (j : Fin 16) :
    val_main_v8 (F := Ideal) x0 x5 x6 x7 x8 (ix2 n j) = aff (paramsOf x5 x6 x7 x8 x9 x10 x11 x12) (rowAt x0 n) j := by
  rw [val_main_v8_apply, val_main_v5_apply, val_main_v7_apply, val_main_v6_apply]
  simp only [Ideal.addf_def, lidx5, ridx5, bidx6, hidF_ref x0 x5 x6 x7 x8 x9 x10 x11 x12]
  rfl

/-- Third contraction, left operand: affordance `j` of row `n`. -/
private theorem lidx9 (n : Fin 1000000) (k : Fin 128) (j : Fin 16) : lidx_main_v9 (ix2 n k) j = ix2 n j :=
  funext fun a => Fin.ext (by match a with | ⟨0, _⟩ => rfl | ⟨1, _⟩ => rfl)

/-- Third contraction, right operand: entry `(j, k)` of the weights. -/
private theorem ridx9 (n : Fin 1000000) (k : Fin 128) (j : Fin 16) : ridx_main_v9 (ix2 n k) j = ix2 j k :=
  funext fun a => Fin.ext (by match a with | ⟨0, _⟩ => rfl | ⟨1, _⟩ => rfl)

/-- The third bias, broadcast along rows, is read at `k`. -/
private theorem bidx10 (n : Fin 1000000) (k : Fin 128) : idx_main_v10 (idx_main_v11 (ix2 n k)) = ix1 k :=
  funext fun a => Fin.ext (by match a with | ⟨0, _⟩ => rfl)

/-- Fourth contraction, left operand: hidden unit `k` of row `n`. -/
private theorem lidx14 (n : Fin 1000000) (d : Fin 3) (k : Fin 128) : lidx_main_v14 (ix2 n d) k = ix2 n k :=
  funext fun a => Fin.ext (by match a with | ⟨0, _⟩ => rfl | ⟨1, _⟩ => rfl)

/-- Fourth contraction, right operand: entry `(k, d)` of the weights. -/
private theorem ridx14 (n : Fin 1000000) (d : Fin 3) (k : Fin 128) : ridx_main_v14 (ix2 n d) k = ix2 k d :=
  funext fun a => Fin.ext (by match a with | ⟨0, _⟩ => rfl | ⟨1, _⟩ => rfl)

/-- The fourth bias, broadcast along rows, is read at `d`. -/
private theorem bidx15 (n : Fin 1000000) (d : Fin 3) : idx_main_v15 (idx_main_v16 (ix2 n d)) = ix1 d :=
  funext fun a => Fin.ext (by match a with | ⟨0, _⟩ => rfl)

/-- The sum of squares at row `n` reads coordinate `d` of that row. -/
private theorem ridx20 (n : Fin 1000000) (d : Fin 3) : idx_main_v20 (ix1 n) d = ix2 n d :=
  funext fun a => Fin.ext (by match a with | ⟨0, _⟩ => rfl | ⟨1, _⟩ => rfl)

/-! ### The second network, the reconstruction and its squared error -/

/-- Hidden unit `k` of the second network at row `n`. -/
private theorem hidG_ref (n : Fin 1000000) (k : Fin 128) :
    val_main_v13 (F := Ideal) x0 x5 x6 x7 x8 x9 x10 (ix2 n k)
      = hidG (paramsOf x5 x6 x7 x8 x9 x10 x11 x12) (rowAt x0 n) k := by
  rw [val_main_v13_apply, val_main_v12_apply, val_main_v9_apply, val_main_v11_apply, val_main_v10_apply,
    val_main_call1_v0_apply, val_main_call1_cst_apply]
  simp only [Ideal.addf_def, Ideal.maximumf_def, Ideal.ofBits_def, Ideal.ofBits_zero_f32, lidx9, ridx9, bidx10,
    aff_ref x0 x5 x6 x7 x8 x9 x10 x11 x12]
  rfl

/-- The reconstruction at `(n, d)`: `recon` of row `n`. -/
theorem recon_ref (n : Fin 1000000) (d : Fin 3) :
    val_main_v17 (F := Ideal) x0 x5 x6 x7 x8 x9 x10 x11 x12 (ix2 n d)
      = recon (paramsOf x5 x6 x7 x8 x9 x10 x11 x12) (rowAt x0 n) d := by
  rw [val_main_v17_apply, val_main_v14_apply, val_main_v16_apply, val_main_v15_apply]
  simp only [Ideal.addf_def, lidx14, ridx14, bidx15, hidG_ref x0 x5 x6 x7 x8 x9 x10 x11 x12]
  rfl

/-- The squared error at `n`: `err` of row `n`. -/
theorem err_ref (n : Fin 1000000) :
    val_main_v20 (F := Ideal) x0 x5 x6 x7 x8 x9 x10 x11 x12 (ix1 n) = err (paramsOf x5 x6 x7 x8 x9 x10 x11 x12) (rowAt x0 n) := by
  rw [val_main_v20_apply, val_main_cst_apply]
  simp only [val_main_v19_apply, val_main_v18_apply, Ideal.mulf_def, Ideal.subf_def, Ideal.ofBits_def,
    Ideal.ofBits_zero_f32, zero_add, ridx20, recon_ref x0 x5 x6 x7 x8 x9 x10 x11 x12]
  rfl

/-! ### The segment sums -/

/-- The column of ids `[N] → [N, 1]` at `(n, 0)` is id `n`. -/
private theorem ids_at (n : Fin 1000000) : idx_main_v22 (ix2 n (0 : Fin 1)) = ix1 n :=
  funext fun a => Fin.ext (by match a with | ⟨0, _⟩ => rfl)

/-- The same column of ids as the count's scatter builds it. -/
private theorem ids_at_cnt (n : Fin 1000000) : idx_main_v26 (ix2 n (0 : Fin 1)) = ix1 n :=
  funext fun a => Fin.ext (by match a with | ⟨0, _⟩ => rfl)

/-- The same column of ids as the affordances' scatter builds it. -/
private theorem ids_at_aff (n : Fin 1000000) : idx_main_v33 (ix2 n (0 : Fin 1)) = ix1 n :=
  funext fun a => Fin.ext (by match a with | ⟨0, _⟩ => rfl)

/-- The same column of ids as the second count's scatter builds it. -/
private theorem ids_at_cnt' (n : Fin 1000000) : idx_main_v37 (ix2 n (0 : Fin 1)) = ix1 n :=
  funext fun a => Fin.ext (by match a with | ⟨0, _⟩ => rfl)

/-- The per-segment column `[64] → [64, 1]` at `(b, 0)` is entry `b`. -/
private theorem seg_at (b : Fin 64) : idx_main_v31 (ix2 b (0 : Fin 1)) = ix1 b :=
  funext fun a => Fin.ext (by match a with | ⟨0, _⟩ => rfl)

/-- The count's column `[64] → [64, 1] → [64, 16]` at `(b, j)` is entry `b`. -/
private theorem cnt_at (b : Fin 64) (j : Fin 16) : idx_main_v41 (idx_main_v42 (ix2 b j)) = ix1 b :=
  funext fun a => Fin.ext (by match a with | ⟨0, _⟩ => rfl)

/-- Entry 16 of a row's vector is its squared error. -/
private theorem col_err (P : Params) (pos : Fin 1000000 → Fin 3 → EReal) (n : Fin 1000000) :
    col P pos n 16 = err P (pos n) := by
  unfold col
  rw [dif_neg (by decide), if_pos (by decide)]

/-- Entry 17 of a row's vector is one. -/
private theorem col_one (P : Params) (pos : Fin 1000000 → Fin 3 → EReal) (n : Fin 1000000) :
    col P pos n 17 = 1 := by
  unfold col
  rw [dif_neg (by decide), if_neg (by decide)]

/-- Entry `j < 16` of a row's vector is affordance `j`. -/
private theorem col_aff (P : Params) (pos : Fin 1000000 → Fin 3 → EReal) (n : Fin 1000000) (j : Fin 16)
    (h : j.val < 18) : col P pos n ⟨j.val, h⟩ = aff P (pos n) j := by
  unfold col
  rw [dif_pos (show (⟨j.val, h⟩ : Fin 18).val < 16 from j.isLt)]

/-- Segment `b`'s sum of squared errors: the scatter of the errors into zeros. -/
private theorem seg_err (b : Fin 64) :
    val_main_v23 (F := Ideal) x0 x1 x5 x6 x7 x8 x9 x10 x11 x12 (ix1 b)
      = total (paramsOf x5 x6 x7 x8 x9 x10 x11 x12) (fun n => rowAt x0 n) (fun n => x1 (ix1 n)) b 16 := by
  unfold val_main_v23
  rw [ScatterAt.scatter1_at, val_main_v21_apply, val_main_cst_0_apply, total_eq_filter]
  simp only [Ideal.ofBits_def, Ideal.ofBits_zero_f32, zero_add, val_main_v22_apply, ids_at,
    err_ref x0 x5 x6 x7 x8 x9 x10 x11 x12, col_err]

/-- Segment `b`'s count: the scatter of ones into zeros. -/
private theorem seg_cnt (b : Fin 64) :
    val_main_v27 (F := Ideal) x1 (ix1 b)
      = total (paramsOf x5 x6 x7 x8 x9 x10 x11 x12) (fun n => rowAt x0 n) (fun n => x1 (ix1 n)) b 17 := by
  unfold val_main_v27
  rw [ScatterAt.scatter1_at, val_main_v25_apply, val_main_cst_2_apply, total_eq_filter]
  simp only [Ideal.ofBits_def, Ideal.ofBits_zero_f32, zero_add, val_main_v26_apply, ids_at_cnt,
    val_main_v24_apply, val_main_cst_1_apply, Ideal.ofBits_one_f32, col_one]

/-- Segment `b`'s count as the mean's divisor builds it: the same scatter of ones into zeros. -/
private theorem seg_cnt' (b : Fin 64) :
    val_main_v38 (F := Ideal) x1 (ix1 b)
      = total (paramsOf x5 x6 x7 x8 x9 x10 x11 x12) (fun n => rowAt x0 n) (fun n => x1 (ix1 n)) b 17 := by
  unfold val_main_v38
  rw [ScatterAt.scatter1_at, val_main_v36_apply, val_main_cst_6_apply, total_eq_filter]
  simp only [Ideal.ofBits_def, Ideal.ofBits_zero_f32, zero_add, val_main_v37_apply, ids_at_cnt',
    val_main_v35_apply, val_main_cst_5_apply, Ideal.ofBits_one_f32, col_one]

/-- Segment `b`'s sum of affordance `j`: the row scatter of the affordances into zeros, column `j`. -/
private theorem seg_aff (b : Fin 64) (j : Fin 16) (h : j.val < 18) :
    val_main_v34 (F := Ideal) x0 x1 x5 x6 x7 x8 (ix2 b j)
      = total (paramsOf x5 x6 x7 x8 x9 x10 x11 x12) (fun n => rowAt x0 n) (fun n => x1 (ix1 n)) b ⟨j.val, h⟩ := by
  unfold val_main_v34
  rw [ScatterAt.scatter2_at, val_main_v32_apply, val_main_cst_4_apply, total_eq_filter]
  simp only [Ideal.ofBits_def, Ideal.ofBits_zero_f32, zero_add, val_main_v33_apply, ids_at_aff,
    aff_ref x0 x5 x6 x7 x8 x9 x10 x11 x12, col_aff]

/-- The coherence signal at `(b, 0)`: the segment's error sum over the count's maximum with one. -/
theorem sig_ref (b : Fin 64) :
    val_main_v31 (F := Ideal) x0 x1 x5 x6 x7 x8 x9 x10 x11 x12 (ix2 b 0)
      = Ideal.div (total (paramsOf x5 x6 x7 x8 x9 x10 x11 x12) (fun n => rowAt x0 n) (fun n => x1 (ix1 n)) b 16)
          (max (total (paramsOf x5 x6 x7 x8 x9 x10 x11 x12) (fun n => rowAt x0 n) (fun n => x1 (ix1 n)) b 17) 1) := by
  rw [val_main_v31_apply, seg_at, val_main_v30_apply, val_main_v29_apply, val_main_v28_apply, val_main_cst_3_apply,
    seg_err x0 x1 x5 x6 x7 x8 x9 x10 x11 x12, seg_cnt x0 x1 x5 x6 x7 x8 x9 x10 x11 x12]
  simp only [Ideal.hostDivf_def, Ideal.maximumf_def, Ideal.ofBits_def, Ideal.ofBits_one_f32]

/-- The mean affordances at `(b, j)`: the segment's sum of column `j` over the count's maximum with one. -/
theorem ba_ref (b : Fin 64) (j : Fin 16) :
    val_main_v43 (F := Ideal) x0 x1 x5 x6 x7 x8 (ix2 b j)
      = Ideal.div (total (paramsOf x5 x6 x7 x8 x9 x10 x11 x12) (fun n => rowAt x0 n) (fun n => x1 (ix1 n)) b ⟨j.val, by omega⟩)
          (max (total (paramsOf x5 x6 x7 x8 x9 x10 x11 x12) (fun n => rowAt x0 n) (fun n => x1 (ix1 n)) b 17) 1) := by
  rw [val_main_v43_apply, val_main_v42_apply, val_main_v41_apply, cnt_at, val_main_v40_apply, val_main_v39_apply,
    val_main_cst_7_apply, seg_aff x0 x1 x5 x6 x7 x8 x9 x10 x11 x12 b j (by omega),
    seg_cnt' x0 x1 x5 x6 x7 x8 x9 x10 x11 x12]
  simp only [Ideal.hostDivf_def, Ideal.maximumf_def, Ideal.ofBits_def, Ideal.ofBits_one_f32]

end Cert.ReferenceIdeal.RefStages

end
-- ==== Proof.Bridge.lean ====
/-
  The kernel's results and the reference's, as one function of the arguments, over the extended reals.

  Each of the kernel's per-row arrays and each of the reference's per-row stages is the same row function of `pos`,
  so they are equal index by index. For a segment, the kernel adds the two cores' sums of their tiles' one-hot
  products, which is the one-hot weighted sum over all rows, and the reference's scatter is the sum over the rows of
  the segment, the same number; both divide by the count's maximum with one.
-/
import proofs.«415734_j84988812853402_4_alg».proof.Proof.ArrayValue
import proofs.«415734_j84988812853402_4_alg».proof.Proof.AccValue
import proofs.«415734_j84988812853402_4_alg».proof.Proof.TailTerms
import proofs.«415734_j84988812853402_4_alg».proof.Proof.RefStages
import proofs.«415734_j84988812853402_4_alg».proof.Proof.SegSpec

noncomputable section

namespace Cert.Bridge

open Idealize.ShloMosaic Idealize.ShloMosaic.TcCoe Idealize.SL.Sem Idealize.ShloMosaic.ValueIdx
open Cert.KernelIdeal Cert.KernelIdeal.Facts₀ Cert.KernelIdeal.Facts Cert.KernelIdeal.KernelArgs Cert.RowSpec Cert.SegSpec

variable (m : (ℓ : Loc nD τ sig) → Buf (Elt Ideal) ℓ) (c : Dev nD)

/-- The kernel program's argument `k` as memory holds it on core `c`. -/
abbrev A0 := m ((c.tc : Thread nD τ).loc main_arg0)
abbrev A1 := m ((c.tc : Thread nD τ).loc main_arg1)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)
abbrev A10 := m ((c.tc : Thread nD τ).loc main_arg10)
abbrev A11 := m ((c.tc : Thread nD τ).loc main_arg11)
abbrev A12 := m ((c.tc : Thread nD τ).loc main_arg12)

/-- The accumulator array at `(k, b, j)` is core `k`'s sum for segment `b` and column `j`, in the arguments' words. -/
private theorem G13_at (k : Fin 2) (b : Fin 64) (j : Fin 18) :
    Cert.KernelIdeal.AccValue.G13 m c (ix3 k b j)
      = coreSum (paramsOf (A5 m c) (A6 m c) (A7 m c) (A8 m c) (A9 m c) (A10 m c) (A11 m c) (A12 m c))
          (fun n => rowAt (A0 m c) n) (fun n => A1 m c (ix1 n)) k b j := rfl

/-- The affordances. -/
theorem aff_bridge :
    Cert.KernelIdeal.ArrayValue.G10 m c
      = Cert.ReferenceIdeal.Read.val_main_v8 (F := Ideal) (A0 m c) (A5 m c) (A6 m c) (A7 m c) (A8 m c) := by
  funext i
  obtain ⟨n, j, rfl⟩ : ∃ (n : Fin 1000000) (j : Fin 16), i = ix2 n j := ⟨i 0, i 1, eq_ix2 i⟩
  rw [Cert.ReferenceIdeal.RefStages.aff_ref (A0 m c) (A5 m c) (A6 m c) (A7 m c) (A8 m c) (A9 m c) (A10 m c) (A11 m c)
    (A12 m c) n j]
  rfl

/-- The reconstruction. -/
theorem recon_bridge :
    Cert.KernelIdeal.ArrayValue.G11 m c
      = Cert.ReferenceIdeal.Read.val_main_v17 (F := Ideal) (A0 m c) (A5 m c) (A6 m c) (A7 m c) (A8 m c) (A9 m c) (A10 m c)
          (A11 m c) (A12 m c) := by
  funext i
  obtain ⟨n, d, rfl⟩ : ∃ (n : Fin 1000000) (d : Fin 3), i = ix2 n d := ⟨i 0, i 1, eq_ix2 i⟩
  rw [Cert.ReferenceIdeal.RefStages.recon_ref (A0 m c) (A5 m c) (A6 m c) (A7 m c) (A8 m c) (A9 m c) (A10 m c) (A11 m c)
    (A12 m c) n d]
  rfl

/-- The squared errors: the kernel's [1000000, 1] column flattened. -/
theorem err_bridge :
    shapeCast S1000000 (Cert.KernelIdeal.ArrayValue.G12 m c) shapeCasts_S1000000x1_S1000000
      = Cert.ReferenceIdeal.Read.val_main_v20 (F := Ideal) (A0 m c) (A5 m c) (A6 m c) (A7 m c) (A8 m c) (A9 m c) (A10 m c)
          (A11 m c) (A12 m c) := by
  funext i
  obtain ⟨n, rfl⟩ : ∃ n : Fin 1000000, i = ix1 n := ⟨i 0, eq_ix1 i⟩
  -- entry `n` of the flattened column is entry `(n, 0)` of the column: the same row-major position
  have e : shapeCast S1000000 (Cert.KernelIdeal.ArrayValue.G12 m c) shapeCasts_S1000000x1_S1000000 (ix1 n)
      = Cert.KernelIdeal.ArrayValue.G12 m c (ix2 n 0) := by
    refine shapeCast_apply _ _ _ (ix2 n 0) ?_
    rw [Shape.rowMajor_val_two, Shape.rowMajor_val_one]
    show n.val * 1 + 0 = n.val
    omega
  rw [e, Cert.ReferenceIdeal.RefStages.err_ref (A0 m c) (A5 m c) (A6 m c) (A7 m c) (A8 m c) (A9 m c) (A10 m c) (A11 m c)
    (A12 m c) n]
  rfl

/-- The coherence signal. -/
theorem sig_bridge :
    Cert.KernelIdeal.TailTerms.sigK (F := Ideal) (Cert.KernelIdeal.AccValue.G13 m c)
      = Cert.ReferenceIdeal.Read.val_main_v31 (F := Ideal) (A0 m c) (A1 m c) (A5 m c) (A6 m c) (A7 m c) (A8 m c) (A9 m c)
          (A10 m c) (A11 m c) (A12 m c) := by
  funext i
  obtain ⟨b, u, rfl⟩ : ∃ (b : Fin 64) (u : Fin 1), i = ix2 b u := ⟨i 0, i 1, eq_ix2 i⟩
  obtain rfl : u = 0 := Subsingleton.elim _ _
  -- the two cores' sums add up to the sum over all rows
  rw [Cert.KernelIdeal.TailTerms.sigK_at, G13_at, G13_at, G13_at, G13_at,
    Cert.ReferenceIdeal.RefStages.sig_ref (A0 m c) (A1 m c) (A5 m c) (A6 m c) (A7 m c) (A8 m c) (A9 m c) (A10 m c) (A11 m c)
      (A12 m c) b,
    total_eq_cores, total_eq_cores]

/-- The mean affordances. -/
theorem ba_bridge :
    Cert.KernelIdeal.TailTerms.baK (F := Ideal) (Cert.KernelIdeal.AccValue.G13 m c)
      = Cert.ReferenceIdeal.Read.val_main_v43 (F := Ideal) (A0 m c) (A1 m c) (A5 m c) (A6 m c) (A7 m c) (A8 m c) := by
  funext i
  obtain ⟨b, j, rfl⟩ : ∃ (b : Fin 64) (j : Fin 16), i = ix2 b j := ⟨i 0, i 1, eq_ix2 i⟩
  rw [Cert.KernelIdeal.TailTerms.baK_at, G13_at, G13_at, G13_at, G13_at,
    Cert.ReferenceIdeal.RefStages.ba_ref (A0 m c) (A1 m c) (A5 m c) (A6 m c) (A7 m c) (A8 m c) (A9 m c) (A10 m c) (A11 m c)
      (A12 m c) b j,
    total_eq_cores, total_eq_cores]

end Cert.Bridge

end
-- ==== Proof.KernelTail.lean ====
/-
  What the kernel program's host lines after the call leave in its other four results, as functions of the
  accumulator array, the squared-error column and the arguments.

  After the call the program flattens the [1000000, 1] squared-error column, adds the two cores' accumulator blocks,
  divides the error sums and the affordance sums by the counts' maximum with one — the coherence signal and the mean
  affordances — and runs the recurrent cell and the two heads on the mean affordances. The cell and the heads are, line
  for line, the reference's own last lines on ITS mean affordances: the same products, biases, slices, logistic and
  tanh gates and the same two heads of the same arguments. So once the two mean-affordance arrays are equal, the next
  hidden state and the action are the reference's stages of the same arguments, operation by operation.
-/
import proofs.«415734_j84988812853402_4_alg».proof.Proof.Patched.KernelIdeal.Frame
import proofs.«415734_j84988812853402_4_alg».proof.Proof.TailTerms
import proofs.«415734_j84988812853402_4_alg».proof.Proof.Bridge
import proofs.«415734_j84988812853402_4_alg».proof.Proof.Gen.ReferenceIdeal.Read
import Idealize.ShloMosaic.Lib.Pipeline.Value
import Idealize.ShloMosaic.Lib.StableHlo.Run
import Idealize.ShloMosaic.Lib.Tactic

noncomputable section

namespace Cert.KernelIdeal.KernelTail

open Idealize.ShloMosaic Idealize.ShloMosaic.TcCoe Idealize.SL.Sem
open Cert.KernelIdeal Cert.KernelIdeal.Facts₀ Cert.KernelIdeal.Facts Cert.KernelIdeal.Gen Cert.KernelIdeal.GenP
open Cert.KernelIdeal.TailTerms Cert.Bridge

variable (m : (ℓ : Loc nD τ sig) → Buf (Elt Ideal) ℓ) (c : Dev nD)

/-- The accumulator array and the squared-error column after the call. -/
abbrev acc : Vec Ideal S2x64x18 .f32 := (dats m 0 c).arrAt 13 cfg0.N
abbrev errs : Vec Ideal S1000000x1 .f32 := (dats m 0 c).arrAt 12 cfg0.N

/-- The other arguments the last lines read, as memory holds them. -/
abbrev A2 := m ((c.tc : Thread nD τ).loc main_arg2)
abbrev A13 := m ((c.tc : Thread nD τ).loc main_arg13)
abbrev A14 := m ((c.tc : Thread nD τ).loc main_arg14)
abbrev A15 := m ((c.tc : Thread nD τ).loc main_arg15)
abbrev A16 := m ((c.tc : Thread nD τ).loc main_arg16)
abbrev A17 := m ((c.tc : Thread nD τ).loc main_arg17)
abbrev A18 := m ((c.tc : Thread nD τ).loc main_arg18)
abbrev A19 := m ((c.tc : Thread nD τ).loc main_arg19)
abbrev A20 := m ((c.tc : Thread nD τ).loc main_arg20)

/-- After the call a window's array holds what the call left in it. -/
theorem wa13 : Pipeline.withArrays (cfgs 0).spec c (V0 m c) (fun w => (dats m 0 c).arrAt w (cfgs 0).N)
    (Proc.tc.devRef main_v1_3) = acc m c :=
  Pipeline.withArrays_arr spec0 launch0.win.arr_inj c _ _ 13
theorem wa12 : Pipeline.withArrays (cfgs 0).spec c (V0 m c) (fun w => (dats m 0 c).arrAt w (cfgs 0).N)
    (Proc.tc.devRef main_v1_2) = errs m c :=
  Pipeline.withArrays_arr spec0 launch0.win.arr_inj c _ _ 12

/-- An argument that is no window's array holds what it was launched with. -/
theorem wa_arg2 : Pipeline.withArrays (cfgs 0).spec c (V0 m c) (fun w => (dats m 0 c).arrAt w (cfgs 0).N)
    (Proc.tc.devRef main_arg2) = A2 m c :=
  (Pipeline.withArrays_of_ne _ c (V0 m c) _ main_arg2 (by exact (by decide : ∀ w, Pipeline.arrRef spec0 w ≠ main_arg2))).trans
    (V_main_arg2 m c)
theorem wa_arg13 : Pipeline.withArrays (cfgs 0).spec c (V0 m c) (fun w => (dats m 0 c).arrAt w (cfgs 0).N)
    (Proc.tc.devRef main_arg13) = A13 m c :=
  (Pipeline.withArrays_of_ne _ c (V0 m c) _ main_arg13 (by exact (by decide : ∀ w, Pipeline.arrRef spec0 w ≠ main_arg13))).trans
    (V_main_arg13 m c)
theorem wa_arg14 : Pipeline.withArrays (cfgs 0).spec c (V0 m c) (fun w => (dats m 0 c).arrAt w (cfgs 0).N)
    (Proc.tc.devRef main_arg14) = A14 m c :=
  (Pipeline.withArrays_of_ne _ c (V0 m c) _ main_arg14 (by exact (by decide : ∀ w, Pipeline.arrRef spec0 w ≠ main_arg14))).trans
    (V_main_arg14 m c)
theorem wa_arg15 : Pipeline.withArrays (cfgs 0).spec c (V0 m c) (fun w => (dats m 0 c).arrAt w (cfgs 0).N)
    (Proc.tc.devRef main_arg15) = A15 m c :=
  (Pipeline.withArrays_of_ne _ c (V0 m c) _ main_arg15 (by exact (by decide : ∀ w, Pipeline.arrRef spec0 w ≠ main_arg15))).trans
    (V_main_arg15 m c)
theorem wa_arg16 : Pipeline.withArrays (cfgs 0).spec c (V0 m c) (fun w => (dats m 0 c).arrAt w (cfgs 0).N)
    (Proc.tc.devRef main_arg16) = A16 m c :=
  (Pipeline.withArrays_of_ne _ c (V0 m c) _ main_arg16 (by exact (by decide : ∀ w, Pipeline.arrRef spec0 w ≠ main_arg16))).trans
    (V_main_arg16 m c)
theorem wa_arg17 : Pipeline.withArrays (cfgs 0).spec c (V0 m c) (fun w => (dats m 0 c).arrAt w (cfgs 0).N)
    (Proc.tc.devRef main_arg17) = A17 m c :=
  (Pipeline.withArrays_of_ne _ c (V0 m c) _ main_arg17 (by exact (by decide : ∀ w, Pipeline.arrRef spec0 w ≠ main_arg17))).trans
    (V_main_arg17 m c)
theorem wa_arg18 : Pipeline.withArrays (cfgs 0).spec c (V0 m c) (fun w => (dats m 0 c).arrAt w (cfgs 0).N)
    (Proc.tc.devRef main_arg18) = A18 m c :=
  (Pipeline.withArrays_of_ne _ c (V0 m c) _ main_arg18 (by exact (by decide : ∀ w, Pipeline.arrRef spec0 w ≠ main_arg18))).trans
    (V_main_arg18 m c)
theorem wa_arg19 : Pipeline.withArrays (cfgs 0).spec c (V0 m c) (fun w => (dats m 0 c).arrAt w (cfgs 0).N)
    (Proc.tc.devRef main_arg19) = A19 m c :=
  (Pipeline.withArrays_of_ne _ c (V0 m c) _ main_arg19 (by exact (by decide : ∀ w, Pipeline.arrRef spec0 w ≠ main_arg19))).trans
    (V_main_arg19 m c)
theorem wa_arg20 : Pipeline.withArrays (cfgs 0).spec c (V0 m c) (fun w => (dats m 0 c).arrAt w (cfgs 0).N)
    (Proc.tc.devRef main_arg20) = A20 m c :=
  (Pipeline.withArrays_of_ne _ c (V0 m c) _ main_arg20 (by exact (by decide : ∀ w, Pipeline.arrRef spec0 w ≠ main_arg20))).trans
    (V_main_arg20 m c)

/-- The coherence signal the program returns. -/
theorem tail_v9 : Pipeline.afterTail₀ cfgs (dats m) 0 (V0 m) [hostOps1] c main_v9 = sigK (acc m c) := by
  unfold Pipeline.afterTail₀
  show StableHlo.after hostOps1 _ (Proc.devRef .tc main_v9) = _
  after_results
  rw [wa13]
  rfl

/-- The flattened squared errors the program returns. -/
theorem tail_v2 : Pipeline.afterTail₀ cfgs (dats m) 0 (V0 m) [hostOps1] c main_v2
    = shapeCast S1000000 (errs m c) Facts₀.shapeCasts_S1000000x1_S1000000 := by
  unfold Pipeline.afterTail₀
  show StableHlo.after hostOps1 _ (Proc.devRef .tc main_v2) = _
  after_results
  rw [wa12]
  rfl

set_option maxHeartbeats 2000000 in
/-- The next hidden state: the reference's, once the mean affordances agree. -/
theorem tail_v47
    (hba : baK (acc m c) = Cert.ReferenceIdeal.Read.val_main_v43 (F := Ideal) (A0 m c) (A1 m c) (A5 m c) (A6 m c) (A7 m c) (A8 m c)) :
    Pipeline.afterTail₀ cfgs (dats m) 0 (V0 m) [hostOps1] c main_v47
      = Cert.ReferenceIdeal.Read.val_main_v79 (F := Ideal) (A0 m c) (A1 m c) (A2 m c) (A5 m c) (A6 m c) (A7 m c) (A8 m c)
          (A13 m c) (A14 m c) (A15 m c) (A16 m c) := by
  unfold Pipeline.afterTail₀
  show StableHlo.after hostOps1 _ (Proc.devRef .tc main_v47) = _
  after_results_simp
  rw [wa13, wa_arg2, wa_arg13, wa_arg14, wa_arg15, wa_arg16]
  unfold baK denK tot at hba
  rw [hba]
  rfl

set_option maxHeartbeats 2000000 in
/-- The action: the reference's, once the mean affordances agree. -/
theorem tail_v56
    (hba : baK (acc m c) = Cert.ReferenceIdeal.Read.val_main_v43 (F := Ideal) (A0 m c) (A1 m c) (A5 m c) (A6 m c) (A7 m c) (A8 m c)) :
    Pipeline.afterTail₀ cfgs (dats m) 0 (V0 m) [hostOps1] c main_v56
      = Cert.ReferenceIdeal.Read.val_main_v88 (F := Ideal) (A0 m c) (A1 m c) (A2 m c) (A5 m c) (A6 m c) (A7 m c) (A8 m c)
          (A13 m c) (A14 m c) (A15 m c) (A16 m c) (A17 m c) (A18 m c) (A19 m c) (A20 m c) := by
  unfold Pipeline.afterTail₀
  show StableHlo.after hostOps1 _ (Proc.devRef .tc main_v56) = _
  after_results_simp
  rw [wa13, wa_arg2, wa_arg13, wa_arg14, wa_arg15, wa_arg16, wa_arg17, wa_arg18, wa_arg19, wa_arg20]
  unfold baK denK tot at hba
  rw [hba]
  rfl

end Cert.KernelIdeal.KernelTail

end
-- ==== Proof.KernelRun.lean ====
/-
  The kernel program's run, read: every weakly fair execution terminates with each of its six results at the
  reference's stage of the same arguments, and with the arguments unchanged.

  The affordances and the reconstruction are the call's own output arrays; the coherence signal, the flattened squared
  errors, the action and the next hidden state are what the host lines after the call compute from the call's other
  two arrays. Each equals the reference's stage: the per-row arrays row by row, the segment quotients through the
  one-hot sums, the recurrent cell and the heads operation by operation.
-/
import proofs.«415734_j84988812853402_4_alg».proof.Proof.KernelTail
import proofs.«415734_j84988812853402_4_alg».proof.Proof.ArrayValue
import proofs.«415734_j84988812853402_4_alg».proof.Proof.AccValue
import proofs.«415734_j84988812853402_4_alg».proof.Proof.Bridge

noncomputable section

namespace Cert.KernelIdeal.KernelRun

open Idealize.ShloMosaic Idealize.ShloMosaic.TcCoe Idealize.SL.Sem
open Cert.KernelIdeal Cert.KernelIdeal.Gen Cert.KernelIdeal.GenP
open Cert.KernelIdeal.TailTerms Cert.KernelIdeal.KernelTail Cert.Bridge

variable (m : (ℓ : Loc nD τ sig) → Buf (Elt Ideal) ℓ) (ρ : Dev nD → PrngReg)

/-- The mean affordances the kernel program computes are the reference's. -/
theorem ba_eq (c : Dev nD) :
    baK (acc m c) = Cert.ReferenceIdeal.Read.val_main_v43 (F := Ideal) (A0 m c) (A1 m c) (A5 m c) (A6 m c) (A7 m c) (A8 m c) := by
  rw [show acc m c = Cert.KernelIdeal.AccValue.G13 m c from Cert.KernelIdeal.AccValue.final13 m c]
  exact ba_bridge m c

set_option maxHeartbeats 1000000 in
theorem run : θ_run defs (onTc (τ := τ) (main (F := Ideal))) ⟨m, fun _ => 0, ρ⟩ (fun r => ∀ c : Dev nD,
      r.2.mem ((c.tc : Thread nD τ).loc main_v1_0)
        = Cert.ReferenceIdeal.Read.val_main_v8 (F := Ideal) (A0 m c) (A5 m c) (A6 m c) (A7 m c) (A8 m c)
      ∧ r.2.mem ((c.tc : Thread nD τ).loc main_v1_1)
        = Cert.ReferenceIdeal.Read.val_main_v17 (F := Ideal) (A0 m c) (A5 m c) (A6 m c) (A7 m c) (A8 m c) (A9 m c) (A10 m c) (A11 m c) (A12 m c)
      ∧ r.2.mem ((c.tc : Thread nD τ).loc main_v9)
        = Cert.ReferenceIdeal.Read.val_main_v31 (F := Ideal) (A0 m c) (A1 m c) (A5 m c) (A6 m c) (A7 m c) (A8 m c) (A9 m c) (A10 m c) (A11 m c) (A12 m c)
      ∧ r.2.mem ((c.tc : Thread nD τ).loc main_v2)
        = Cert.ReferenceIdeal.Read.val_main_v20 (F := Ideal) (A0 m c) (A5 m c) (A6 m c) (A7 m c) (A8 m c) (A9 m c) (A10 m c) (A11 m c) (A12 m c)
      ∧ r.2.mem ((c.tc : Thread nD τ).loc main_v56)
        = Cert.ReferenceIdeal.Read.val_main_v88 (F := Ideal) (A0 m c) (A1 m c) (A2 m c) (A5 m c) (A6 m c) (A7 m c) (A8 m c) (A13 m c) (A14 m c) (A15 m c) (A16 m c) (A17 m c) (A18 m c) (A19 m c) (A20 m c)
      ∧ r.2.mem ((c.tc : Thread nD τ).loc main_v47)
        = Cert.ReferenceIdeal.Read.val_main_v79 (F := Ideal) (A0 m c) (A1 m c) (A2 m c) (A5 m c) (A6 m c) (A7 m c) (A8 m c) (A13 m c) (A14 m c) (A15 m c) (A16 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨
      ((h c).1 10).trans ((Cert.KernelIdeal.ArrayValue.final10 m c).trans (aff_bridge m c)),
      ((h c).1 11).trans ((Cert.KernelIdeal.ArrayValue.final11 m c).trans (recon_bridge m c)),
      ((h c).2 main_v9 (Pipeline.mem_restRefs_of main_v9 (by decide) (by decide))).trans ((tail_v9 m c).trans (by
        rw [show acc m c = Cert.KernelIdeal.AccValue.G13 m c from Cert.KernelIdeal.AccValue.final13 m c]
        exact sig_bridge m c)),
      ((h c).2 main_v2 (Pipeline.mem_restRefs_of main_v2 (by decide) (by decide))).trans ((tail_v2 m c).trans (by
        rw [show errs m c = Cert.KernelIdeal.ArrayValue.G12 m c from Cert.KernelIdeal.ArrayValue.final12 m c]
        exact err_bridge m c)),
      ((h c).2 main_v56 (Pipeline.mem_restRefs_of main_v56 (by decide) (by decide))).trans (tail_v56 m c (ba_eq m c)),
      ((h c).2 main_v47 (Pipeline.mem_restRefs_of main_v47 (by decide) (by decide))).trans (tail_v47 m c (ba_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c))),
      ((h c).1 6).trans (((dats m 0 c).arrAt_in 6 rfl _).trans ((A_eq m c 6).trans (V_main_arg9 m c))),
      ((h c).1 7).trans (((dats m 0 c).arrAt_in 7 rfl _).trans ((A_eq m c 7).trans (V_main_arg10 m c))),
      ((h c).1 8).trans (((dats m 0 c).arrAt_in 8 rfl _).trans ((A_eq m c 8).trans (V_main_arg11 m c))),
      ((h c).1 9).trans (((dats m 0 c).arrAt_in 9 rfl _).trans ((A_eq m c 9).trans (V_main_arg12 m c))),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c)⟩) (run_main m ρ)

end Cert.KernelIdeal.KernelRun

end
-- ==== Proof.lean ====
/-
  The certificate of a per-point encoder and decoder with segment means and a recurrent cell.

  For 1000000 points with positions `pos` and sorted-or-not integer ids `batch`, both programs compute, row by row,
  the affordances `aff` (a 3 → 128 → 16 network with a positive-part hidden layer), the reconstructed position
  `recon` (16 → 128 → 3 on the affordances) and the squared reconstruction error `err`; per segment `b < 64` the sums
  of the errors, of the affordances and of ones over the rows whose id is `b`, divided by the count's maximum with
  one (the coherence signal and the mean affordances); and a gated recurrent cell with two heads on the mean
  affordances and the hidden state (the next hidden state and the action).

  The kernel computes the per-row results a tile of 10000 rows at a time and the segment sums as a one-hot matrix
  product per tile, accumulated over the 50 tiles of each of two cores and added over the cores by the host; the
  reference computes the per-row results on all rows at once and the segment sums by accumulating scatters. Over the
  extended reals a row's results depend on that row alone, `0 · x = 0` and `1 · x = x` for every `x`, and addition is
  commutative and associative, so the one-hot sums over tiles and cores are the sums over the rows of a segment
  (an id outside `0 ≤ · < 64` matches no column of the one-hot matrix and is dropped by the scatter alike); the cell
  and the heads are the same operations on both sides. No finiteness of the inputs is used.

  `frame_Kernel` and `frame_KernelIdeal` are the generated frames; `frame_ReferenceIdeal` is the reference's generated
  run with the results dropped; `preserves_Kernel_KernelIdeal` has no entry; `algebraic_KernelIdeal_ReferenceIdeal`
  takes for each result the reference's stage of the kernel's arguments.
-/
import proofs.«415734_j84988812853402_4_alg».proof.Defs
import proofs.«415734_j84988812853402_4_alg».proof.Proof.Gen.Kernel
import proofs.«415734_j84988812853402_4_alg».proof.Proof.Gen.KernelIdeal
import proofs.«415734_j84988812853402_4_alg».proof.Proof.Gen.ReferenceIdeal
import proofs.«415734_j84988812853402_4_alg».proof.Proof.Gen.Pre_finite_inputs
import proofs.«415734_j84988812853402_4_alg».proof.Proof.Gen.ReferenceIdeal.Read
import proofs.«415734_j84988812853402_4_alg».proof.Proof.Patched.Kernel.Frame
import proofs.«415734_j84988812853402_4_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's run with its six results dropped. -/
theorem frame_referenceIdeal : Cert.frame_ReferenceIdeal := fun m ρ _ =>
  (θ_run Cert.ReferenceIdeal.defs _ _).mono (fun _ h c => (h c).2.2.2.2.2.2)
    (Cert.ReferenceIdeal.Value.run (F := Ideal) m ρ)

theorem preserves : Cert.preserves_Kernel_KernelIdeal := trivial

set_option maxHeartbeats 1000000 in
/-- Each result of both programs is the reference's stage of the kernel's arguments: the kernel's by its run read
    (`KernelRun.run`), the reference's by its generated run, the stages' names and the agreement of the arguments. -/
theorem algebraic : Cert.algebraic_KernelIdeal_ReferenceIdeal := by
  intro m ρ m' ρ' _ hagree
  refine ⟨fun c => Cert.ReferenceIdeal.Read.val_main_v8 (F := Ideal) (Cert.Bridge.A0 m c) (Cert.Bridge.A5 m c) (Cert.Bridge.A6 m c) (Cert.Bridge.A7 m c) (Cert.Bridge.A8 m c),
    fun c => Cert.ReferenceIdeal.Read.val_main_v17 (F := Ideal) (Cert.Bridge.A0 m c) (Cert.Bridge.A5 m c) (Cert.Bridge.A6 m c) (Cert.Bridge.A7 m c) (Cert.Bridge.A8 m c) (Cert.Bridge.A9 m c) (Cert.Bridge.A10 m c) (Cert.Bridge.A11 m c) (Cert.Bridge.A12 m c),
    fun c => Cert.ReferenceIdeal.Read.val_main_v31 (F := Ideal) (Cert.Bridge.A0 m c) (Cert.Bridge.A1 m c) (Cert.Bridge.A5 m c) (Cert.Bridge.A6 m c) (Cert.Bridge.A7 m c) (Cert.Bridge.A8 m c) (Cert.Bridge.A9 m c) (Cert.Bridge.A10 m c) (Cert.Bridge.A11 m c) (Cert.Bridge.A12 m c),
    fun c => Cert.ReferenceIdeal.Read.val_main_v20 (F := Ideal) (Cert.Bridge.A0 m c) (Cert.Bridge.A5 m c) (Cert.Bridge.A6 m c) (Cert.Bridge.A7 m c) (Cert.Bridge.A8 m c) (Cert.Bridge.A9 m c) (Cert.Bridge.A10 m c) (Cert.Bridge.A11 m c) (Cert.Bridge.A12 m c),
    fun c => Cert.ReferenceIdeal.Read.val_main_v88 (F := Ideal) (Cert.Bridge.A0 m c) (Cert.Bridge.A1 m c) (Cert.KernelIdeal.KernelTail.A2 m c) (Cert.Bridge.A5 m c) (Cert.Bridge.A6 m c) (Cert.Bridge.A7 m c) (Cert.Bridge.A8 m c) (Cert.KernelIdeal.KernelTail.A13 m c) (Cert.KernelIdeal.KernelTail.A14 m c) (Cert.KernelIdeal.KernelTail.A15 m c) (Cert.KernelIdeal.KernelTail.A16 m c) (Cert.KernelIdeal.KernelTail.A17 m c) (Cert.KernelIdeal.KernelTail.A18 m c) (Cert.KernelIdeal.KernelTail.A19 m c) (Cert.KernelIdeal.KernelTail.A20 m c),
    fun c => Cert.ReferenceIdeal.Read.val_main_v79 (F := Ideal) (Cert.Bridge.A0 m c) (Cert.Bridge.A1 m c) (Cert.KernelIdeal.KernelTail.A2 m c) (Cert.Bridge.A5 m c) (Cert.Bridge.A6 m c) (Cert.Bridge.A7 m c) (Cert.Bridge.A8 m c) (Cert.KernelIdeal.KernelTail.A13 m c) (Cert.KernelIdeal.KernelTail.A14 m c) (Cert.KernelIdeal.KernelTail.A15 m c) (Cert.KernelIdeal.KernelTail.A16 m c),
    Cert.KernelIdeal.KernelRun.run m ρ, ?_⟩
  refine (θ_run Cert.ReferenceIdeal.defs _ _).mono (fun _ h c => ?_) (Cert.ReferenceIdeal.Value.run (F := Ideal) m' ρ')
  obtain ⟨h0, h1, h2, h3, h4, h5, hrest⟩ := h c
  obtain ⟨e0, e1, e2, e3, e4, e5, e6, e7, e8, e9, e10, e11, e12, e13, e14, e15, e16, e17, e18, e19, e20⟩ := hagree c
  refine ⟨h0.trans ?_, h1.trans ?_, h2.trans ?_, h3.trans ?_, h4.trans ?_, h5.trans ?_, hrest⟩
  · rw [Cert.ReferenceIdeal.Read.val_main_v8_eq, e0, e5, e6, e7, e8]
  · rw [Cert.ReferenceIdeal.Read.val_main_v17_eq, e0, e5, e6, e7, e8, e9, e10, e11, e12]
  · rw [Cert.ReferenceIdeal.Read.val_main_v31_eq, e0, e1, e5, e6, e7, e8, e9, e10, e11, e12]
  · rw [Cert.ReferenceIdeal.Read.val_main_v20_eq, e0, e5, e6, e7, e8, e9, e10, e11, e12]
  · rw [Cert.ReferenceIdeal.Read.val_main_v88_eq, e0, e1, e2, e5, e6, e7, e8, e13, e14, e15, e16, e17, e18, e19, e20]
  · rw [Cert.ReferenceIdeal.Read.val_main_v79_eq, e0, e1, e2, e5, e6, e7, e8, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
